-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x256 : Shape := ⟨2, ![4096, 256]⟩
abbrev S256x256 : Shape := ⟨2, ![256, 256]⟩
abbrev S256 : Shape := ⟨1, ![256]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S4096x4096 .f32) (main_arg1 : FVec F S4096x256 .f32) (main_arg2 : FVec F S256x256 .f32) (main_arg3 : FVec F S256 .f32) (main_arg4 : FVec F S256x256 .f32) (main_arg5 : FVec F S256 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S4096x4096 : Shape := ⟨2, ![4096, 4096]⟩
abbrev S4096x256 : Shape := ⟨2, ![4096, 256]⟩
abbrev S256x256 : Shape := ⟨2, ![256, 256]⟩
abbrev S256 : Shape := ⟨1, ![256]⟩
abbrev S4096 : Shape := ⟨1, ![4096]⟩
abbrev S512x4096 : Shape := ⟨2, ![512, 4096]⟩
abbrev S512 : Shape := ⟨1, ![512]⟩
abbrev S_ : Shape := ⟨0, ![]⟩
abbrev S1024x256 : Shape := ⟨2, ![1024, 256]⟩
abbrev S1024 : Shape := ⟨1, ![1024]⟩
abbrev S1024x1 : Shape := ⟨2, ![1024, 1]⟩
abbrev S1024x1024 : Shape := ⟨2, ![1024, 1024]⟩
abbrev S1x256 : Shape := ⟨2, ![1, 256]⟩

abbrev nBuf : Space → Nat
  | .hbm => 21
  | .vmem => 41
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S4096x4096, .bf16⟩
  | .hbm, ⟨7, _⟩ => ⟨S4096, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096, .f32⟩
  | .hbm, ⟨17, _⟩ => ⟨S4096x256, .bf16⟩
  | .hbm, ⟨18, _⟩ => ⟨S4096x256, .f32⟩
  | .hbm, ⟨19, _⟩ => ⟨S4096x256, .bf16⟩
  | .hbm, ⟨20, _⟩ => ⟨S4096x256, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512, .f32⟩
  | .local _ .vmem, ⟨5, _⟩ => ⟨S512, .f32⟩
  | .local _ .vmem, ⟨6, _⟩ => ⟨S4096, .f32⟩
  | .local _ .vmem, ⟨7, _⟩ => ⟨S1024x256, .f32⟩
  | .local _ .vmem, ⟨8, _⟩ => ⟨S1024x256, .f32⟩
  | .local _ .vmem, ⟨9, _⟩ => ⟨S1024, .f32⟩
  | .local _ .vmem, ⟨10, _⟩ => ⟨S1024, .f32⟩
  | .local _ .vmem, ⟨11, _⟩ => ⟨S256x256, .f32⟩
  | .local _ .vmem, ⟨12, _⟩ => ⟨S1024x256, .bf16⟩
  | .local _ .vmem, ⟨13, _⟩ => ⟨S1024x256, .bf16⟩
  | .local _ .vmem, ⟨14, _⟩ => ⟨S1024x1024, .bf16⟩
  | .local _ .vmem, ⟨15, _⟩ => ⟨S1024x1024, .bf16⟩
  | .local _ .vmem, ⟨16, _⟩ => ⟨S1024x256, .bf16⟩
  | .local _ .vmem, ⟨17, _⟩ => ⟨S1024x256, .bf16⟩
  | .local _ .vmem, ⟨18, _⟩ => ⟨S1024, .f32⟩
  | .local _ .vmem, ⟨19, _⟩ => ⟨S1024, .f32⟩
  | .local _ .vmem, ⟨20, _⟩ => ⟨S256, .f32⟩
  | .local _ .vmem, ⟨21, _⟩ => ⟨S1024x256, .f32⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | .local _ .vmem, ⟨26, _⟩ => ⟨S1024, .f32⟩
  | .local _ .vmem, ⟨27, _⟩ => ⟨S1024, .f32⟩
  | .local _ .vmem, ⟨28, _⟩ => ⟨S256x256, .f32⟩
  | .local _ .vmem, ⟨29, _⟩ => ⟨S1024x256, .bf16⟩
  | .local _ .vmem, ⟨30, _⟩ => ⟨S1024x256, .bf16⟩
  | .local _ .vmem, ⟨31, _⟩ => ⟨S1024x1024, .bf16⟩
  | .local _ .vmem, ⟨32, _⟩ => ⟨S1024x1024, .bf16⟩
  | .local _ .vmem, ⟨33, _⟩ => ⟨S1024x256, .bf16⟩
  | .local _ .vmem, ⟨34, _⟩ => ⟨S1024x256, .bf16⟩
  | .local _ .vmem, ⟨35, _⟩ => ⟨S1024, .f32⟩
  | .local _ .vmem, ⟨36, _⟩ => ⟨S1024, .f32⟩
  | .local _ .vmem, ⟨37, _⟩ => ⟨S256, .f32⟩
  | .local _ .vmem, ⟨38, _⟩ => ⟨S1024x256, .f32⟩
  | .local _ .vmem, ⟨39, _⟩ => ⟨S1024x256, .f32⟩
  | .local _ .vmem, ⟨40, _⟩ => ⟨S1024x256, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc2_scratch0 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg3_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc4_scratch0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc4_sem3_0 : DmaSem sig := 36
abbrev cc4_sem4_0 : DmaSem sig := 37
abbrev cc4_sem4_1 : DmaSem sig := 38

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  ![arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1024x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  ![arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![4, 4], ![false, false]⟩

def k4_cond2 (i : grid4.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 1 → Nat :=
  let arg0 : BitVec 32 := BitVec.ofNat 32 (i 0).val
  let arg1 : BitVec 32 := BitVec.ofNat 32 (i 1).val
  let c0_i32 : BitVec 32 := 0#32
  ![arg0.toNat]

def cc4_transform_3 (i : grid4.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1024x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 1 → Memref sig .tc .vmem S256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 2 → Memref sig .tc .vmem S1024x256 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, false]

class Facts₀ : Prop where
  inb_S512x4096_S512x4096_0_0 : ∀ a, (![0, 0] : Fin 2 → Nat) a + S512x4096.size a ≤ S512x4096.size a
  h_S512x4096 : 0 < S512x4096.numel
  iota_S512x4096_d0_w32 : S512x4096.Iotas .tc 32 [0]
  iota_S512x4096_d1_w32 : S512x4096.Iotas .tc 32 [1]
  natLt_1_32 : 1 < 32
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  reduces_S512x4096_S512 : S512x4096.Reduces [1] S512
  inb_S512_S512_0 : ∀ a, (![0] : Fin 1 → Nat) a + S512.size a ≤ S512.size a
  h_S512 : 0 < S512.numel
  inb_S4096_S4096_0 : ∀ a, (![0] : Fin 1 → Nat) a + S4096.size a ≤ S4096.size a
  h_S4096 : 0 < S4096.numel
  shapeCasts_S4096_S4096 : S4096.ShapeCasts S4096
  reduces_S512x4096_S4096 : S512x4096.Reduces [0] S4096
  bcast_S_S4096 : S_.BroadcastsInDim S4096 (![] : Fin 0 → Fin S4096.rank)
  inb_S1024x256_S1024x256_0_0 : ∀ a, (![0, 0] : Fin 2 → Nat) a + S1024x256.size a ≤ S1024x256.size a
  h_S1024x256 : 0 < S1024x256.numel
  inb_S1024_S1024_0 : ∀ a, (![0] : Fin 1 → Nat) a + S1024.size a ≤ S1024.size a
  h_S1024 : 0 < S1024.numel
  shapeCasts_S1024_S1024 : S1024.ShapeCasts S1024
  shapeCasts_S1024_S1024x1 : S1024.ShapeCasts S1024x1
  broadcasts_S1024x1_S1024x256 : S1024x1.Broadcasts S1024x256
  inb_S256x256_S256x256_0_0 : ∀ a, (![0, 0] : Fin 2 → Nat) a + S256x256.size a ≤ S256x256.size a
  h_S256x256 : 0 < S256x256.numel
  packedbf16_S1024x256_S1024x256_0_0 : (Rect.unit (s := S1024x256) ![0, 0] S1024x256.size inb_S1024x256_S1024x256_0_0).PackedRows (EltTy.packing .bf16)
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  dot_S1024x256_S256x256_S1024x256_1_0_0_1_n_n_wf : DotDims.WF S1024x256 S256x256 S1024x256 [1] [0] [0] [1] [] []
  dot_S1024x1024_S1024x256_S1024x256_0_0_1_1_n_n_wf : DotDims.WF S1024x1024 S1024x256 S1024x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S4096x4096.size a
  hwx0_0 : ∀ i : grid0.Coords, EltTy.bits .f32 = 32 ∨ (Rect.block (s := S4096x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S4096x4096.size a
  hwx0_1 : ∀ i : grid0.Coords, EltTy.bits .bf16 = 32 ∨ (Rect.block (s := S4096x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S4096.size a
  hwx0_2 : ∀ i : grid0.Coords, EltTy.bits .f32 = 32 ∨ (Rect.block (s := S4096) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S4096.size a
  hwx0_3 : ∀ i : grid0.Coords, EltTy.bits .f32 = 32 ∨ (Rect.block (s := S4096) S4096.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S4096x256.size a
  hwx1_0 : ∀ i : grid1.Coords, EltTy.bits .f32 = 32 ∨ (Rect.block (s := S4096x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024.size a ≤ S4096.size a
  hwx1_1 : ∀ i : grid1.Coords, EltTy.bits .f32 = 32 ∨ (Rect.block (s := S4096) S1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x256.size a ≤ S4096x256.size a
  hwx1_3 : ∀ i : grid1.Coords, EltTy.bits .bf16 = 32 ∨ (Rect.block (s := S4096x256) S1024x256.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x4096.size a
  hwx2_0 : ∀ i : grid2.Coords, EltTy.bits .bf16 = 32 ∨ (Rect.block (s := S4096x4096) S1024x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S4096x256.size a
  hwx2_1 : ∀ i : grid2.Coords, EltTy.bits .bf16 = 32 ∨ (Rect.block (s := S4096x256) S1024x256.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S4096.size a
  hwx2_2 : ∀ i : grid2.Coords, EltTy.bits .f32 = 32 ∨ (Rect.block (s := S4096) S1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x256.size a ≤ S4096x256.size a
  hwx2_4 : ∀ i : grid2.Coords, EltTy.bits .f32 = 32 ∨ (Rect.block (s := S4096x256) S1024x256.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x256.size a ≤ S4096x256.size a
  hwx3_0 : ∀ i : grid3.Coords, EltTy.bits .f32 = 32 ∨ (Rect.block (s := S4096x256) S1024x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024.size a ≤ S4096.size a
  hwx3_1 : ∀ i : grid3.Coords, EltTy.bits .f32 = 32 ∨ (Rect.block (s := S4096) S1024.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x256.size a ≤ S4096x256.size a
  hwx3_3 : ∀ i : grid3.Coords, EltTy.bits .bf16 = 32 ∨ (Rect.block (s := S4096x256) S1024x256.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S4096x4096.size a
  hwx4_0 : ∀ i : grid4.Coords, EltTy.bits .bf16 = 32 ∨ (Rect.block (s := S4096x4096) S1024x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x256.size a ≤ S4096x256.size a
  hwx4_1 : ∀ i : grid4.Coords, EltTy.bits .bf16 = 32 ∨ (Rect.block (s := S4096x256) S1024x256.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024.size a ≤ S4096.size a
  hwx4_2 : ∀ i : grid4.Coords, EltTy.bits .f32 = 32 ∨ (Rect.block (s := S4096) S1024.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256.size a ≤ S256.size a
  hwx4_3 : ∀ i : grid4.Coords, EltTy.bits .f32 = 32 ∨ (Rect.block (s := S256) S256.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1024x256.size a ≤ S4096x256.size a
  hwx4_4 : ∀ i : grid4.Coords, EltTy.bits .f32 = 32 ∨ (Rect.block (s := S4096x256) S1024x256.size (cc4_transform_4 i) (hinb4_4 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x1024_S1024x256_S1024x256_0_0_1_1_n_n : DotDims S1024x1024 S1024x256 S1024x256 where
  lhsContracting := [0]
  rhsContracting := [0]
  lhsNonContracting := [1]
  rhsNonContracting := [1]
  lhsBatch := []
  rhsBatch := []
  wf := dot_S1024x1024_S1024x256_S1024x256_0_0_1_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S4096.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0_0) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v8) S1024x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

abbrev win3_0 : Pipeline.Window sig grid3 :=
  Pipeline.Window.ofSpec (Memref.whole main_v8) S1024x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v9) S1024x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v0_0) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v9) S1024x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v6) S1024.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg5) S256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v10) S1024x256.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x256 : Shape := ⟨2, ![4096, 256]⟩
abbrev S256x256 : Shape := ⟨2, ![256, 256]⟩
abbrev S256 : Shape := ⟨1, ![256]⟩
abbrev S_ : Shape := ⟨0, ![]⟩
abbrev S4096 : Shape := ⟨1, ![4096]⟩
abbrev S4096x1 : Shape := ⟨2, ![4096, 1]⟩
abbrev S1x256 : Shape := ⟨2, ![1, 256]⟩

abbrev nBuf : Space → Nat
  | .hbm => 58
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S4096x4096, .f32⟩
  | .hbm, ⟨10, _⟩ => ⟨S4096x4096, .i32⟩
  | .hbm, ⟨11, _⟩ => ⟨S4096x4096, .i32⟩
  | .hbm, ⟨12, _⟩ => ⟨S_, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S4096x1, .f32⟩
  | .hbm, ⟨31, _⟩ => ⟨S4096x256, .f32⟩
  | .hbm, ⟨32, _⟩ => ⟨S4096x256, .f32⟩
  | .hbm, ⟨33, _⟩ => ⟨S4096x256, .f32⟩
  | .hbm, ⟨34, _⟩ => ⟨S4096x256, .f32⟩
  | .hbm, ⟨35, _⟩ => ⟨S4096x1, .f32⟩
  | .hbm, ⟨36, _⟩ => ⟨S4096x256, .f32⟩
  | .hbm, ⟨37, _⟩ => ⟨S4096x256, .f32⟩
  | .hbm, ⟨38, _⟩ => ⟨S1x256, .f32⟩
  | .hbm, ⟨39, _⟩ => ⟨S4096x256, .f32⟩
  | .hbm, ⟨40, _⟩ => ⟨S4096x256, .f32⟩
  | .hbm, ⟨41, _⟩ => ⟨S_, .f32⟩
  | .hbm, ⟨42, _⟩ => ⟨S4096x256, .f32⟩
  | .hbm, ⟨43, _⟩ => ⟨S4096x256, .f32⟩
  | .hbm, ⟨44, _⟩ => ⟨S4096x1, .f32⟩
  | .hbm, ⟨45, _⟩ => ⟨S4096x256, .f32⟩
  | .hbm, ⟨46, _⟩ => ⟨S4096x256, .f32⟩
  | .hbm, ⟨47, _⟩ => ⟨S4096x256, .f32⟩
  | .hbm, ⟨48, _⟩ => ⟨S4096x256, .f32⟩
  | .hbm, ⟨49, _⟩ => ⟨S4096x1, .f32⟩
  | .hbm, ⟨50, _⟩ => ⟨S4096x256, .f32⟩
  | .hbm, ⟨51, _⟩ => ⟨S4096x256, .f32⟩
  | .hbm, ⟨52, _⟩ => ⟨S1x256, .f32⟩
  | .hbm, ⟨53, _⟩ => ⟨S4096x256, .f32⟩
  | .hbm, ⟨54, _⟩ => ⟨S4096x256, .f32⟩
  | .hbm, ⟨55, _⟩ => ⟨S_, .f32⟩
  | .hbm, ⟨56, _⟩ => ⟨S4096x256, .f32⟩
  | .hbm, ⟨57, _⟩ => ⟨S4096x256, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_call0_cst : Ref sig .tc := ⟨.hbm, 41, rfl⟩
abbrev main_call0_v0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_call1_cst : Ref sig .tc := ⟨.hbm, 55, rfl⟩
abbrev main_call1_v0 : Ref sig .tc := ⟨.hbm, 56, rfl⟩
abbrev main_v41 : Ref sig .tc := ⟨.hbm, 57, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  reducesTo_S4096x4096_S4096_d0 : S4096x4096.ReducesTo [0] S4096
  bcast_S4096_S4096x1_0 : S4096.BroadcastsInDim S4096x1 (![0] : Fin 1 → Fin S4096x1.rank)
  bcast_S4096x1_S4096x256_0_1 : S4096x1.BroadcastsInDim S4096x256 (![0, 1] : Fin 2 → Fin S4096x256.rank)
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  dot_S4096x256_S256x256_S4096x256_1_0_0_1_n_n_wf : DotDims.WF S4096x256 S256x256 S4096x256 [1] [0] [0] [1] [] []
  dot_S4096x4096_S4096x256_S4096x256_0_0_1_1_n_n_wf : DotDims.WF S4096x4096 S4096x256 S4096x256 [0] [0] [1] [1] [] []

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x4096_S4096x256_S4096x256_0_0_1_1_n_n : DotDims S4096x4096 S4096x256 S4096x256 where
  lhsContracting := [0]
  rhsContracting := [0]
  lhsNonContracting := [1]
  rhsNonContracting := [1]
  lhsBatch := []
  rhsBatch := []
  wf := dot_S4096x4096_S4096x256_S4096x256_0_0_1_1_n_n_wf

class Facts : Prop extends Facts₀ where

variable [Facts]
-- ==== Proof.K.Blocks.lean ====
/-
  What each kernel region reads and carries, as functions of the buffer contents `V` it is entered from.

  `iblkK V c w t` is window `w`'s block of its array at grid point `t` of region K. Region 0 adds, point after
  point, the column sums of its 512-row block of the edge-weight matrix into one 4096-vector that it zeroes at the
  first point: `colAt0 V c n` is that vector after point `n`. Regions 2 and 4 walk a 4 × 4 grid (target block i,
  source block k; point 4·i + k) and keep a 1024 × 256 accumulator: zeroed when k = 0, then increased by the product
  of the transposed 1024 × 1024 block of edge weights with the 1024 × 256 block of projected features;
  `accAt2 V c n` / `accAt4 V c n` is the accumulator after point `n`.
-/
import proofs.«142270_j68298569941180_1_alg».proof.Proof.Gen.Kernel.Launch
import proofs.«142270_j68298569941180_1_alg».proof.Proof.Gen.Kernel.Skeleton
import proofs.«142270_j68298569941180_1_alg».proof.Proof.Gen.Kernel.Points
import Idealize.ShloMosaic.Lib.Pipeline.FrameBody

noncomputable section

namespace Cert.Kernel.Hand

open Idealize.ShloMosaic Idealize.ShloMosaic.TcCoe
open Idealize.SL Idealize.SL.Sem
open Cert.Kernel Cert.Kernel.Gen

variable {F : FTy → Type} [FloatOps F]

variable (V : (c : Dev nD) → (b : Ref sig .tc) → Buf (Elt F) ((c : Thread nD τ).loc b))

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
/-- The same for region 1. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
/-- The same for region 2. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
/-- The same for region 3. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))
/-- The same for region 4. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The column-sum vector of region 0 after point `n`: zero plus the first block's column sums, then each later
    block's column sums added to what the point before left. -/
def colAt0 (c : Dev nD) : (n : ℕ) → n < cfg0.N → Vec F S4096 .f32
  | 0, h => k0_pay5 (grid0.coords ⟨0, h⟩) (iblk0 V c 0 ⟨0, h⟩) (k0_pay4 (F := F))
  | n + 1, h => k0_pay5 (grid0.coords ⟨n + 1, h⟩) (iblk0 V c 0 ⟨n + 1, h⟩) (colAt0 c n (Nat.lt_of_succ_lt h))

theorem colAt0_zero (c : Dev nD) (h : 0 < cfg0.N) :
    colAt0 V c 0 h = k0_pay5 (grid0.coords ⟨0, h⟩) (iblk0 V c 0 ⟨0, h⟩) (k0_pay4 (F := F)) := rfl
theorem colAt0_succ (c : Dev nD) (n : ℕ) (h : n + 1 < cfg0.N) :
    colAt0 V c (n + 1) h = k0_pay5 (grid0.coords ⟨n + 1, h⟩) (iblk0 V c 0 ⟨n + 1, h⟩) (colAt0 V c n (Nat.lt_of_succ_lt h)) := rfl

/-- The accumulator of region 2 after point `n`: started from zero where the source-block coordinate is 0 (the points
    ≡ 0 mod 4), else from what the point before left; this point's block product added. -/
def accAt2 (c : Dev nD) : (n : ℕ) → n < cfg2.N → Vec F S1024x256 .f32
  | 0, h => k2_pay2 (iblk2 V c 0 ⟨0, h⟩) (iblk2 V c 1 ⟨0, h⟩) (k2_pay1 (F := F))
  | n + 1, h =>
    if (n + 1) % 4 = 0 then k2_pay2 (iblk2 V c 0 ⟨n + 1, h⟩) (iblk2 V c 1 ⟨n + 1, h⟩) (k2_pay1 (F := F))
    else k2_pay2 (iblk2 V c 0 ⟨n + 1, h⟩) (iblk2 V c 1 ⟨n + 1, h⟩) (accAt2 c n (Nat.lt_of_succ_lt h))

theorem accAt2_reset (c : Dev nD) (t : Fin cfg2.N) (h0 : t.val % 4 = 0) :
    accAt2 V c t.val t.isLt = k2_pay2 (iblk2 V c 0 t) (iblk2 V c 1 t) (k2_pay1 (F := F)) := by
  obtain ⟨n, hn⟩ := t
  cases n with
  | zero => rfl
  | succ n => exact if_pos h0
theorem accAt2_step (c : Dev nD) (t : Fin cfg2.N) (h0 : ¬ t.val % 4 = 0) :
    accAt2 V c t.val t.isLt = k2_pay2 (iblk2 V c 0 t) (iblk2 V c 1 t)
      (accAt2 V c (t.val - 1) (Nat.lt_of_le_of_lt (Nat.sub_le _ _) t.isLt)) := by
  obtain ⟨n, hn⟩ := t
  cases n with
  | zero => exact absurd (Nat.zero_mod _) h0
  | succ n => exact if_neg h0

/-- The accumulator of region 4 after point `n`, likewise. -/
def accAt4 (c : Dev nD) : (n : ℕ) → n < cfg4.N → Vec F S1024x256 .f32
  | 0, h => k4_pay2 (iblk4 V c 0 ⟨0, h⟩) (iblk4 V c 1 ⟨0, h⟩) (k4_pay1 (F := F))
  | n + 1, h =>
    if (n + 1) % 4 = 0 then k4_pay2 (iblk4 V c 0 ⟨n + 1, h⟩) (iblk4 V c 1 ⟨n + 1, h⟩) (k4_pay1 (F := F))
    else k4_pay2 (iblk4 V c 0 ⟨n + 1, h⟩) (iblk4 V c 1 ⟨n + 1, h⟩) (accAt4 c n (Nat.lt_of_succ_lt h))

theorem accAt4_reset (c : Dev nD) (t : Fin cfg4.N) (h0 : t.val % 4 = 0) :
    accAt4 V c t.val t.isLt = k4_pay2 (iblk4 V c 0 t) (iblk4 V c 1 t) (k4_pay1 (F := F)) := by
  obtain ⟨n, hn⟩ := t
  cases n with
  | zero => rfl
  | succ n => exact if_pos h0
theorem accAt4_step (c : Dev nD) (t : Fin cfg4.N) (h0 : ¬ t.val % 4 = 0) :
    accAt4 V c t.val t.isLt = k4_pay2 (iblk4 V c 0 t) (iblk4 V c 1 t)
      (accAt4 V c (t.val - 1) (Nat.lt_of_le_of_lt (Nat.sub_le _ _) t.isLt)) := by
  obtain ⟨n, hn⟩ := t
  cases n with
  | zero => exact absurd (Nat.zero_mod _) h0
  | succ n => exact if_neg h0

end Cert.Kernel.Hand

end
-- ==== Proof.K.Frame0.lean ====
/-
  Region 0 builds the graph from the dense matrix, one 512-row block per grid point (8 points). At point t it
  reads the block A[512·t .. 512·t + 511, :] and forms the 512 × 4096 block of edge weights
  e(u, v) = [A(u, v) ≥ 0.04] + [u = v]; it leaves that block rounded to bf16 in the second window, its row sums
  in the third, and it adds its column sums into one 4096-vector that stays in place over the whole grid: zero at
  the first point, written back once after the last. This module gives the region's proof data at the entry
  contents `V` — what each window's buffer holds after every point — and shows that the kernel body, run at any
  point on what the buffers then hold, leaves exactly that.
-/
import proofs.«142270_j68298569941180_1_alg».proof.Proof.K.Blocks
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Whole-buffer loads and stores -/

/-- The offsets of a whole 2-axis block are zero on both axes. -/
private theorem zeros2 : (![0, 0] : Fin 2 → ℕ) = fun _ => 0 := funext fun a => by fin_cases a <;> rfl
/-- The offset of a whole vector is zero. -/
private theorem zeros1 : (![0] : Fin 1 → ℕ) = fun _ => 0 := funext fun a => by fin_cases a; rfl

/-- After a last store through the whole-shape rectangle a buffer reads that store's payload, whatever it held
    and whatever was stored before: the rectangle holds every index, so the last payload wins everywhere. -/
private theorem read_after_whole_store {sg : RefSig} {κ : Kind} {sp : Space} {S : Shape} {e : EltTy}
    (v : View sg κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-! ## The first point and the later points -/

/-- The body's one branch: whether the grid coordinate is 0, as the body computes it (compare with 0, widen the
    bit, compare with 0 again). -/
abbrev firstPt0 (i : grid0.Coords) : Prop :=
  (Scalar.cmpi .ne (Scalar.extui (Scalar.cmpi .eq (BitVec.ofNat 32 (i 0).val) 0#32)) 0#32) = 1#1

/-- It holds at point 0 and at no other of the 8 points. -/
theorem firstPt0_iff : ∀ t : Fin cfg0.N, firstPt0 (grid0.coords t) ↔ t.val = 0 :=
  (by decide +kernel : ∀ t : Fin grid0.N, firstPt0 (grid0.coords t) ↔ t.val = 0)

set_option maxHeartbeats 1000000 in
/-- THE BODY AT THE FIRST POINT, on any whole buffers: the input block `x0` stays; the edge-weight buffer and the
    row-sum buffer, whatever they held, are overwritten whole by the block's bf16 edge weights and by its row
    sums; the column-sum buffer, whatever it held, is set to zero, read back, and overwritten by zero plus the
    block's column sums. -/
theorem run0_first (c : Dev nD) (i : grid0.Coords)
    (arg1 : Memref sig .tc .vmem S512x4096 .f32) (harg1 : arg1.IsWhole)
    (arg2 : Memref sig .tc .vmem S512x4096 .bf16) (harg2 : arg2.IsWhole)
    (arg3 : Memref sig .tc .vmem S512 .f32) (harg3 : arg3.IsWhole)
    (arg4 : Memref sig .tc .vmem S4096 .f32) (harg4 : arg4.IsWhole)
    (hc : firstPt0 i) (x0 : Vec F S512x4096 .f32) (E : Set ℕ) (K : PUnit → sProp 𝕄) :
    iprop(owns (c : Thread nD τ) arg1 fullShare x0 ∗ (∃ d, owns (c : Thread nD τ) arg2 fullShare d)
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare (k0_pay2 i x0)
            ∗ owns (c : Thread nD τ) arg3 fullShare (k0_pay3 i x0)
            ∗ owns (c : Thread nD τ) arg4 fullShare (k0_pay5 i x0 (k0_pay4 (F := F)))) -∗ K ⟨⟩))
      ⊢ wp frame (wpE (defs₀ (F := F)) Variants.none c none) E (cc0__build_graph_kernel i arg1 harg1 arg2 harg2 arg3 harg3 arg4 harg4) K := by
  simp only [cc0__build_graph_kernel_eq_skeleton]; unfold cc0__build_graph_kernel_skel
  unfold owns
  iintro ⟨⟨%f1, %hf1, H1⟩, ⟨%d2, %f2, -, H2⟩, ⟨%d3, %f3, -, H3⟩, ⟨%d4, %f4, -, H4⟩, Hk⟩
  obtain rfl := harg1.eq_unread hf1
  sl_exec (disch := first | exact hc)
  sl_step
  iapply Hk
  isplitl [H1]
  · iexists _; isplitr; · ipureintro; exact harg1.read_unread _
    iexact H1
  isplitl [H2]
  · iexists _; isplitr
    swap; · iexact H2
    ipureintro
    rw [read_after_whole_store _ _ zeros2]
    simp only [View.readAt_eq_ld, harg1.read_unread, View.ld_unit_zero (S := S512x4096) zeros2]
  isplitl [H3]
  · iexists _; isplitr
    swap; · iexact H3
    ipureintro
    rw [read_after_whole_store _ _ zeros1]
    simp only [View.readAt_eq_ld, harg1.read_unread, View.ld_unit_zero (S := S512x4096) zeros2]
  iexists _; isplitr
  swap; · iexact H4
  ipureintro
  sl_unfold_words
  rw [read_after_whole_store _ _ zeros1, View.readCov_unit_zero (S := S4096) _ zeros1]
  simp only [View.readAt_eq_ld, harg1.read_unread, View.ld_unit_zero (S := S512x4096) zeros2]

set_option maxHeartbeats 1000000 in
/-- THE BODY AT A LATER POINT, on any whole buffers: as at the first point for the input, the edge weights and the
    row sums; the column-sum buffer is not reset, so from the running sums `s` it goes to `s` plus the block's
    column sums. -/
theorem run0_later (c : Dev nD) (i : grid0.Coords)
    (arg1 : Memref sig .tc .vmem S512x4096 .f32) (harg1 : arg1.IsWhole)
    (arg2 : Memref sig .tc .vmem S512x4096 .bf16) (harg2 : arg2.IsWhole)
    (arg3 : Memref sig .tc .vmem S512 .f32) (harg3 : arg3.IsWhole)
    (arg4 : Memref sig .tc .vmem S4096 .f32) (harg4 : arg4.IsWhole)
    (hc : ¬ firstPt0 i) (x0 : Vec F S512x4096 .f32) (s : Vec F S4096 .f32) (E : Set ℕ) (K : PUnit → sProp 𝕄) :
    iprop(owns (c : Thread nD τ) arg1 fullShare x0 ∗ (∃ d, owns (c : Thread nD τ) arg2 fullShare d)
        ∗ (∃ d, owns (c : Thread nD τ) arg3 fullShare d) ∗ owns (c : Thread nD τ) arg4 fullShare s
        ∗ (iprop(owns (c : Thread nD τ) arg1 fullShare x0 ∗ owns (c : Thread nD τ) arg2 fullShare (k0_pay2 i x0)
            ∗ owns (c : Thread nD τ) arg3 fullShare (k0_pay3 i x0)
            ∗ owns (c : Thread nD τ) arg4 fullShare (k0_pay5 i x0 s)) -∗ K ⟨⟩))
      ⊢ wp frame (wpE (defs₀ (F := F)) Variants.none c none) E (cc0__build_graph_kernel i arg1 harg1 arg2 harg2 arg3 harg3 arg4 harg4) K := by
  simp only [cc0__build_graph_kernel_eq_skeleton]; unfold cc0__build_graph_kernel_skel
  unfold owns
  iintro ⟨⟨%f1, %hf1, H1⟩, ⟨%d2, %f2, -, H2⟩, ⟨%d3, %f3, -, H3⟩, ⟨%f4, %hf4, H4⟩, Hk⟩
  obtain rfl := harg1.eq_unread hf1; obtain rfl := harg4.eq_unread hf4
  sl_exec (disch := first | exact hc)
  sl_step
  iapply Hk
  isplitl [H1]
  · iexists _; isplitr; · ipureintro; exact harg1.read_unread _
    iexact H1
  isplitl [H2]
  · iexists _; isplitr
    swap; · iexact H2
    ipureintro
    rw [read_after_whole_store _ _ zeros2]
    simp only [View.readAt_eq_ld, harg1.read_unread, View.ld_unit_zero (S := S512x4096) zeros2]
  isplitl [H3]
  · iexists _; isplitr
    swap; · iexact H3
    ipureintro
    rw [read_after_whole_store _ _ zeros1]
    simp only [View.readAt_eq_ld, harg1.read_unread, View.ld_unit_zero (S := S512x4096) zeros2]
  iexists _; isplitr
  swap; · iexact H4
  ipureintro
  sl_unfold_words
  rw [read_after_whole_store _ _ zeros1]
  simp only [View.readAt_eq_ld, harg1.read_unread, harg4.read_unread, View.ld_unit_zero (S := S512x4096) zeros2,
    View.ld_unit_zero (S := S4096) zeros1]

/-! ## The proof data -/

/-- Region 0's proof data on core `c`: the arrays as the region finds them; after the body at point `t` the
    input buffer still at its block, the edge-weight buffer at the block's bf16 edge weights, the row-sum buffer
    at the block's row sums, the column-sum buffer at the sums over the blocks 0 .. t (`colAt0`); the invariant
    is the scoped rest and the generator register, passed through unread; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay2 (grid0.coords t) (iblk0 V c 0 t)
    | ⟨2, _⟩ => k0_pay3 (grid0.coords t) (iblk0 V c 0 t)
    | ⟨3, _⟩ => colAt0 V c t.val t.isLt
  Φ _ := Pipeline.ΦA spec0 c
  q _ := fullShare
  owed _ := 0

/-- The arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) :
    (dat0 V c).after 1 t = k0_pay2 (grid0.coords t) (iblk0 V c 0 t) := by dsimp only [dat0]
theorem after0_2 (c : Dev nD) (t : Fin cfg0.N) :
    (dat0 V c).after 2 t = k0_pay3 (grid0.coords t) (iblk0 V c 0 t) := by dsimp only [dat0]
theorem after0_3 (c : Dev nD) (t : Fin cfg0.N) : (dat0 V c).after 3 t = colAt0 V c t.val t.isLt := by dsimp only [dat0]

/-- The invariant is the same at every point: it is what the region enters with and what it leaves. -/
theorem hin0 (c : Dev nD) : (Pipeline.ΦA spec0 c : sProp 𝕄) ⊢ (dat0 V c).Φ 0 := .rfl
theorem hout0 (c : Dev nD) : (dat0 V c).Φ (Fin.last cfg0.N) ⊢ (Pipeline.ΦA spec0 c : sProp 𝕄) := .rfl
theorem owed0 (c : Dev nD) (t : Fin (cfg0.N + 1)) : (dat0 V c).owed t = 0 := rfl

/-! ## What the body finds -/

/-- The input buffer holds the point's block of A at every point: it is fetched at every point and the body only
    reads it. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- At a later point the column-sum buffer holds what the point before left: the window is an output, so nothing
    is fetched into it; it is written back only after point 7, so no write-back comes between; its block index
    never moves and it is not cut. -/
theorem before0_3_later (c : Dev nD) (t : Fin cfg0.N) (h0 : t.val ≠ 0) (d) :
    (dat0 V c).before 3 t d = colAt0 V c (t.val - 1) (Nat.lt_of_le_of_lt (Nat.sub_le _ _) t.isLt) := by
  have hN : t.val < 8 := lt_of_lt_of_eq t.isLt (show cfg0.N = 8 from N_0)
  rw [Dat.before_out_kept _ 3 rfl t h0
    (Bool.eq_false_iff.mpr fun h => by have := (flush0_3 _).mp h; dsimp only at this; omega)
    (fun _ => rfl) (fun _ _ => rfl)]
  dsimp only [dat0]

/-- The running column sums at point 0: zero plus the first block's. -/
theorem colAt0_first (c : Dev nD) (t : Fin cfg0.N) (h0 : t.val = 0) :
    colAt0 V c t.val t.isLt = k0_pay5 (grid0.coords t) (iblk0 V c 0 t) (k0_pay4 (F := F)) := by
  obtain ⟨n, hn⟩ := t
  cases n with
  | zero => exact colAt0_zero V c hn
  | succ n => exact absurd h0 (Nat.succ_ne_zero n)

/-- The running column sums at a later point: the point before's plus this block's. -/
theorem colAt0_later (c : Dev nD) (t : Fin cfg0.N) (h0 : t.val ≠ 0) :
    colAt0 V c t.val t.isLt = k0_pay5 (grid0.coords t) (iblk0 V c 0 t)
      (colAt0 V c (t.val - 1) (Nat.lt_of_le_of_lt (Nat.sub_le _ _) t.isLt)) := by
  obtain ⟨n, hn⟩ := t
  cases n with
  | zero => exact absurd rfl h0
  | succ n => exact colAt0_succ V c n hn

/-! ## The body obligation -/

/-- Each window's current buffer at point `t`, and that it is a whole buffer. -/
abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096 .f32 := win0_3.stage (cfg0.slots t 3)
abbrev hs0_3 (t : Fin cfg0.N) : (ms0_3 t).IsWhole := hstage0_3 ((cfg0.slots t 3).cast nbuf0_3)

/-- What the body is entered with at point `t`: the invariant, the core's dues, each window's current buffer at
    what it then holds; -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it must leave. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 800000 in
/-- The body at any point. The input buffer holds its block; the two whole-overwritten outputs may hold anything.
    At point 0 the column-sum buffer may hold anything too and is left at zero plus the block's column sums; at a
    later point it holds the sums over the earlier blocks and is left at those plus this block's. The invariant and
    the dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val = 0
  · rw [colAt0_first V c t h0]
    iintro ⟨HΦ, Ho, ⟨%d0, H0⟩, ⟨%d1, H1⟩, ⟨%d2, H2⟩, ⟨%d3, H3⟩⟩
    iapply (run0_first c (grid0.coords t) _ _ _ _ _ _ _ _ ((firstPt0_iff t).mpr h0) (iblk0 V c 0 t) Set.univ _)
    isplitl [H0]; · iexact H0
    isplitl [H1]; · iexists _; iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [colAt0_later V c t h0]
    simp only [before0_3_later V c t h0]
    iintro ⟨HΦ, Ho, ⟨%d0, H0⟩, ⟨%d1, H1⟩, ⟨%d2, H2⟩, ⟨%d3, H3⟩⟩
    iapply (run0_later c (grid0.coords t) _ _ _ _ _ _ _ _ (fun h => h0 ((firstPt0_iff t).mp h)) (iblk0 V c 0 t)
      (colAt0 V c (t.val - 1) (Nat.lt_of_le_of_lt (Nat.sub_le _ _) t.isLt)) Set.univ _)
    isplitl [H0]; · iexact H0
    isplitl [H1]; · iexists _; iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The body obligation of region 0, at every point. -/
theorem body_obligation0 (c : Dev nD) :
    BodyObligation (dat0 (F := F) V c) (defs₀ (F := F)) Variants.none () Set.univ := fun t => by
  rw [bigSep_W0, bigSep_W0]
  exact sound_body0 V c t

end Cert.Kernel.Hand

end
-- ==== Proof.K.Frame1.lean ====
/-
  Region 1, the first projection call: at each of its four grid points the body takes a 1024-row block of the
  feature matrix, the matching 1024 entries of the row scale, and the whole 256 x 256 weight matrix; it scales
  row r of the feature block by entry r of the scale, rounds both factors to bf16, multiplies the scaled block by
  the weights from a zero accumulator, and stores the product rounded to bf16 as the output block. Nothing is
  carried from point to point: what the output block holds after a point is a function of the three input blocks
  at that point alone.
-/
import proofs.«142270_j68298569941180_1_alg».proof.Proof.K.Blocks
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Offsets -/

/-- The two-axis offset written as a literal pair is the zero offset. -/
private theorem zeroOff2 : (![0, 0] : Fin 2 → Nat) = fun _ => 0 := by funext a; fin_cases a <;> rfl
/-- The one-axis offset written as a literal is the zero offset. -/
private theorem zeroOff1 : (![0] : Fin 1 → Nat) = fun _ => 0 := by funext a; fin_cases a; rfl

/-! ## Whole-buffer loads and the whole-buffer store -/

/-- The one store of the body lies over every index of the output block. -/
theorem covers1 (p : Vec F S1024x256 .bf16) (y : S1024x256.Idx) :
    ∃ pc ∈ ([⟨Rect.unit ![0, 0] S1024x256.size inb_S1024x256_S1024x256_0_0, p⟩] : List (View.Piece (Elt F) S1024x256 .bf16)),
      y ∈ pc.1.set :=
  ⟨⟨Rect.unit ![0, 0] S1024x256.size inb_S1024x256_S1024x256_0_0, p⟩, List.mem_singleton_self _,
    View.mem_set_unit_zero (S := S1024x256) zeroOff2 inb_S1024x256_S1024x256_0_0 y⟩

/-- A 1024 x 256 bf16 buffer written once over all of itself reads back the written value, whatever it held. -/
theorem stored_whole1 (m : Memref sig .tc .vmem S1024x256 .bf16) (f : BufTy.Contents (Elt F) m.view.ty)
    (p : Vec F S1024x256 .bf16) :
    View.read (Elt F) m.view
      (m.view.writes (Elt F) f [⟨Rect.unit ![0, 0] S1024x256.size inb_S1024x256_S1024x256_0_0, p⟩]) = p := by
  rw [View.read_writes_eq_canon _ _ _ (covers1 p)]
  exact View.canon_unit_zero (S := S1024x256) zeroOff2 _ p

/-- Loading all of a 1024 x 256 f32 buffer reads its contents. -/
theorem loaded_feat1 (m : Memref sig .tc .vmem S1024x256 .f32) (f : BufTy.Contents (Elt F) m.view.ty) :
    View.readAt (Elt F) m.view (Rect.unit ![0, 0] S1024x256.size inb_S1024x256_S1024x256_0_0).toLoadRect f
      = View.read (Elt F) m.view f := by
  rw [View.readAt_eq_ld]
  exact View.ld_unit_zero (S := S1024x256) zeroOff2 _ _
/-- Loading all of a 1024-entry f32 buffer reads its contents. -/
theorem loaded_scale1 (m : Memref sig .tc .vmem S1024 .f32) (f : BufTy.Contents (Elt F) m.view.ty) :
    View.readAt (Elt F) m.view (Rect.unit ![0] S1024.size inb_S1024_S1024_0).toLoadRect f
      = View.read (Elt F) m.view f := by
  rw [View.readAt_eq_ld]
  exact View.ld_unit_zero (S := S1024) zeroOff1 _ _
/-- Loading all of a 256 x 256 f32 buffer reads its contents. -/
theorem loaded_weight1 (m : Memref sig .tc .vmem S256x256 .f32) (f : BufTy.Contents (Elt F) m.view.ty) :
    View.readAt (Elt F) m.view (Rect.unit ![0, 0] S256x256.size inb_S256x256_S256x256_0_0).toLoadRect f
      = View.read (Elt F) m.view f := by
  rw [View.readAt_eq_ld]
  exact View.ld_unit_zero (S := S256x256) zeroOff2 _ _

/-! ## One run of the body -/

set_option maxHeartbeats 1000000 in
/-- One run of the projection body on four whole buffers: the feature block `x0`, the scale entries `x1` and the
    weights `x2` are read whole and left as they were; the fourth buffer, whatever it held, ends at the bf16 rounding of
    (rows of `x0` scaled by `x1`) times `x2`. The single store lies over the whole buffer, so what is read back from
    it afterwards is the stored value itself. -/
theorem runs_kernel1 (c : Dev nD) (E : Set ℕ) (i : grid1.Coords)
    (arg1 : Memref sig .tc .vmem S1024x256 .f32) (harg1 : arg1.IsWhole)
    (arg2 : Memref sig .tc .vmem S1024 .f32) (harg2 : arg2.IsWhole)
    (arg3 : Memref sig .tc .vmem S256x256 .f32) (harg3 : arg3.IsWhole)
    (arg4 : Memref sig .tc .vmem S1024x256 .bf16) (harg4 : arg4.IsWhole)
    (x0 : Vec F S1024x256 .f32) (x1 : Vec F S1024 .f32) (x2 : Vec F S256x256 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k1_pay1 x0 x1 x2)) -∗ K ⟨⟩))
      ⊢ wp frame (wpE (defs₀ (F := F)) Variants.none c none) E
          (cc1__scale_matmul_kernel i arg1 harg1 arg2 harg2 arg3 harg3 arg4 harg4) K := by
  simp only [cc1__scale_matmul_kernel_eq_skeleton]; unfold cc1__scale_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (stored_whole1 arg4 f3 _).trans ?_
  rw [loaded_feat1 arg1 f0, loaded_scale1 arg2 f1, loaded_weight1 arg3 f2]

/-! ## The region's proof data -/

/-- Region 1 on core `c`, entered from the contents `V`: each array as `V` has it; after the body at point `t` the
    three input buffers still hold their blocks and the output buffer holds the rounded product of the scaled feature
    block with the weights; the invariant is the untouched rest; nothing is owed; every array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 0 t) (iblk1 V c 1 t) (iblk1 V c 2 t) := by dsimp only [dat1]

theorem hin1 (c : Dev nD) : (Pipeline.ΦA spec1 c : sProp 𝕄) ⊢ (dat1 V c).Φ 0 := by
  dsimp only [dat1]; exact .rfl
theorem hout1 (c : Dev nD) : (dat1 V c).Φ (Fin.last cfg1.N) ⊢ (Pipeline.ΦA spec1 c : sProp 𝕄) := by
  dsimp only [dat1]; exact .rfl
theorem owed1 (c : Dev nD) (t : Fin (cfg1.N + 1)) : (dat1 V c).owed t = 0 := by dsimp only [dat1]

/-! ## What the body finds in the input buffers -/

/-- The feature buffer holds the point's feature block when the body runs: the block is fetched at every point. -/
theorem before1_0 (c : Dev nD) (t : Fin cfg1.N) (d) : (dat1 V c).before 0 t d = iblk1 V c 0 t :=
  ((dat1 V c).before_in_eq_fetched 0 rfl (fun _ => rfl) (fun _ _ _ => rfl)
      (fun s => by rw [after1_0]; unfold Dat.blockOf iblk1; rw [A_eq1]; try rfl) t d).trans
    (by unfold Dat.fetched Dat.blockOf iblk1; rw [A_eq1]; try rfl)
/-- The scale buffer holds the point's 1024 scale entries. -/
theorem before1_1 (c : Dev nD) (t : Fin cfg1.N) (d) : (dat1 V c).before 1 t d = iblk1 V c 1 t :=
  ((dat1 V c).before_in_eq_fetched 1 rfl (fun _ => rfl) (fun _ _ _ => rfl)
      (fun s => by rw [after1_1]; unfold Dat.blockOf iblk1; rw [A_eq1]; try rfl) t d).trans
    (by unfold Dat.fetched Dat.blockOf iblk1; rw [A_eq1]; try rfl)
/-- The weight buffer holds the whole weight matrix at every point although it is brought in at the first point only:
    its block index never moves and the body leaves it in place. -/
theorem before1_2 (c : Dev nD) (t : Fin cfg1.N) (d) : (dat1 V c).before 2 t d = iblk1 V c 2 t :=
  ((dat1 V c).before_in_eq_fetched 2 rfl (fun _ => rfl) (fun _ _ _ => rfl)
      (fun s => by rw [after1_2]; unfold Dat.blockOf iblk1; rw [A_eq1]; try rfl) t d).trans
    (by unfold Dat.fetched Dat.blockOf iblk1; rw [A_eq1]; try rfl)

/-! ## The body at a grid point -/

/-- What the body is entered with at point `t`: the invariant, what the core owes, and the four current buffers. -/
def entry1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it returns with. -/
def exit1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three input buffers hold their blocks, so one run of the body applies; the invariant
    and what the core owes are not read. -/
theorem runs_body1 (c : Dev nD) (t : Fin cfg1.N) :
    entry1 V c t ⊢ wp frame (wpE (defs₀ (F := F)) Variants.none c none) Set.univ (bodyAt1 t) (fun _ => exit1 V c t) := by
  unfold entry1 exit1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (runs_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 1, at every point. -/
theorem body_obligation1 (c : Dev nD) : BodyObligation (dat1 (F := F) V c) (defs₀ (F := F)) Variants.none () Set.univ := fun t => by
  rw [bigSep_W1, bigSep_W1]
  exact runs_body1 V c t

end Cert.Kernel.Hand

end
-- ==== Proof.K.Frame2.lean ====
/-
  Region 2: one graph aggregation, on a 4 × 4 grid of (target block i, source block k), point 4·i + k.

  At each point the body multiplies the transposed 1024 × 1024 block (k, i) of edge weights by the 1024 × 256 block k
  of projected features and adds the product to a 1024 × 256 accumulator kept in a scratch buffer between points:
  zeroed first where k = 0, carried otherwise. Where k = 3 the finished sum is scaled row by row by the target
  block's inverse-square-root degrees, the bias row is added, negatives are cut to zero, and the result is stored into
  the output block i, which is written back there and only there; at the other points the output buffer is handed
  back as it was found.

  This module gives the region's proof data at the contents `V` it is entered from, for any float instance: what each
  window's buffer holds after the body at each point, the invariant that carries the accumulator from point to point
  (`accAt2`), and the body's obligation, from three statements of the body on arbitrary whole memrefs — one per
  control case (first, middle, last source block).
-/
import proofs.«142270_j68298569941180_1_alg».proof.Proof.K.Blocks
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the source-block coordinate is first and where it is last -/

/-- The first branch of the body is taken where the source-block coordinate is 0. -/
abbrev isFirstSrc2 (i : grid2.Coords) : Prop :=
  (Scalar.cmpi .ne (Scalar.extui (Scalar.cmpi .eq (BitVec.ofNat 32 (i 1).val) 0#32)) 0#32) = 1#1
theorem isFirstSrc2_iff : ∀ t : Fin cfg2.N, isFirstSrc2 (grid2.coords t) ↔ t.val % 4 = 0 :=
  (by decide +kernel : ∀ t : Fin grid2.N, isFirstSrc2 (grid2.coords t) ↔ t.val % 4 = 0)

/-- The last branch of the body is taken where the source-block coordinate is 3. -/
abbrev isLastSrc2 (i : grid2.Coords) : Prop := k2_cond2 i = 1#1
theorem isLastSrc2_iff : ∀ t : Fin cfg2.N, isLastSrc2 (grid2.coords t) ↔ t.val % 4 = 3 :=
  (by decide +kernel : ∀ t : Fin grid2.N, isLastSrc2 (grid2.coords t) ↔ t.val % 4 = 3)

/-! ## Which windows the body stores into, point by point -/

/-- The four inputs are read at every point; -/
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
/-- the output is left alone, and not written back, except at the last source block, -/
theorem idle2_4_of : ∀ t : Fin cfg2.N, ¬ t.val % 4 = 3 → cfg2.idle 4 (grid2.coords t) = true := by decide +kernel
theorem noFlush2_4_of : ∀ t : Fin cfg2.N, ¬ t.val % 4 = 3 → (cfg2.win 4).flush t = false := by decide +kernel
/-- where it is stored. -/
theorem live2_4_of : ∀ t : Fin cfg2.N, t.val % 4 = 3 → cfg2.idle 4 (grid2.coords t) = false := by decide +kernel

/-- The accumulator's memref: the whole scratch buffer of the call. -/
abbrev accM2 : Memref sig .tc .vmem S1024x256 .f32 := Memref.whole cc2_scratch0

/-- The launch's invariant with the accumulator split off the other scoped buffers and held as a memref at
    some contents. -/
theorem PhiA2_eq (c : Dev nD) :
    (Pipeline.ΦA spec2 c : sProp 𝕄)
      = iprop((iprop((∃ d, owns (c : Thread nD τ) accM2 fullShare d))
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [accM2, owns_whole]; rfl

theorem unitOffPair2 : (![0, 0] : Fin 2 → Nat) = fun _ => 0 := funext fun a => by fin_cases a <;> rfl
theorem unitOffOne2 : (![0] : Fin 1 → Nat) = fun _ => 0 := funext fun a => by fin_cases a <;> rfl

/-! ## The body on any whole memrefs, one statement per control case -/

set_option maxHeartbeats 1000000 in
/-- Source block 0 of a target block: the accumulator is zeroed, read back, and the first block product is
    added to it; the output buffer is not touched. -/
theorem run2_first (c : Dev nD) (i : grid2.Coords)
    (arg2 : Memref sig .tc .vmem S1024x1024 .bf16) (harg2 : arg2.IsWhole)
    (arg3 : Memref sig .tc .vmem S1024x256 .bf16) (harg3 : arg3.IsWhole)
    (arg4 : Memref sig .tc .vmem S1024 .f32) (harg4 : arg4.IsWhole)
    (arg5 : Memref sig .tc .vmem S256 .f32) (harg5 : arg5.IsWhole)
    (arg6 : Memref sig .tc .vmem S1024x256 .f32) (harg6 : arg6.IsWhole)
    (arg7 : Memref sig .tc .vmem S1024x256 .f32) (harg7 : arg7.IsWhole)
    (hc0 : isFirstSrc2 i) (hc1 : ¬ isLastSrc2 i)
    (x0 : Vec F S1024x1024 .bf16) (x1 : Vec F S1024x256 .bf16) (x2 : Vec F S1024 .f32) (x3 : Vec F S256 .f32)
    (x4 : Vec F S1024x256 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare x4
            ∗ owns (c : Thread nD τ) arg7 fullShare (k2_pay2 x0 x1 (k2_pay1 (F := F)))) -∗ K ⟨⟩))
      ⊢ wp frame (wpE (defs₀ (F := F)) Variants.none c none) E
          (cc2__aggregate_kernel i arg2 harg2 arg3 harg3 arg4 harg4 arg5 harg5 arg6 harg6 arg7 harg7) K := by
  simp only [cc2__aggregate_kernel_eq_skeleton]; unfold cc2__aggregate_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1
  obtain rfl := harg4.eq_unread hf2; obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_words
  rw [View.read_writes_eq_canon _ _ _ (fun y => ⟨_, List.mem_cons_self, View.mem_set_unit_zero unitOffPair2 inb_S1024x256_S1024x256_0_0 y⟩)]
  rw [View.canon_cons_unit_zero (S := S1024x256) unitOffPair2, View.readCov_unit_zero (S := S1024x256) _ unitOffPair2]
  simp only [View.readAt_eq_ld, harg2.read_unread, harg3.read_unread,
    View.ld_unit_zero (S := S1024x1024) unitOffPair2, View.ld_unit_zero (S := S1024x256) unitOffPair2]

set_option maxHeartbeats 1000000 in
/-- A source block that is neither first nor last: the block product is added to the accumulator as the
    point before left it; the output buffer is not touched. -/
theorem run2_mid (c : Dev nD) (i : grid2.Coords)
    (arg2 : Memref sig .tc .vmem S1024x1024 .bf16) (harg2 : arg2.IsWhole)
    (arg3 : Memref sig .tc .vmem S1024x256 .bf16) (harg3 : arg3.IsWhole)
    (arg4 : Memref sig .tc .vmem S1024 .f32) (harg4 : arg4.IsWhole)
    (arg5 : Memref sig .tc .vmem S256 .f32) (harg5 : arg5.IsWhole)
    (arg6 : Memref sig .tc .vmem S1024x256 .f32) (harg6 : arg6.IsWhole)
    (arg7 : Memref sig .tc .vmem S1024x256 .f32) (harg7 : arg7.IsWhole)
    (hc0 : ¬ isFirstSrc2 i) (hc1 : ¬ isLastSrc2 i)
    (x0 : Vec F S1024x1024 .bf16) (x1 : Vec F S1024x256 .bf16) (x2 : Vec F S1024 .f32) (x3 : Vec F S256 .f32)
    (x4 : Vec F S1024x256 .f32) (xs : Vec F S1024x256 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare xs
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare x4
            ∗ owns (c : Thread nD τ) arg7 fullShare (k2_pay2 x0 x1 xs)) -∗ K ⟨⟩))
      ⊢ wp frame (wpE (defs₀ (F := F)) Variants.none c none) E
          (cc2__aggregate_kernel i arg2 harg2 arg3 harg3 arg4 harg4 arg5 harg5 arg6 harg6 arg7 harg7) K := by
  simp only [cc2__aggregate_kernel_eq_skeleton]; unfold cc2__aggregate_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1
  obtain rfl := harg4.eq_unread hf2; obtain rfl := harg5.eq_unread hf3; obtain rfl := harg6.eq_unread hf4
  obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_words
  rw [View.read_writes_eq_canon _ _ _ (fun y => ⟨_, List.mem_cons_self, View.mem_set_unit_zero unitOffPair2 inb_S1024x256_S1024x256_0_0 y⟩)]
  rw [View.canon_cons_unit_zero (S := S1024x256) unitOffPair2]
  simp only [View.readAt_eq_ld, harg2.read_unread, harg3.read_unread, harg7.read_unread,
    View.ld_unit_zero (S := S1024x1024) unitOffPair2, View.ld_unit_zero (S := S1024x256) unitOffPair2]

set_option maxHeartbeats 1000000 in
/-- The last source block of a target block: the block product is added to the accumulator, and the finished
    sum — scaled row by row, the bias added, negatives cut to zero — is stored whole into the output buffer. -/
theorem run2_last (c : Dev nD) (i : grid2.Coords)
    (arg2 : Memref sig .tc .vmem S1024x1024 .bf16) (harg2 : arg2.IsWhole)
    (arg3 : Memref sig .tc .vmem S1024x256 .bf16) (harg3 : arg3.IsWhole)
    (arg4 : Memref sig .tc .vmem S1024 .f32) (harg4 : arg4.IsWhole)
    (arg5 : Memref sig .tc .vmem S256 .f32) (harg5 : arg5.IsWhole)
    (arg6 : Memref sig .tc .vmem S1024x256 .f32) (harg6 : arg6.IsWhole)
    (arg7 : Memref sig .tc .vmem S1024x256 .f32) (harg7 : arg7.IsWhole)
    (hc0 : ¬ isFirstSrc2 i) (hc1 : isLastSrc2 i)
    (x0 : Vec F S1024x1024 .bf16) (x1 : Vec F S1024x256 .bf16) (x2 : Vec F S1024 .f32) (x3 : Vec F S256 .f32)
    (xs : Vec F S1024x256 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare (k2_pay3 x2 x3 (k2_pay2 x0 x1 xs))
            ∗ owns (c : Thread nD τ) arg7 fullShare (k2_pay2 x0 x1 xs)) -∗ K ⟨⟩))
      ⊢ wp frame (wpE (defs₀ (F := F)) Variants.none c none) E
          (cc2__aggregate_kernel i arg2 harg2 arg3 harg3 arg4 harg4 arg5 harg5 arg6 harg6 arg7 harg7) K := by
  simp only [cc2__aggregate_kernel_eq_skeleton]; unfold cc2__aggregate_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1
  obtain rfl := harg4.eq_unread hf2; obtain rfl := harg5.eq_unread hf3
  obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (fun y => ⟨_, List.mem_cons_self, View.mem_set_unit_zero unitOffPair2 inb_S1024x256_S1024x256_0_0 y⟩)]
    rw [View.canon_cons_unit_zero (S := S1024x256) unitOffPair2]
    simp only [View.readAt_eq_ld, harg2.read_unread, harg3.read_unread, harg4.read_unread, harg5.read_unread,
      harg7.read_unread, View.readCov_unit_zero (S := S1024x256) _ unitOffPair2,
      View.ld_unit_zero (S := S1024x1024) unitOffPair2, View.ld_unit_zero (S := S1024x256) unitOffPair2,
      View.ld_unit_zero (S := S1024) unitOffOne2, View.ld_unit_zero (S := S256) unitOffOne2]
  iexists _; isplitr
  swap; · iexact HS
  ipureintro
  sl_unfold_words
  rw [View.read_writes_eq_canon _ _ _ (fun y => ⟨_, List.mem_cons_self, View.mem_set_unit_zero unitOffPair2 inb_S1024x256_S1024x256_0_0 y⟩)]
  rw [View.canon_cons_unit_zero (S := S1024x256) unitOffPair2]
  simp only [View.readAt_eq_ld, harg2.read_unread, harg3.read_unread, harg7.read_unread,
    View.ld_unit_zero (S := S1024x1024) unitOffPair2, View.ld_unit_zero (S := S1024x256) unitOffPair2]

/-- Each window's staging memref at point `t`, as the pipeline passes it to the body, and its wholeness. -/
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x256 .f32 := win2_4.stage (cfg2.slots t 4)
abbrev hs2_4 (t : Fin cfg2.N) : (ms2_4 t).IsWhole := hstage2_4 ((cfg2.slots t 4).cast nbuf2_4)

/-! ## The proof data -/

/-- What the region holds between points besides the windows: before the first point the scratch buffers at
    anything; after point `n` the accumulator at its contents after that point, the other scoped buffers at
    anything, and the generator register at some state. -/
def PhiAcc2 (c : Dev nD) : (n : ℕ) → n ≤ cfg2.N → sProp 𝕄
  | 0, _ => Pipeline.ΦA spec2 c
  | n + 1, hn => iprop((iprop(owns (c : Thread nD τ) accM2 fullShare (accAt2 V c n hn))
      ∗ Pipeline.scopedRestBut (Ix := Unit) (Name := ℕ) (U := UR sig nD τ) (Lvl := ℕ) (Val := Elt F) spec2 c [cc2_scratch0])
      ∗ (∃ r, prngReg c r))

theorem PhiAcc2_zero (c : Dev nD) (n : ℕ) (h : n ≤ cfg2.N) (hz : n = 0) : PhiAcc2 V c n h = Pipeline.ΦA spec2 c := by
  subst hz; rfl

theorem PhiAcc2_succ (c : Dev nD) (n : ℕ) (hn : n < cfg2.N) :
    PhiAcc2 V c (n + 1) hn = iprop((iprop(owns (c : Thread nD τ) accM2 fullShare (accAt2 V c n hn))
      ∗ Pipeline.scopedRestBut (Ix := Unit) (Name := ℕ) (U := UR sig nD τ) (Lvl := ℕ) (Val := Elt F) spec2 c [cc2_scratch0])
      ∗ (∃ r, prngReg c r)) := rfl

theorem PhiAcc2_pos (c : Dev nD) (n : ℕ) (h : n ≤ cfg2.N) (hz : n ≠ 0) :
    PhiAcc2 V c n h = iprop((iprop(owns (c : Thread nD τ) accM2 fullShare (accAt2 V c (n - 1) (by omega)))
      ∗ Pipeline.scopedRestBut (Ix := Unit) (Name := ℕ) (U := UR sig nD τ) (Lvl := ℕ) (Val := Elt F) spec2 c [cc2_scratch0])
      ∗ (∃ r, prngReg c r)) := by
  cases n with
  | zero => exact absurd rfl hz
  | succ n => rfl

/-- The proof data of region 2 on core `c`, entered from the contents `V`: each input's buffer keeps its block;
    the output's buffer, where the body stores into it, holds the finished accumulator scaled, shifted and cut at
    zero; between points the accumulator is carried at its contents (`PhiAcc2`). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay3 (iblk2 V c 2 t) (iblk2 V c 3 t) (accAt2 V c t.val t.isLt)
  Φ t := PhiAcc2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = PhiAcc2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = k2_pay3 (iblk2 V c 2 t) (iblk2 V c 3 t) (accAt2 V c t.val t.isLt) := by dsimp only [dat2]

theorem owed2 (c : Dev nD) (t : Fin (cfg2.N + 1)) : (dat2 V c).owed t = 0 := rfl

/-- An input's buffer holds its block at every point, fetched there or kept from the point before. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it hands back. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The inputs' buffers hold their blocks. By the source-block coordinate the point is a
    first, a middle or a last one; the invariant hands the body the accumulator (at anything before the first
    point, else at what the point before left) and takes it back at this point's contents; the output's buffer
    comes back as found except at a last point, where it holds the finished block. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiAcc2 V c (t.val + 1) t.isLt from rfl, PhiAcc2_succ]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  rw [show (dat2 V c).leavesExact 2 t = owns (c : Thread nD τ) (ms2_2 t) fullShare ((dat2 V c).after 2 t) from by
    unfold Dat.leavesExact; rw [live2_2 t], after2_2]
  rw [show (dat2 V c).leavesExact 3 t = owns (c : Thread nD τ) (ms2_3 t) fullShare ((dat2 V c).after 3 t) from by
    unfold Dat.leavesExact; rw [live2_3 t], after2_3]
  have hN : t.val < 16 := lt_of_lt_of_eq t.isLt (show cfg2.N = 16 from N_2)
  by_cases h0 : t.val % 4 = 0
  · have h1 : ¬ t.val % 4 = 3 := by omega
    rw [Dat.leavesExact_idle (dat2 V c) 4 t (idle2_4_of t h1) (noFlush2_4_of t h1)]
    rw [accAt2_reset V c t h0]
    by_cases hz : t.val = 0
    · rw [Phi2_castSucc V c t, PhiAcc2_zero V c _ _ hz, PhiA2_eq]
      iintro ⟨⟨⟨HS, Hr⟩, Hg⟩, Ho, ⟨%d0, H0⟩, ⟨%d1, H1⟩, ⟨%d2, H2⟩, ⟨%d3, H3⟩, ⟨%d4, H4⟩⟩
      iapply (run2_first c (grid2.coords t) (ms2_0 t) (hs2_0 t) (ms2_1 t) (hs2_1 t) (ms2_2 t) (hs2_2 t) (ms2_3 t) (hs2_3 t) (ms2_4 t) (hs2_4 t) accM2 (Memref.isWhole_whole _)
        ((isFirstSrc2_iff t).mpr h0) (fun h => h1 ((isLastSrc2_iff t).mp h))
        (iblk2 V c 0 t) (iblk2 V c 1 t) (iblk2 V c 2 t) (iblk2 V c 3 t) ((dat2 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4
    · rw [Phi2_castSucc V c t, PhiAcc2_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply (run2_first c (grid2.coords t) (ms2_0 t) (hs2_0 t) (ms2_1 t) (hs2_1 t) (ms2_2 t) (hs2_2 t) (ms2_3 t) (hs2_3 t) (ms2_4 t) (hs2_4 t) accM2 (Memref.isWhole_whole _)
        ((isFirstSrc2_iff t).mpr h0) (fun h => h1 ((isLastSrc2_iff t).mp h))
        (iblk2 V c 0 t) (iblk2 V c 1 t) (iblk2 V c 2 t) (iblk2 V c 3 t) ((dat2 V c).before 4 t d4) Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [accAt2_step V c t h0]
    rw [Phi2_castSucc V c t, PhiAcc2_pos V c _ _ hz]
    by_cases h1 : t.val % 4 = 3
    · rw [show (dat2 V c).leavesExact 4 t = owns (c : Thread nD τ) (ms2_4 t) fullShare ((dat2 V c).after 4 t) from by
        unfold Dat.leavesExact; rw [live2_4_of t h1], after2_4]
      rw [accAt2_step V c t h0]
      iintro ⟨⟨⟨HS, Hr⟩, Hg⟩, Ho, ⟨%d0, H0⟩, ⟨%d1, H1⟩, ⟨%d2, H2⟩, ⟨%d3, H3⟩, ⟨%d4, H4⟩⟩
      iapply (run2_last c (grid2.coords t) (ms2_0 t) (hs2_0 t) (ms2_1 t) (hs2_1 t) (ms2_2 t) (hs2_2 t) (ms2_3 t) (hs2_3 t) (ms2_4 t) (hs2_4 t) accM2 (Memref.isWhole_whole _)
        (fun h => h0 ((isFirstSrc2_iff t).mp h)) ((isLastSrc2_iff t).mpr h1)
        (iblk2 V c 0 t) (iblk2 V c 1 t) (iblk2 V c 2 t) (iblk2 V c 3 t) (accAt2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexact H4
    · rw [Dat.leavesExact_idle (dat2 V c) 4 t (idle2_4_of t h1) (noFlush2_4_of t h1)]
      iintro ⟨⟨⟨HS, Hr⟩, Hg⟩, Ho, ⟨%d0, H0⟩, ⟨%d1, H1⟩, ⟨%d2, H2⟩, ⟨%d3, H3⟩, ⟨%d4, H4⟩⟩
      iapply (run2_mid c (grid2.coords t) (ms2_0 t) (hs2_0 t) (ms2_1 t) (hs2_1 t) (ms2_2 t) (hs2_2 t) (ms2_3 t) (hs2_3 t) (ms2_4 t) (hs2_4 t) accM2 (Memref.isWhole_whole _)
        (fun h => h0 ((isFirstSrc2_iff t).mp h)) (fun h => h1 ((isLastSrc2_iff t).mp h))
        (iblk2 V c 0 t) (iblk2 V c 1 t) (iblk2 V c 2 t) (iblk2 V c 3 t) ((dat2 V c).before 4 t d4) (accAt2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4

/-- The body obligation of region 2, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiAcc2 V c 0 (Nat.zero_le _) from rfl, PhiAcc2_zero V c 0 _ rfl]
  try exact Idealize.SL.BI.Entails.refl _

/-- After any point the invariant gives the launch's back: the accumulator's contents are forgotten. -/
theorem Phi2_forget (c : Dev nD) (t : Fin (cfg2.N + 1)) (ht : t.val ≠ 0) :
    (dat2 V c).Φ t ⊢ (Pipeline.ΦA spec2 c : sProp 𝕄) := by
  rw [show (dat2 V c).Φ t = PhiAcc2 V c t.val (Nat.le_of_lt_succ t.isLt) from rfl, PhiAcc2_pos V c _ _ ht, PhiA2_eq]
  iintro ⟨⟨HS, Hr⟩, Hg⟩
  isplitl [HS Hr]
  · isplitl [HS]
    · iexists _; iexact HS
    iexact Hr
  iexact Hg

theorem hout2 (c : Dev nD) : (dat2 V c).Φ (Fin.last cfg2.N) ⊢ (Pipeline.ΦA spec2 c : sProp 𝕄) :=
  Phi2_forget V c _ (by rw [Fin.val_last]; have : cfg2.N = 16 := N_2; omega)

end Cert.Kernel.Hand

end
-- ==== Proof.K.Frame3.lean ====
/-
  Region 3, the second projection call: the same body as the first, run on the first layer's output. At each of
  its four grid points it takes a 1024-row block of that 4096 x 256 matrix, the matching 1024 entries of the row
  scale, and the whole second 256 x 256 weight matrix; it scales row r of the block by entry r of the scale, rounds
  both factors to bf16, multiplies from a zero accumulator, and stores the product rounded to bf16 as the output
  block. Nothing is carried from point to point.
-/
import proofs.«142270_j68298569941180_1_alg».proof.Proof.K.Blocks
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Offsets -/

/-- The two-axis offset written as a literal pair is the zero offset. -/
private theorem zeroOff2 : (![0, 0] : Fin 2 → Nat) = fun _ => 0 := by funext a; fin_cases a <;> rfl
/-- The one-axis offset written as a literal is the zero offset. -/
private theorem zeroOff1 : (![0] : Fin 1 → Nat) = fun _ => 0 := by funext a; fin_cases a; rfl

/-! ## Whole-buffer loads and the whole-buffer store -/

/-- The one store of the body lies over every index of the output block. -/
theorem covers3 (p : Vec F S1024x256 .bf16) (y : S1024x256.Idx) :
    ∃ pc ∈ ([⟨Rect.unit ![0, 0] S1024x256.size inb_S1024x256_S1024x256_0_0, p⟩] : List (View.Piece (Elt F) S1024x256 .bf16)),
      y ∈ pc.1.set :=
  ⟨⟨Rect.unit ![0, 0] S1024x256.size inb_S1024x256_S1024x256_0_0, p⟩, List.mem_singleton_self _,
    View.mem_set_unit_zero (S := S1024x256) zeroOff2 inb_S1024x256_S1024x256_0_0 y⟩

/-- A 1024 x 256 bf16 buffer written once over all of itself reads back the written value, whatever it held. -/
theorem stored_whole3 (m : Memref sig .tc .vmem S1024x256 .bf16) (f : BufTy.Contents (Elt F) m.view.ty)
    (p : Vec F S1024x256 .bf16) :
    View.read (Elt F) m.view
      (m.view.writes (Elt F) f [⟨Rect.unit ![0, 0] S1024x256.size inb_S1024x256_S1024x256_0_0, p⟩]) = p := by
  rw [View.read_writes_eq_canon _ _ _ (covers3 p)]
  exact View.canon_unit_zero (S := S1024x256) zeroOff2 _ p

/-- Loading all of a 1024 x 256 f32 buffer reads its contents. -/
theorem loaded_hidden3 (m : Memref sig .tc .vmem S1024x256 .f32) (f : BufTy.Contents (Elt F) m.view.ty) :
    View.readAt (Elt F) m.view (Rect.unit ![0, 0] S1024x256.size inb_S1024x256_S1024x256_0_0).toLoadRect f
      = View.read (Elt F) m.view f := by
  rw [View.readAt_eq_ld]
  exact View.ld_unit_zero (S := S1024x256) zeroOff2 _ _
/-- Loading all of a 1024-entry f32 buffer reads its contents. -/
theorem loaded_scale3 (m : Memref sig .tc .vmem S1024 .f32) (f : BufTy.Contents (Elt F) m.view.ty) :
    View.readAt (Elt F) m.view (Rect.unit ![0] S1024.size inb_S1024_S1024_0).toLoadRect f
      = View.read (Elt F) m.view f := by
  rw [View.readAt_eq_ld]
  exact View.ld_unit_zero (S := S1024) zeroOff1 _ _
/-- Loading all of a 256 x 256 f32 buffer reads its contents. -/
theorem loaded_weight3 (m : Memref sig .tc .vmem S256x256 .f32) (f : BufTy.Contents (Elt F) m.view.ty) :
    View.readAt (Elt F) m.view (Rect.unit ![0, 0] S256x256.size inb_S256x256_S256x256_0_0).toLoadRect f
      = View.read (Elt F) m.view f := by
  rw [View.readAt_eq_ld]
  exact View.ld_unit_zero (S := S256x256) zeroOff2 _ _

/-! ## One run of the body -/

set_option maxHeartbeats 1000000 in
/-- One run of the second projection body on four whole buffers: the block `x0` of the first layer's output, the scale
    entries `x1` and the second weight matrix `x2` are read whole and left as they were; the fourth buffer, whatever it
    held, ends at the bf16 rounding of (rows of `x0` scaled by `x1`) times `x2`. The single store lies over the whole
    buffer, so what is read back from it afterwards is the stored value itself. -/
theorem runs_kernel3 (c : Dev nD) (E : Set ℕ) (i : grid3.Coords)
    (arg1 : Memref sig .tc .vmem S1024x256 .f32) (harg1 : arg1.IsWhole)
    (arg2 : Memref sig .tc .vmem S1024 .f32) (harg2 : arg2.IsWhole)
    (arg3 : Memref sig .tc .vmem S256x256 .f32) (harg3 : arg3.IsWhole)
    (arg4 : Memref sig .tc .vmem S1024x256 .bf16) (harg4 : arg4.IsWhole)
    (x0 : Vec F S1024x256 .f32) (x1 : Vec F S1024 .f32) (x2 : Vec F S256x256 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k3_pay1 x0 x1 x2)) -∗ K ⟨⟩))
      ⊢ wp frame (wpE (defs₀ (F := F)) Variants.none c none) E
          (cc3__scale_matmul_kernel i arg1 harg1 arg2 harg2 arg3 harg3 arg4 harg4) K := by
  simp only [cc3__scale_matmul_kernel_eq_skeleton]; unfold cc3__scale_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (stored_whole3 arg4 f3 _).trans ?_
  rw [loaded_hidden3 arg1 f0, loaded_scale3 arg2 f1, loaded_weight3 arg3 f2]

/-! ## The region's proof data -/

/-- Region 3 on core `c`, entered from the contents `V`: each array as `V` has it; after the body at point `t` the
    three input buffers still hold their blocks and the output buffer holds the rounded product of the scaled block
    of the first layer's output with the second weight matrix; the invariant is the untouched rest; nothing is owed;
    every array is held whole. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay1 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = k3_pay1 (iblk3 V c 0 t) (iblk3 V c 1 t) (iblk3 V c 2 t) := by dsimp only [dat3]

theorem hin3 (c : Dev nD) : (Pipeline.ΦA spec3 c : sProp 𝕄) ⊢ (dat3 V c).Φ 0 := by
  dsimp only [dat3]; exact .rfl
theorem hout3 (c : Dev nD) : (dat3 V c).Φ (Fin.last cfg3.N) ⊢ (Pipeline.ΦA spec3 c : sProp 𝕄) := by
  dsimp only [dat3]; exact .rfl
theorem owed3 (c : Dev nD) (t : Fin (cfg3.N + 1)) : (dat3 V c).owed t = 0 := by dsimp only [dat3]

/-! ## What the body finds in the input buffers -/

/-- The first buffer holds the point's 1024 rows of the first layer's output when the body runs: that block is
    fetched at every point. -/
theorem before3_0 (c : Dev nD) (t : Fin cfg3.N) (d) : (dat3 V c).before 0 t d = iblk3 V c 0 t :=
  ((dat3 V c).before_in_eq_fetched 0 rfl (fun _ => rfl) (fun _ _ _ => rfl)
      (fun s => by rw [after3_0]; unfold Dat.blockOf iblk3; rw [A_eq3]; try rfl) t d).trans
    (by unfold Dat.fetched Dat.blockOf iblk3; rw [A_eq3]; try rfl)
/-- The scale buffer holds the point's 1024 scale entries. -/
theorem before3_1 (c : Dev nD) (t : Fin cfg3.N) (d) : (dat3 V c).before 1 t d = iblk3 V c 1 t :=
  ((dat3 V c).before_in_eq_fetched 1 rfl (fun _ => rfl) (fun _ _ _ => rfl)
      (fun s => by rw [after3_1]; unfold Dat.blockOf iblk3; rw [A_eq3]; try rfl) t d).trans
    (by unfold Dat.fetched Dat.blockOf iblk3; rw [A_eq3]; try rfl)
/-- The weight buffer holds the whole second weight matrix at every point although it is brought in at the first
    point only: its block index never moves and the body leaves it in place. -/
theorem before3_2 (c : Dev nD) (t : Fin cfg3.N) (d) : (dat3 V c).before 2 t d = iblk3 V c 2 t :=
  ((dat3 V c).before_in_eq_fetched 2 rfl (fun _ => rfl) (fun _ _ _ => rfl)
      (fun s => by rw [after3_2]; unfold Dat.blockOf iblk3; rw [A_eq3]; try rfl) t d).trans
    (by unfold Dat.fetched Dat.blockOf iblk3; rw [A_eq3]; try rfl)

/-! ## The body at a grid point -/

/-- What the body is entered with at point `t`: the invariant, what the core owes, and the four current buffers. -/
def entry3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- What it returns with. -/
def exit3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the three input buffers hold their blocks, so one run of the body applies; the invariant
    and what the core owes are not read. -/
theorem runs_body3 (c : Dev nD) (t : Fin cfg3.N) :
    entry3 V c t ⊢ wp frame (wpE (defs₀ (F := F)) Variants.none c none) Set.univ (bodyAt3 t) (fun _ => exit3 V c t) := by
  unfold entry3 exit3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (runs_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 3, at every point. -/
theorem body_obligation3 (c : Dev nD) : BodyObligation (dat3 (F := F) V c) (defs₀ (F := F)) Variants.none () Set.univ := fun t => by
  rw [bigSep_W3, bigSep_W3]
  exact runs_body3 V c t

end Cert.Kernel.Hand

end
-- ==== Proof.K.Frame4.lean ====
/-
  Region 4: one graph aggregation, on a 4 × 4 grid of (target block i, source block k), point 4·i + k.

  At each point the body multiplies the transposed 1024 × 1024 block (k, i) of edge weights by the 1024 × 256 block k
  of projected features and adds the product to a 1024 × 256 accumulator kept in a scratch buffer between points:
  zeroed first where k = 0, carried otherwise. Where k = 3 the finished sum is scaled row by row by the target
  block's inverse-square-root degrees, the bias row is added, negatives are cut to zero, and the result is stored into
  the output block i, which is written back there and only there; at the other points the output buffer is handed
  back as it was found.

  This module gives the region's proof data at the contents `V` it is entered from, for any float instance: what each
  window's buffer holds after the body at each point, the invariant that carries the accumulator from point to point
  (`accAt4`), and the body's obligation, from three statements of the body on arbitrary whole memrefs — one per
  control case (first, middle, last source block).
-/
import proofs.«142270_j68298569941180_1_alg».proof.Proof.K.Blocks
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the source-block coordinate is first and where it is last -/

/-- The first branch of the body is taken where the source-block coordinate is 0. -/
abbrev isFirstSrc4 (i : grid4.Coords) : Prop :=
  (Scalar.cmpi .ne (Scalar.extui (Scalar.cmpi .eq (BitVec.ofNat 32 (i 1).val) 0#32)) 0#32) = 1#1
theorem isFirstSrc4_iff : ∀ t : Fin cfg4.N, isFirstSrc4 (grid4.coords t) ↔ t.val % 4 = 0 :=
  (by decide +kernel : ∀ t : Fin grid4.N, isFirstSrc4 (grid4.coords t) ↔ t.val % 4 = 0)

/-- The last branch of the body is taken where the source-block coordinate is 3. -/
abbrev isLastSrc4 (i : grid4.Coords) : Prop := k4_cond2 i = 1#1
theorem isLastSrc4_iff : ∀ t : Fin cfg4.N, isLastSrc4 (grid4.coords t) ↔ t.val % 4 = 3 :=
  (by decide +kernel : ∀ t : Fin grid4.N, isLastSrc4 (grid4.coords t) ↔ t.val % 4 = 3)

/-! ## Which windows the body stores into, point by point -/

/-- The four inputs are read at every point; -/
theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel
/-- the output is left alone, and not written back, except at the last source block, -/
theorem idle4_4_of : ∀ t : Fin cfg4.N, ¬ t.val % 4 = 3 → cfg4.idle 4 (grid4.coords t) = true := by decide +kernel
theorem noFlush4_4_of : ∀ t : Fin cfg4.N, ¬ t.val % 4 = 3 → (cfg4.win 4).flush t = false := by decide +kernel
/-- where it is stored. -/
theorem live4_4_of : ∀ t : Fin cfg4.N, t.val % 4 = 3 → cfg4.idle 4 (grid4.coords t) = false := by decide +kernel

/-- The accumulator's memref: the whole scratch buffer of the call. -/
abbrev accM4 : Memref sig .tc .vmem S1024x256 .f32 := Memref.whole cc4_scratch0

/-- The launch's invariant with the accumulator split off the other scoped buffers and held as a memref at
    some contents. -/
theorem PhiA4_eq (c : Dev nD) :
    (Pipeline.ΦA spec4 c : sProp 𝕄)
      = iprop((iprop((∃ d, owns (c : Thread nD τ) accM4 fullShare d))
          ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [accM4, owns_whole]; rfl

theorem unitOffPair4 : (![0, 0] : Fin 2 → Nat) = fun _ => 0 := funext fun a => by fin_cases a <;> rfl
theorem unitOffOne4 : (![0] : Fin 1 → Nat) = fun _ => 0 := funext fun a => by fin_cases a <;> rfl

/-! ## The body on any whole memrefs, one statement per control case -/

set_option maxHeartbeats 1000000 in
/-- Source block 0 of a target block: the accumulator is zeroed, read back, and the first block product is
    added to it; the output buffer is not touched. -/
theorem run4_first (c : Dev nD) (i : grid4.Coords)
    (arg2 : Memref sig .tc .vmem S1024x1024 .bf16) (harg2 : arg2.IsWhole)
    (arg3 : Memref sig .tc .vmem S1024x256 .bf16) (harg3 : arg3.IsWhole)
    (arg4 : Memref sig .tc .vmem S1024 .f32) (harg4 : arg4.IsWhole)
    (arg5 : Memref sig .tc .vmem S256 .f32) (harg5 : arg5.IsWhole)
    (arg6 : Memref sig .tc .vmem S1024x256 .f32) (harg6 : arg6.IsWhole)
    (arg7 : Memref sig .tc .vmem S1024x256 .f32) (harg7 : arg7.IsWhole)
    (hc0 : isFirstSrc4 i) (hc1 : ¬ isLastSrc4 i)
    (x0 : Vec F S1024x1024 .bf16) (x1 : Vec F S1024x256 .bf16) (x2 : Vec F S1024 .f32) (x3 : Vec F S256 .f32)
    (x4 : Vec F S1024x256 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare x4
            ∗ owns (c : Thread nD τ) arg7 fullShare (k4_pay2 x0 x1 (k4_pay1 (F := F)))) -∗ K ⟨⟩))
      ⊢ wp frame (wpE (defs₀ (F := F)) Variants.none c none) E
          (cc4__aggregate_kernel i arg2 harg2 arg3 harg3 arg4 harg4 arg5 harg5 arg6 harg6 arg7 harg7) K := by
  simp only [cc4__aggregate_kernel_eq_skeleton]; unfold cc4__aggregate_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1
  obtain rfl := harg4.eq_unread hf2; obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_words
  rw [View.read_writes_eq_canon _ _ _ (fun y => ⟨_, List.mem_cons_self, View.mem_set_unit_zero unitOffPair4 inb_S1024x256_S1024x256_0_0 y⟩)]
  rw [View.canon_cons_unit_zero (S := S1024x256) unitOffPair4, View.readCov_unit_zero (S := S1024x256) _ unitOffPair4]
  simp only [View.readAt_eq_ld, harg2.read_unread, harg3.read_unread,
    View.ld_unit_zero (S := S1024x1024) unitOffPair4, View.ld_unit_zero (S := S1024x256) unitOffPair4]

set_option maxHeartbeats 1000000 in
/-- A source block that is neither first nor last: the block product is added to the accumulator as the
    point before left it; the output buffer is not touched. -/
theorem run4_mid (c : Dev nD) (i : grid4.Coords)
    (arg2 : Memref sig .tc .vmem S1024x1024 .bf16) (harg2 : arg2.IsWhole)
    (arg3 : Memref sig .tc .vmem S1024x256 .bf16) (harg3 : arg3.IsWhole)
    (arg4 : Memref sig .tc .vmem S1024 .f32) (harg4 : arg4.IsWhole)
    (arg5 : Memref sig .tc .vmem S256 .f32) (harg5 : arg5.IsWhole)
    (arg6 : Memref sig .tc .vmem S1024x256 .f32) (harg6 : arg6.IsWhole)
    (arg7 : Memref sig .tc .vmem S1024x256 .f32) (harg7 : arg7.IsWhole)
    (hc0 : ¬ isFirstSrc4 i) (hc1 : ¬ isLastSrc4 i)
    (x0 : Vec F S1024x1024 .bf16) (x1 : Vec F S1024x256 .bf16) (x2 : Vec F S1024 .f32) (x3 : Vec F S256 .f32)
    (x4 : Vec F S1024x256 .f32) (xs : Vec F S1024x256 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare xs
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare x4
            ∗ owns (c : Thread nD τ) arg7 fullShare (k4_pay2 x0 x1 xs)) -∗ K ⟨⟩))
      ⊢ wp frame (wpE (defs₀ (F := F)) Variants.none c none) E
          (cc4__aggregate_kernel i arg2 harg2 arg3 harg3 arg4 harg4 arg5 harg5 arg6 harg6 arg7 harg7) K := by
  simp only [cc4__aggregate_kernel_eq_skeleton]; unfold cc4__aggregate_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1
  obtain rfl := harg4.eq_unread hf2; obtain rfl := harg5.eq_unread hf3; obtain rfl := harg6.eq_unread hf4
  obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_words
  rw [View.read_writes_eq_canon _ _ _ (fun y => ⟨_, List.mem_cons_self, View.mem_set_unit_zero unitOffPair4 inb_S1024x256_S1024x256_0_0 y⟩)]
  rw [View.canon_cons_unit_zero (S := S1024x256) unitOffPair4]
  simp only [View.readAt_eq_ld, harg2.read_unread, harg3.read_unread, harg7.read_unread,
    View.ld_unit_zero (S := S1024x1024) unitOffPair4, View.ld_unit_zero (S := S1024x256) unitOffPair4]

set_option maxHeartbeats 1000000 in
/-- The last source block of a target block: the block product is added to the accumulator, and the finished
    sum — scaled row by row, the bias added, negatives cut to zero — is stored whole into the output buffer. -/
theorem run4_last (c : Dev nD) (i : grid4.Coords)
    (arg2 : Memref sig .tc .vmem S1024x1024 .bf16) (harg2 : arg2.IsWhole)
    (arg3 : Memref sig .tc .vmem S1024x256 .bf16) (harg3 : arg3.IsWhole)
    (arg4 : Memref sig .tc .vmem S1024 .f32) (harg4 : arg4.IsWhole)
    (arg5 : Memref sig .tc .vmem S256 .f32) (harg5 : arg5.IsWhole)
    (arg6 : Memref sig .tc .vmem S1024x256 .f32) (harg6 : arg6.IsWhole)
    (arg7 : Memref sig .tc .vmem S1024x256 .f32) (harg7 : arg7.IsWhole)
    (hc0 : ¬ isFirstSrc4 i) (hc1 : isLastSrc4 i)
    (x0 : Vec F S1024x1024 .bf16) (x1 : Vec F S1024x256 .bf16) (x2 : Vec F S1024 .f32) (x3 : Vec F S256 .f32)
    (xs : Vec F S1024x256 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare (k4_pay3 x2 x3 (k4_pay2 x0 x1 xs))
            ∗ owns (c : Thread nD τ) arg7 fullShare (k4_pay2 x0 x1 xs)) -∗ K ⟨⟩))
      ⊢ wp frame (wpE (defs₀ (F := F)) Variants.none c none) E
          (cc4__aggregate_kernel i arg2 harg2 arg3 harg3 arg4 harg4 arg5 harg5 arg6 harg6 arg7 harg7) K := by
  simp only [cc4__aggregate_kernel_eq_skeleton]; unfold cc4__aggregate_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1
  obtain rfl := harg4.eq_unread hf2; obtain rfl := harg5.eq_unread hf3
  obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (fun y => ⟨_, List.mem_cons_self, View.mem_set_unit_zero unitOffPair4 inb_S1024x256_S1024x256_0_0 y⟩)]
    rw [View.canon_cons_unit_zero (S := S1024x256) unitOffPair4]
    simp only [View.readAt_eq_ld, harg2.read_unread, harg3.read_unread, harg4.read_unread, harg5.read_unread,
      harg7.read_unread, View.readCov_unit_zero (S := S1024x256) _ unitOffPair4,
      View.ld_unit_zero (S := S1024x1024) unitOffPair4, View.ld_unit_zero (S := S1024x256) unitOffPair4,
      View.ld_unit_zero (S := S1024) unitOffOne4, View.ld_unit_zero (S := S256) unitOffOne4]
  iexists _; isplitr
  swap; · iexact HS
  ipureintro
  sl_unfold_words
  rw [View.read_writes_eq_canon _ _ _ (fun y => ⟨_, List.mem_cons_self, View.mem_set_unit_zero unitOffPair4 inb_S1024x256_S1024x256_0_0 y⟩)]
  rw [View.canon_cons_unit_zero (S := S1024x256) unitOffPair4]
  simp only [View.readAt_eq_ld, harg2.read_unread, harg3.read_unread, harg7.read_unread,
    View.ld_unit_zero (S := S1024x1024) unitOffPair4, View.ld_unit_zero (S := S1024x256) unitOffPair4]

/-- Each window's staging memref at point `t`, as the pipeline passes it to the body, and its wholeness. -/
abbrev ms4_0 (t : Fin cfg4.N) : Memref sig .tc .vmem S1024x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x256 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S256 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1024x256 .f32 := win4_4.stage (cfg4.slots t 4)
abbrev hs4_4 (t : Fin cfg4.N) : (ms4_4 t).IsWhole := hstage4_4 ((cfg4.slots t 4).cast nbuf4_4)

/-! ## The proof data -/

/-- What the region holds between points besides the windows: before the first point the scratch buffers at
    anything; after point `n` the accumulator at its contents after that point, the other scoped buffers at
    anything, and the generator register at some state. -/
def PhiAcc4 (c : Dev nD) : (n : ℕ) → n ≤ cfg4.N → sProp 𝕄
  | 0, _ => Pipeline.ΦA spec4 c
  | n + 1, hn => iprop((iprop(owns (c : Thread nD τ) accM4 fullShare (accAt4 V c n hn))
      ∗ Pipeline.scopedRestBut (Ix := Unit) (Name := ℕ) (U := UR sig nD τ) (Lvl := ℕ) (Val := Elt F) spec4 c [cc4_scratch0])
      ∗ (∃ r, prngReg c r))

theorem PhiAcc4_zero (c : Dev nD) (n : ℕ) (h : n ≤ cfg4.N) (hz : n = 0) : PhiAcc4 V c n h = Pipeline.ΦA spec4 c := by
  subst hz; rfl

theorem PhiAcc4_succ (c : Dev nD) (n : ℕ) (hn : n < cfg4.N) :
    PhiAcc4 V c (n + 1) hn = iprop((iprop(owns (c : Thread nD τ) accM4 fullShare (accAt4 V c n hn))
      ∗ Pipeline.scopedRestBut (Ix := Unit) (Name := ℕ) (U := UR sig nD τ) (Lvl := ℕ) (Val := Elt F) spec4 c [cc4_scratch0])
      ∗ (∃ r, prngReg c r)) := rfl

theorem PhiAcc4_pos (c : Dev nD) (n : ℕ) (h : n ≤ cfg4.N) (hz : n ≠ 0) :
    PhiAcc4 V c n h = iprop((iprop(owns (c : Thread nD τ) accM4 fullShare (accAt4 V c (n - 1) (by omega)))
      ∗ Pipeline.scopedRestBut (Ix := Unit) (Name := ℕ) (U := UR sig nD τ) (Lvl := ℕ) (Val := Elt F) spec4 c [cc4_scratch0])
      ∗ (∃ r, prngReg c r)) := by
  cases n with
  | zero => exact absurd rfl hz
  | succ n => rfl

/-- The proof data of region 4 on core `c`, entered from the contents `V`: each input's buffer keeps its block;
    the output's buffer, where the body stores into it, holds the finished accumulator scaled, shifted and cut at
    zero; between points the accumulator is carried at its contents (`PhiAcc4`). -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => k4_pay3 (iblk4 V c 2 t) (iblk4 V c 3 t) (accAt4 V c t.val t.isLt)
  Φ t := PhiAcc4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem Phi4_castSucc (c : Dev nD) (t : Fin cfg4.N) :
    (dat4 V c).Φ t.castSucc = PhiAcc4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = k4_pay3 (iblk4 V c 2 t) (iblk4 V c 3 t) (accAt4 V c t.val t.isLt) := by dsimp only [dat4]

theorem owed4 (c : Dev nD) (t : Fin (cfg4.N + 1)) : (dat4 V c).owed t = 0 := rfl

/-- An input's buffer holds its block at every point, fetched there or kept from the point before. -/
theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

/-- and what it hands back. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
/-- The body at any point. The inputs' buffers hold their blocks. By the source-block coordinate the point is a
    first, a middle or a last one; the invariant hands the body the accumulator (at anything before the first
    point, else at what the point before left) and takes it back at this point's contents; the output's buffer
    comes back as found except at a last point, where it holds the finished block. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiAcc4 V c (t.val + 1) t.isLt from rfl, PhiAcc4_succ]
  rw [show (dat4 V c).leavesExact 0 t = owns (c : Thread nD τ) (ms4_0 t) fullShare ((dat4 V c).after 0 t) from by
    unfold Dat.leavesExact; rw [live4_0 t], after4_0]
  rw [show (dat4 V c).leavesExact 1 t = owns (c : Thread nD τ) (ms4_1 t) fullShare ((dat4 V c).after 1 t) from by
    unfold Dat.leavesExact; rw [live4_1 t], after4_1]
  rw [show (dat4 V c).leavesExact 2 t = owns (c : Thread nD τ) (ms4_2 t) fullShare ((dat4 V c).after 2 t) from by
    unfold Dat.leavesExact; rw [live4_2 t], after4_2]
  rw [show (dat4 V c).leavesExact 3 t = owns (c : Thread nD τ) (ms4_3 t) fullShare ((dat4 V c).after 3 t) from by
    unfold Dat.leavesExact; rw [live4_3 t], after4_3]
  have hN : t.val < 16 := lt_of_lt_of_eq t.isLt (show cfg4.N = 16 from N_4)
  by_cases h0 : t.val % 4 = 0
  · have h1 : ¬ t.val % 4 = 3 := by omega
    rw [Dat.leavesExact_idle (dat4 V c) 4 t (idle4_4_of t h1) (noFlush4_4_of t h1)]
    rw [accAt4_reset V c t h0]
    by_cases hz : t.val = 0
    · rw [Phi4_castSucc V c t, PhiAcc4_zero V c _ _ hz, PhiA4_eq]
      iintro ⟨⟨⟨HS, Hr⟩, Hg⟩, Ho, ⟨%d0, H0⟩, ⟨%d1, H1⟩, ⟨%d2, H2⟩, ⟨%d3, H3⟩, ⟨%d4, H4⟩⟩
      iapply (run4_first c (grid4.coords t) (ms4_0 t) (hs4_0 t) (ms4_1 t) (hs4_1 t) (ms4_2 t) (hs4_2 t) (ms4_3 t) (hs4_3 t) (ms4_4 t) (hs4_4 t) accM4 (Memref.isWhole_whole _)
        ((isFirstSrc4_iff t).mpr h0) (fun h => h1 ((isLastSrc4_iff t).mp h))
        (iblk4 V c 0 t) (iblk4 V c 1 t) (iblk4 V c 2 t) (iblk4 V c 3 t) ((dat4 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4
    · rw [Phi4_castSucc V c t, PhiAcc4_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply (run4_first c (grid4.coords t) (ms4_0 t) (hs4_0 t) (ms4_1 t) (hs4_1 t) (ms4_2 t) (hs4_2 t) (ms4_3 t) (hs4_3 t) (ms4_4 t) (hs4_4 t) accM4 (Memref.isWhole_whole _)
        ((isFirstSrc4_iff t).mpr h0) (fun h => h1 ((isLastSrc4_iff t).mp h))
        (iblk4 V c 0 t) (iblk4 V c 1 t) (iblk4 V c 2 t) (iblk4 V c 3 t) ((dat4 V c).before 4 t d4) Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [accAt4_step V c t h0]
    rw [Phi4_castSucc V c t, PhiAcc4_pos V c _ _ hz]
    by_cases h1 : t.val % 4 = 3
    · rw [show (dat4 V c).leavesExact 4 t = owns (c : Thread nD τ) (ms4_4 t) fullShare ((dat4 V c).after 4 t) from by
        unfold Dat.leavesExact; rw [live4_4_of t h1], after4_4]
      rw [accAt4_step V c t h0]
      iintro ⟨⟨⟨HS, Hr⟩, Hg⟩, Ho, ⟨%d0, H0⟩, ⟨%d1, H1⟩, ⟨%d2, H2⟩, ⟨%d3, H3⟩, ⟨%d4, H4⟩⟩
      iapply (run4_last c (grid4.coords t) (ms4_0 t) (hs4_0 t) (ms4_1 t) (hs4_1 t) (ms4_2 t) (hs4_2 t) (ms4_3 t) (hs4_3 t) (ms4_4 t) (hs4_4 t) accM4 (Memref.isWhole_whole _)
        (fun h => h0 ((isFirstSrc4_iff t).mp h)) ((isLastSrc4_iff t).mpr h1)
        (iblk4 V c 0 t) (iblk4 V c 1 t) (iblk4 V c 2 t) (iblk4 V c 3 t) (accAt4 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexact H4
    · rw [Dat.leavesExact_idle (dat4 V c) 4 t (idle4_4_of t h1) (noFlush4_4_of t h1)]
      iintro ⟨⟨⟨HS, Hr⟩, Hg⟩, Ho, ⟨%d0, H0⟩, ⟨%d1, H1⟩, ⟨%d2, H2⟩, ⟨%d3, H3⟩, ⟨%d4, H4⟩⟩
      iapply (run4_mid c (grid4.coords t) (ms4_0 t) (hs4_0 t) (ms4_1 t) (hs4_1 t) (ms4_2 t) (hs4_2 t) (ms4_3 t) (hs4_3 t) (ms4_4 t) (hs4_4 t) accM4 (Memref.isWhole_whole _)
        (fun h => h0 ((isFirstSrc4_iff t).mp h)) (fun h => h1 ((isLastSrc4_iff t).mp h))
        (iblk4 V c 0 t) (iblk4 V c 1 t) (iblk4 V c 2 t) (iblk4 V c 3 t) ((dat4 V c).before 4 t d4) (accAt4 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4

/-- The body obligation of region 4, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : (Pipeline.ΦA spec4 c : sProp 𝕄) ⊢ (dat4 V c).Φ 0 := by
  rw [show (dat4 V c).Φ 0 = PhiAcc4 V c 0 (Nat.zero_le _) from rfl, PhiAcc4_zero V c 0 _ rfl]
  try exact Idealize.SL.BI.Entails.refl _

/-- After any point the invariant gives the launch's back: the accumulator's contents are forgotten. -/
theorem Phi4_forget (c : Dev nD) (t : Fin (cfg4.N + 1)) (ht : t.val ≠ 0) :
    (dat4 V c).Φ t ⊢ (Pipeline.ΦA spec4 c : sProp 𝕄) := by
  rw [show (dat4 V c).Φ t = PhiAcc4 V c t.val (Nat.le_of_lt_succ t.isLt) from rfl, PhiAcc4_pos V c _ _ ht, PhiA4_eq]
  iintro ⟨⟨HS, Hr⟩, Hg⟩
  isplitl [HS Hr]
  · isplitl [HS]
    · iexists _; iexact HS
    iexact Hr
  iexact Hg

theorem hout4 (c : Dev nD) : (dat4 V c).Φ (Fin.last cfg4.N) ⊢ (Pipeline.ΦA spec4 c : sProp 𝕄) :=
  Phi4_forget V c _ (by rw [Fin.val_last]; have : cfg4.N = 16 := N_4; omega)

end Cert.Kernel.Hand

end
-- ==== Proof.K.Run.lean ====
/-
  The whole run of the kernel program, at any float instance.

  @main is six items: the graph-building region, eight host operations (the two degree normalisers), and the four
  regions of the two layers. Between two items core `c` holds every unscoped buffer at a named valuation:
  `W0` the launch contents; `W1` after region 0 (its three output arrays at what its write-backs leave, everything else
  as launched); `W2` after the host operations; `W3` … `W6` after regions 1 … 4 likewise. Each region is entered from
  the valuation before it (`E0` … `E4`) and its proof data are stated at that valuation, so each region's arrays after
  it are `Dat.arrAt` of its own proof data. `run_all`: every weakly fair execution terminates and the final memory
  holds every unscoped buffer at `W6`. No item writes an argument array, so each argument reads back through the
  chain to its launch contents (`frame`).
-/
import proofs.«142270_j68298569941180_1_alg».proof.Proof.K.Frame0
import proofs.«142270_j68298569941180_1_alg».proof.Proof.K.Frame1
import proofs.«142270_j68298569941180_1_alg».proof.Proof.K.Frame2
import proofs.«142270_j68298569941180_1_alg».proof.Proof.K.Frame3
import proofs.«142270_j68298569941180_1_alg».proof.Proof.K.Frame4
import proofs.«142270_j68298569941180_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents between the items -/

/-- Core `c`'s buffers at launch. -/
abbrev W0 : Dev nD → Valuation τ sig (Elt F) := fun c b => m (c, b)

/-- The buffer contents region 0 is entered from, read at the TensorCore's references. -/
abbrev E0 : (c : Dev nD) → (b : Ref sig .tc) → Buf (Elt F) ((c : Thread nD τ).loc b) := fun c b => W0 m c b
/-- After region 0: its arrays at what its write-backs leave, every other buffer as it was entered. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- An input array of region 0 leaves the region as it entered. -/
theorem W1_in (c : Dev nD) (w : Fin cfg0.W) (hin : (cfg0.win w).isOut = false) :
    W1 m c (Proc.devRef .tc (Pipeline.arrRef spec0 w)) = W0 m c (Proc.devRef .tc (Pipeline.arrRef spec0 w)) :=
  (W1_arr m c w).trans (((dat0 (E0 m) c).arrAt_in w hin _).trans (A_eq0 (E0 m) c w))
theorem hF0 (c : Dev nD) (w : Fin cfg0.W) :
    (dat0 (E0 m) c).arrAt w cfg0.N = (fun b : Ref sig .tc => W1 m c b) (Pipeline.arrRef spec0 w) :=
  (W1_arr m c w).symm
theorem hrest0 (c : Dev nD) : ∀ b, b ∉ Finset.univ.image (Pipeline.arrRef spec0) →
    (fun b : Ref sig .tc => W1 m c b) b = E0 m c b :=
  fun b hb => W1_of_ne m c b fun w e => hb (Finset.mem_image.mpr ⟨w, Finset.mem_univ _, e⟩)

/-- After the eight host operations. -/
abbrev W2 : Dev nD → Valuation τ sig (Elt F) := fun c => StableHlo.after hostOps1 (W1 m c)
/-- A buffer the host operations do not write keeps its contents. -/
theorem W2_of (c : Dev nD) (r : Ref sig .tc) (h : r ∉ hostOps1_W) : W2 m c (Proc.devRef .tc r) = W1 m c (Proc.devRef .tc r) :=
  StableHlo.after_of_writes_sub hostOps1 _ hostOps1_writes h

/-- The buffer contents region 1 is entered from, read at the TensorCore's references. -/
abbrev E1 : (c : Dev nD) → (b : Ref sig .tc) → Buf (Elt F) ((c : Thread nD τ).loc b) := fun c b => W2 m c b
/-- After region 1: its arrays at what its write-backs leave, every other buffer as it was entered. -/
def W3 (c : Dev nD) : Valuation τ sig (Elt F) :=
  Pipeline.withArrays spec1 c (W2 m c) fun w => (dat1 (E1 m) c).arrAt w cfg1.N
theorem W3_arr (c : Dev nD) (w : Fin cfg1.W) :
    W3 m c (Proc.devRef .tc (Pipeline.arrRef spec1 w)) = (dat1 (E1 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- An input array of region 1 leaves the region as it entered. -/
theorem W3_in (c : Dev nD) (w : Fin cfg1.W) (hin : (cfg1.win w).isOut = false) :
    W3 m c (Proc.devRef .tc (Pipeline.arrRef spec1 w)) = W2 m c (Proc.devRef .tc (Pipeline.arrRef spec1 w)) :=
  (W3_arr m c w).trans (((dat1 (E1 m) c).arrAt_in w hin _).trans (A_eq1 (E1 m) c w))
theorem hF1 (c : Dev nD) (w : Fin cfg1.W) :
    (dat1 (E1 m) c).arrAt w cfg1.N = (fun b : Ref sig .tc => W3 m c b) (Pipeline.arrRef spec1 w) :=
  (W3_arr m c w).symm
theorem hrest1 (c : Dev nD) : ∀ b, b ∉ Finset.univ.image (Pipeline.arrRef spec1) →
    (fun b : Ref sig .tc => W3 m c b) b = E1 m c b :=
  fun b hb => W3_of_ne m c b fun w e => hb (Finset.mem_image.mpr ⟨w, Finset.mem_univ _, e⟩)

/-- The buffer contents region 2 is entered from, read at the TensorCore's references. -/
abbrev E2 : (c : Dev nD) → (b : Ref sig .tc) → Buf (Elt F) ((c : Thread nD τ).loc b) := fun c b => W3 m c b
/-- After region 2: its arrays at what its write-backs leave, every other buffer as it was entered. -/
def W4 (c : Dev nD) : Valuation τ sig (Elt F) :=
  Pipeline.withArrays spec2 c (W3 m c) fun w => (dat2 (E2 m) c).arrAt w cfg2.N
theorem W4_arr (c : Dev nD) (w : Fin cfg2.W) :
    W4 m c (Proc.devRef .tc (Pipeline.arrRef spec2 w)) = (dat2 (E2 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- An input array of region 2 leaves the region as it entered. -/
theorem W4_in (c : Dev nD) (w : Fin cfg2.W) (hin : (cfg2.win w).isOut = false) :
    W4 m c (Proc.devRef .tc (Pipeline.arrRef spec2 w)) = W3 m c (Proc.devRef .tc (Pipeline.arrRef spec2 w)) :=
  (W4_arr m c w).trans (((dat2 (E2 m) c).arrAt_in w hin _).trans (A_eq2 (E2 m) c w))
theorem hF2 (c : Dev nD) (w : Fin cfg2.W) :
    (dat2 (E2 m) c).arrAt w cfg2.N = (fun b : Ref sig .tc => W4 m c b) (Pipeline.arrRef spec2 w) :=
  (W4_arr m c w).symm
theorem hrest2 (c : Dev nD) : ∀ b, b ∉ Finset.univ.image (Pipeline.arrRef spec2) →
    (fun b : Ref sig .tc => W4 m c b) b = E2 m c b :=
  fun b hb => W4_of_ne m c b fun w e => hb (Finset.mem_image.mpr ⟨w, Finset.mem_univ _, e⟩)

/-- The buffer contents region 3 is entered from, read at the TensorCore's references. -/
abbrev E3 : (c : Dev nD) → (b : Ref sig .tc) → Buf (Elt F) ((c : Thread nD τ).loc b) := fun c b => W4 m c b
/-- After region 3: its arrays at what its write-backs leave, every other buffer as it was entered. -/
def W5 (c : Dev nD) : Valuation τ sig (Elt F) :=
  Pipeline.withArrays spec3 c (W4 m c) fun w => (dat3 (E3 m) c).arrAt w cfg3.N
theorem W5_arr (c : Dev nD) (w : Fin cfg3.W) :
    W5 m c (Proc.devRef .tc (Pipeline.arrRef spec3 w)) = (dat3 (E3 m) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m c (Proc.devRef .tc b) = W4 m c (Proc.devRef .tc b) := by
  unfold W5; exact Pipeline.withArrays_of_ne spec3 c _ _ b hb
/-- An input array of region 3 leaves the region as it entered. -/
theorem W5_in (c : Dev nD) (w : Fin cfg3.W) (hin : (cfg3.win w).isOut = false) :
    W5 m c (Proc.devRef .tc (Pipeline.arrRef spec3 w)) = W4 m c (Proc.devRef .tc (Pipeline.arrRef spec3 w)) :=
  (W5_arr m c w).trans (((dat3 (E3 m) c).arrAt_in w hin _).trans (A_eq3 (E3 m) c w))
theorem hF3 (c : Dev nD) (w : Fin cfg3.W) :
    (dat3 (E3 m) c).arrAt w cfg3.N = (fun b : Ref sig .tc => W5 m c b) (Pipeline.arrRef spec3 w) :=
  (W5_arr m c w).symm
theorem hrest3 (c : Dev nD) : ∀ b, b ∉ Finset.univ.image (Pipeline.arrRef spec3) →
    (fun b : Ref sig .tc => W5 m c b) b = E3 m c b :=
  fun b hb => W5_of_ne m c b fun w e => hb (Finset.mem_image.mpr ⟨w, Finset.mem_univ _, e⟩)

/-- The buffer contents region 4 is entered from, read at the TensorCore's references. -/
abbrev E4 : (c : Dev nD) → (b : Ref sig .tc) → Buf (Elt F) ((c : Thread nD τ).loc b) := fun c b => W5 m c b
/-- After region 4: its arrays at what its write-backs leave, every other buffer as it was entered. -/
def W6 (c : Dev nD) : Valuation τ sig (Elt F) :=
  Pipeline.withArrays spec4 c (W5 m c) fun w => (dat4 (E4 m) c).arrAt w cfg4.N
theorem W6_arr (c : Dev nD) (w : Fin cfg4.W) :
    W6 m c (Proc.devRef .tc (Pipeline.arrRef spec4 w)) = (dat4 (E4 m) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m c (Proc.devRef .tc b) = W5 m c (Proc.devRef .tc b) := by
  unfold W6; exact Pipeline.withArrays_of_ne spec4 c _ _ b hb
/-- An input array of region 4 leaves the region as it entered. -/
theorem W6_in (c : Dev nD) (w : Fin cfg4.W) (hin : (cfg4.win w).isOut = false) :
    W6 m c (Proc.devRef .tc (Pipeline.arrRef spec4 w)) = W5 m c (Proc.devRef .tc (Pipeline.arrRef spec4 w)) :=
  (W6_arr m c w).trans (((dat4 (E4 m) c).arrAt_in w hin _).trans (A_eq4 (E4 m) c w))
theorem hF4 (c : Dev nD) (w : Fin cfg4.W) :
    (dat4 (E4 m) c).arrAt w cfg4.N = (fun b : Ref sig .tc => W6 m c b) (Pipeline.arrRef spec4 w) :=
  (W6_arr m c w).symm
theorem hrest4 (c : Dev nD) : ∀ b, b ∉ Finset.univ.image (Pipeline.arrRef spec4) →
    (fun b : Ref sig .tc => W6 m c b) b = E4 m c b :=
  fun b hb => W6_of_ne m c b fun w e => hb (Finset.mem_image.mpr ⟨w, Finset.mem_univ _, e⟩)

/-! ## What each item leaves alone -/

/-- A buffer that is no output array of region 0 keeps its contents through it. -/
theorem W1_keep (c : Dev nD) (b : Ref sig .tc) (h : ∀ w, (cfg0.win w).isOut = true → Pipeline.arrRef spec0 w ≠ b) :
    W1 m c (Proc.devRef .tc b) = W0 m c (Proc.devRef .tc b) := by
  by_cases hb : ∃ w, Pipeline.arrRef spec0 w = b
  · obtain ⟨w, rfl⟩ := hb
    refine W1_in m c w ?_
    cases hw : (cfg0.win w).isOut with
    | false => rfl
    | true => exact absurd rfl (h w hw)
  · exact W1_of_ne m c b fun w e => hb ⟨w, e⟩

/-- A buffer that is no output array of region 1 keeps its contents through it. -/
theorem W3_keep (c : Dev nD) (b : Ref sig .tc) (h : ∀ w, (cfg1.win w).isOut = true → Pipeline.arrRef spec1 w ≠ b) :
    W3 m c (Proc.devRef .tc b) = W2 m c (Proc.devRef .tc b) := by
  by_cases hb : ∃ w, Pipeline.arrRef spec1 w = b
  · obtain ⟨w, rfl⟩ := hb
    refine W3_in m c w ?_
    cases hw : (cfg1.win w).isOut with
    | false => rfl
    | true => exact absurd rfl (h w hw)
  · exact W3_of_ne m c b fun w e => hb ⟨w, e⟩

/-- A buffer that is no output array of region 2 keeps its contents through it. -/
theorem W4_keep (c : Dev nD) (b : Ref sig .tc) (h : ∀ w, (cfg2.win w).isOut = true → Pipeline.arrRef spec2 w ≠ b) :
    W4 m c (Proc.devRef .tc b) = W3 m c (Proc.devRef .tc b) := by
  by_cases hb : ∃ w, Pipeline.arrRef spec2 w = b
  · obtain ⟨w, rfl⟩ := hb
    refine W4_in m c w ?_
    cases hw : (cfg2.win w).isOut with
    | false => rfl
    | true => exact absurd rfl (h w hw)
  · exact W4_of_ne m c b fun w e => hb ⟨w, e⟩

/-- A buffer that is no output array of region 3 keeps its contents through it. -/
theorem W5_keep (c : Dev nD) (b : Ref sig .tc) (h : ∀ w, (cfg3.win w).isOut = true → Pipeline.arrRef spec3 w ≠ b) :
    W5 m c (Proc.devRef .tc b) = W4 m c (Proc.devRef .tc b) := by
  by_cases hb : ∃ w, Pipeline.arrRef spec3 w = b
  · obtain ⟨w, rfl⟩ := hb
    refine W5_in m c w ?_
    cases hw : (cfg3.win w).isOut with
    | false => rfl
    | true => exact absurd rfl (h w hw)
  · exact W5_of_ne m c b fun w e => hb ⟨w, e⟩

/-- A buffer that is no output array of region 4 keeps its contents through it. -/
theorem W6_keep (c : Dev nD) (b : Ref sig .tc) (h : ∀ w, (cfg4.win w).isOut = true → Pipeline.arrRef spec4 w ≠ b) :
    W6 m c (Proc.devRef .tc b) = W5 m c (Proc.devRef .tc b) := by
  by_cases hb : ∃ w, Pipeline.arrRef spec4 w = b
  · obtain ⟨w, rfl⟩ := hb
    refine W6_in m c w ?_
    cases hw : (cfg4.win w).isOut with
    | false => rfl
    | true => exact absurd rfl (h w hw)
  · exact W6_of_ne m c b fun w e => hb ⟨w, e⟩

/-- Argument 0 reaches the end as launched: no region writes it back and no host operation writes it. -/
theorem W6_main_arg0 (c : Dev nD) : W6 m c (Proc.devRef .tc main_arg0) = m ((c : Thread nD τ).loc main_arg0) :=
  (W6_keep m c main_arg0 (by decide)).trans <| (W5_keep m c main_arg0 (by decide)).trans <| (W4_keep m c main_arg0 (by decide)).trans <|
    (W3_keep m c main_arg0 (by decide)).trans <| (W2_of m c main_arg0 (by decide)).trans <| (W1_keep m c main_arg0 (by decide)).trans rfl

/-- Argument 1 reaches the end as launched: no region writes it back and no host operation writes it. -/
theorem W6_main_arg1 (c : Dev nD) : W6 m c (Proc.devRef .tc main_arg1) = m ((c : Thread nD τ).loc main_arg1) :=
  (W6_keep m c main_arg1 (by decide)).trans <| (W5_keep m c main_arg1 (by decide)).trans <| (W4_keep m c main_arg1 (by decide)).trans <|
    (W3_keep m c main_arg1 (by decide)).trans <| (W2_of m c main_arg1 (by decide)).trans <| (W1_keep m c main_arg1 (by decide)).trans rfl

/-- Argument 2 reaches the end as launched: no region writes it back and no host operation writes it. -/
theorem W6_main_arg2 (c : Dev nD) : W6 m c (Proc.devRef .tc main_arg2) = m ((c : Thread nD τ).loc main_arg2) :=
  (W6_keep m c main_arg2 (by decide)).trans <| (W5_keep m c main_arg2 (by decide)).trans <| (W4_keep m c main_arg2 (by decide)).trans <|
    (W3_keep m c main_arg2 (by decide)).trans <| (W2_of m c main_arg2 (by decide)).trans <| (W1_keep m c main_arg2 (by decide)).trans rfl

/-- Argument 3 reaches the end as launched: no region writes it back and no host operation writes it. -/
theorem W6_main_arg3 (c : Dev nD) : W6 m c (Proc.devRef .tc main_arg3) = m ((c : Thread nD τ).loc main_arg3) :=
  (W6_keep m c main_arg3 (by decide)).trans <| (W5_keep m c main_arg3 (by decide)).trans <| (W4_keep m c main_arg3 (by decide)).trans <|
    (W3_keep m c main_arg3 (by decide)).trans <| (W2_of m c main_arg3 (by decide)).trans <| (W1_keep m c main_arg3 (by decide)).trans rfl

/-- Argument 4 reaches the end as launched: no region writes it back and no host operation writes it. -/
theorem W6_main_arg4 (c : Dev nD) : W6 m c (Proc.devRef .tc main_arg4) = m ((c : Thread nD τ).loc main_arg4) :=
  (W6_keep m c main_arg4 (by decide)).trans <| (W5_keep m c main_arg4 (by decide)).trans <| (W4_keep m c main_arg4 (by decide)).trans <|
    (W3_keep m c main_arg4 (by decide)).trans <| (W2_of m c main_arg4 (by decide)).trans <| (W1_keep m c main_arg4 (by decide)).trans rfl

/-- Argument 5 reaches the end as launched: no region writes it back and no host operation writes it. -/
theorem W6_main_arg5 (c : Dev nD) : W6 m c (Proc.devRef .tc main_arg5) = m ((c : Thread nD τ).loc main_arg5) :=
  (W6_keep m c main_arg5 (by decide)).trans <| (W5_keep m c main_arg5 (by decide)).trans <| (W4_keep m c main_arg5 (by decide)).trans <|
    (W3_keep m c main_arg5 (by decide)).trans <| (W2_of m c main_arg5 (by decide)).trans <| (W1_keep m c main_arg5 (by decide)).trans rfl

/-! ## The proof data of the five regions and the thread state -/

/-- Every region's proof data, each at the valuation its region is entered from. -/
def pdats : (p : Fin 5) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
  | ⟨3, _⟩ => fun c => dat3 (E3 m) c
  | ⟨4, _⟩ => fun c => dat4 (E4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- The last thread state without the `owes`. -/
abbrev Tₙ (c : Dev nD) : sProp 𝕄 := iprop(StableHlo.held (c : Thread nD τ) (Pipeline.ucRefs τ sig) (W6 m c) ∗ ∃ r, prngReg c r)

/-- The host operations as one item, from the contents `W1`. -/
abbrev hostItem : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as items -/

set_option backward.isDefEq.respectTransparency.types false in
/-- Region 0 over the thread state: entered from every unscoped buffer at `W0`, left at `W1`. Its arrays are
    split out of the unscoped buffers and put back at their exit contents; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun w => A_eq0 (E0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show (iprop((∃ r, prngReg c r) ∗ Pipeline.prefHeld (pcfgs (F := F) 0).pre c (fun _ => fullShare) (adm (F := F) 0).1
          ∗ Pipeline.scopedRest spec0 c) : sProp 𝕄) ⊢ Pipeline.ΦA spec0 c from by
      unfold Pipeline.ΦA
      iintro ⟨Hp, -, Hr⟩
      isplitl [Hr]; · iexact Hr
      iexact Hp).trans (hin0 (E0 m) c)
  hout c :=
    (hout0 (E0 m) c).trans (show (Pipeline.ΦA spec0 c : sProp 𝕄)
        ⊢ iprop((∃ r, prngReg c r) ∗ Pipeline.ownSems0 (fun k : PEmpty => k.elim) c ∗ Pipeline.scopedRest spec0 c) from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b : Ref sig .tc => W1 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers and put back at their exit contents; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun w => A_eq1 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show (iprop((∃ r, prngReg c r) ∗ Pipeline.prefHeld (pcfgs (F := F) 1).pre c (fun _ => fullShare) (adm (F := F) 1).1
          ∗ Pipeline.scopedRest spec1 c) : sProp 𝕄) ⊢ Pipeline.ΦA spec1 c from by
      unfold Pipeline.ΦA
      iintro ⟨Hp, -, Hr⟩
      isplitl [Hr]; · iexact Hr
      iexact Hp).trans (hin1 (E1 m) c)
  hout c :=
    (hout1 (E1 m) c).trans (show (Pipeline.ΦA spec1 c : sProp 𝕄)
        ⊢ iprop((∃ r, prngReg c r) ∗ Pipeline.ownSems0 (fun k : PEmpty => k.elim) c ∗ Pipeline.scopedRest spec1 c) from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b : Ref sig .tc => W3 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. Its arrays are
    split out of the unscoped buffers and put back at their exit contents; the generator register goes into the
    region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun w => A_eq2 (E2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show (iprop((∃ r, prngReg c r) ∗ Pipeline.prefHeld (pcfgs (F := F) 2).pre c (fun _ => fullShare) (adm (F := F) 2).1
          ∗ Pipeline.scopedRest spec2 c) : sProp 𝕄) ⊢ Pipeline.ΦA spec2 c from by
      unfold Pipeline.ΦA
      iintro ⟨Hp, -, Hr⟩
      isplitl [Hr]; · iexact Hr
      iexact Hp).trans (hin2 (E2 m) c)
  hout c :=
    (hout2 (E2 m) c).trans (show (Pipeline.ΦA spec2 c : sProp 𝕄)
        ⊢ iprop((∃ r, prngReg c r) ∗ Pipeline.ownSems0 (fun k : PEmpty => k.elim) c ∗ Pipeline.scopedRest spec2 c) from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (fun b : Ref sig .tc => W4 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W4`, left at `W5`. Its arrays are
    split out of the unscoped buffers and put back at their exit contents; the generator register goes into the
    region's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m) c).loose
  hwaits := Pipeline.hwaits_of_owed_zero _ _ _ _ L lv 3 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E3 m c) fun w => A_eq3 (E3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show (iprop((∃ r, prngReg c r) ∗ Pipeline.prefHeld (pcfgs (F := F) 3).pre c (fun _ => fullShare) (adm (F := F) 3).1
          ∗ Pipeline.scopedRest spec3 c) : sProp 𝕄) ⊢ Pipeline.ΦA spec3 c from by
      unfold Pipeline.ΦA
      iintro ⟨Hp, -, Hr⟩
      isplitl [Hr]; · iexact Hr
      iexact Hp).trans (hin3 (E3 m) c)
  hout c :=
    (hout3 (E3 m) c).trans (show (Pipeline.ΦA spec3 c : sProp 𝕄)
        ⊢ iprop((∃ r, prngReg c r) ∗ Pipeline.ownSems0 (fun k : PEmpty => k.elim) c ∗ Pipeline.scopedRest spec3 c) from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E3 m c) (fun b : Ref sig .tc => W5 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W5`, left at `W6`. Its arrays are
    split out of the unscoped buffers and put back at their exit contents; the generator register goes into the
    region's invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E4 m) c).loose
  hwaits := Pipeline.hwaits_of_owed_zero _ _ _ _ L lv 4 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (E4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E4 m c) fun w => A_eq4 (E4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show (iprop((∃ r, prngReg c r) ∗ Pipeline.prefHeld (pcfgs (F := F) 4).pre c (fun _ => fullShare) (adm (F := F) 4).1
          ∗ Pipeline.scopedRest spec4 c) : sProp 𝕄) ⊢ Pipeline.ΦA spec4 c from by
      unfold Pipeline.ΦA
      iintro ⟨Hp, -, Hr⟩
      isplitl [Hr]; · iexact Hr
      iexact Hp).trans (hin4 (E4 m) c)
  hout c :=
    (hout4 (E4 m) c).trans (show (Pipeline.ΦA spec4 c : sProp 𝕄)
        ⊢ iprop((∃ r, prngReg c r) ∗ Pipeline.ownSems0 (fun k : PEmpty => k.elim) c ∗ Pipeline.scopedRest spec4 c) from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E4 m c) (fun b : Ref sig .tc => W6 m c b) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the six items, and the launch -/

abbrev items : List (Pipeline.Seg (pcfgs (F := F)) adm (pdats m) () defs₀ 𝒱₀ L lv) :=
  [ .region (reg0 m), .host (hostItem m), .region (reg1 m), .region (reg2 m), .region (reg3 m), .region (reg4 m) ]

theorem main_run (c : Dev nD) : main (F := F) c = Pipeline.Seg.run (items m) := (main_chain c).trans (by chain_rfl)

set_option backward.isDefEq.respectTransparency.types false in
/-- Every weakly fair execution of @main from memory `m` with zero counters terminates, nothing faulting, and the final
    memory holds every unscoped buffer of every core at `W6`. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- The frame: every weakly fair execution terminates, nothing faulting, and the six argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c)⟩) (run_all m ρ)

end Cert.Kernel.Hand

end
-- ==== Proof.KI.Blocks.lean ====
/-
  What each kernel region reads and carries, as functions of the buffer contents `V` it is entered from.

  `iblkK V c w t` is window `w`'s block of its array at grid point `t` of region K. Region 0 adds, point after
  point, the column sums of its 512-row block of the edge-weight matrix into one 4096-vector that it zeroes at the
  first point: `colAt0 V c n` is that vector after point `n`. Regions 2 and 4 walk a 4 × 4 grid (target block i,
  source block k; point 4·i + k) and keep a 1024 × 256 accumulator: zeroed when k = 0, then increased by the product
  of the transposed 1024 × 1024 block of edge weights with the 1024 × 256 block of projected features;
  `accAt2 V c n` / `accAt4 V c n` is the accumulator after point `n`.
-/
import proofs.«142270_j68298569941180_1_alg».proof.Proof.Gen.KernelIdeal.Launch
import proofs.«142270_j68298569941180_1_alg».proof.Proof.Gen.KernelIdeal.Skeleton
import proofs.«142270_j68298569941180_1_alg».proof.Proof.Gen.KernelIdeal.Points
import Idealize.ShloMosaic.Lib.Pipeline.FrameBody

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]

variable (V : (c : Dev nD) → (b : Ref sig .tc) → Buf (Elt F) ((c : Thread nD τ).loc b))

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))
/-- The same for region 1. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))
/-- The same for region 2. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))
/-- The same for region 3. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))
/-- The same for region 4. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The column-sum vector of region 0 after point `n`: zero plus the first block's column sums, then each later
    block's column sums added to what the point before left. -/
def colAt0 (c : Dev nD) : (n : ℕ) → n < cfg0.N → Vec F S4096 .f32
  | 0, h => k0_pay5 (grid0.coords ⟨0, h⟩) (iblk0 V c 0 ⟨0, h⟩) (k0_pay4 (F := F))
  | n + 1, h => k0_pay5 (grid0.coords ⟨n + 1, h⟩) (iblk0 V c 0 ⟨n + 1, h⟩) (colAt0 c n (Nat.lt_of_succ_lt h))

theorem colAt0_zero (c : Dev nD) (h : 0 < cfg0.N) :
    colAt0 V c 0 h = k0_pay5 (grid0.coords ⟨0, h⟩) (iblk0 V c 0 ⟨0, h⟩) (k0_pay4 (F := F)) := rfl
theorem colAt0_succ (c : Dev nD) (n : ℕ) (h : n + 1 < cfg0.N) :
    colAt0 V c (n + 1) h = k0_pay5 (grid0.coords ⟨n + 1, h⟩) (iblk0 V c 0 ⟨n + 1, h⟩) (colAt0 V c n (Nat.lt_of_succ_lt h)) := rfl

/-- The accumulator of region 2 after point `n`: started from zero where the source-block coordinate is 0 (the points
    ≡ 0 mod 4), else from what the point before left; this point's block product added. -/
def accAt2 (c : Dev nD) : (n : ℕ) → n < cfg2.N → Vec F S1024x256 .f32
  | 0, h => k2_pay2 (iblk2 V c 0 ⟨0, h⟩) (iblk2 V c 1 ⟨0, h⟩) (k2_pay1 (F := F))
  | n + 1, h =>
    if (n + 1) % 4 = 0 then k2_pay2 (iblk2 V c 0 ⟨n + 1, h⟩) (iblk2 V c 1 ⟨n + 1, h⟩) (k2_pay1 (F := F))
    else k2_pay2 (iblk2 V c 0 ⟨n + 1, h⟩) (iblk2 V c 1 ⟨n + 1, h⟩) (accAt2 c n (Nat.lt_of_succ_lt h))

theorem accAt2_reset (c : Dev nD) (t : Fin cfg2.N) (h0 : t.val % 4 = 0) :
    accAt2 V c t.val t.isLt = k2_pay2 (iblk2 V c 0 t) (iblk2 V c 1 t) (k2_pay1 (F := F)) := by
  obtain ⟨n, hn⟩ := t
  cases n with
  | zero => rfl
  | succ n => exact if_pos h0
theorem accAt2_step (c : Dev nD) (t : Fin cfg2.N) (h0 : ¬ t.val % 4 = 0) :
    accAt2 V c t.val t.isLt = k2_pay2 (iblk2 V c 0 t) (iblk2 V c 1 t)
      (accAt2 V c (t.val - 1) (Nat.lt_of_le_of_lt (Nat.sub_le _ _) t.isLt)) := by
  obtain ⟨n, hn⟩ := t
  cases n with
  | zero => exact absurd (Nat.zero_mod _) h0
  | succ n => exact if_neg h0

/-- The accumulator of region 4 after point `n`, likewise. -/
def accAt4 (c : Dev nD) : (n : ℕ) → n < cfg4.N → Vec F S1024x256 .f32
  | 0, h => k4_pay2 (iblk4 V c 0 ⟨0, h⟩) (iblk4 V c 1 ⟨0, h⟩) (k4_pay1 (F := F))
  | n + 1, h =>
    if (n + 1) % 4 = 0 then k4_pay2 (iblk4 V c 0 ⟨n + 1, h⟩) (iblk4 V c 1 ⟨n + 1, h⟩) (k4_pay1 (F := F))
    else k4_pay2 (iblk4 V c 0 ⟨n + 1, h⟩) (iblk4 V c 1 ⟨n + 1, h⟩) (accAt4 c n (Nat.lt_of_succ_lt h))

theorem accAt4_reset (c : Dev nD) (t : Fin cfg4.N) (h0 : t.val % 4 = 0) :
    accAt4 V c t.val t.isLt = k4_pay2 (iblk4 V c 0 t) (iblk4 V c 1 t) (k4_pay1 (F := F)) := by
  obtain ⟨n, hn⟩ := t
  cases n with
  | zero => rfl
  | succ n => exact if_pos h0
theorem accAt4_step (c : Dev nD) (t : Fin cfg4.N) (h0 : ¬ t.val % 4 = 0) :
    accAt4 V c t.val t.isLt = k4_pay2 (iblk4 V c 0 t) (iblk4 V c 1 t)
      (accAt4 V c (t.val - 1) (Nat.lt_of_le_of_lt (Nat.sub_le _ _) t.isLt)) := by
  obtain ⟨n, hn⟩ := t
  cases n with
  | zero => exact absurd (Nat.zero_mod _) h0
  | succ n => exact if_neg h0

end Cert.KernelIdeal.Hand

end
-- ==== Proof.KI.Frame0.lean ====
/-
  Region 0 builds the graph from the dense matrix, one 512-row block per grid point (8 points). At point t it
  reads the block A[512·t .. 512·t + 511, :] and forms the 512 × 4096 block of edge weights
  e(u, v) = [A(u, v) ≥ 0.04] + [u = v]; it leaves that block rounded to bf16 in the second window, its row sums
  in the third, and it adds its column sums into one 4096-vector that stays in place over the whole grid: zero at
  the first point, written back once after the last. This module gives the region's proof data at the entry
  contents `V` — what each window's buffer holds after every point — and shows that the kernel body, run at any
  point on what the buffers then hold, leaves exactly that.
-/
import proofs.«142270_j68298569941180_1_alg».proof.Proof.KI.Blocks
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Whole-buffer loads and stores -/

/-- The offsets of a whole 2-axis block are zero on both axes. -/
private theorem zeros2 : (![0, 0] : Fin 2 → ℕ) = fun _ => 0 := funext fun a => by fin_cases a <;> rfl
/-- The offset of a whole vector is zero. -/
private theorem zeros1 : (![0] : Fin 1 → ℕ) = fun _ => 0 := funext fun a => by fin_cases a; rfl

/-- After a last store through the whole-shape rectangle a buffer reads that store's payload, whatever it held
    and whatever was stored before: the rectangle holds every index, so the last payload wins everywhere. -/
private theorem read_after_whole_store {sg : RefSig} {κ : Kind} {sp : Space} {S : Shape} {e : EltTy}
    (v : View sg κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-! ## The first point and the later points -/

/-- The body's one branch: whether the grid coordinate is 0, as the body computes it (compare with 0, widen the
    bit, compare with 0 again). -/
abbrev firstPt0 (i : grid0.Coords) : Prop :=
  (Scalar.cmpi .ne (Scalar.extui (Scalar.cmpi .eq (BitVec.ofNat 32 (i 0).val) 0#32)) 0#32) = 1#1

/-- It holds at point 0 and at no other of the 8 points. -/
theorem firstPt0_iff : ∀ t : Fin cfg0.N, firstPt0 (grid0.coords t) ↔ t.val = 0 :=
  (by decide +kernel : ∀ t : Fin grid0.N, firstPt0 (grid0.coords t) ↔ t.val = 0)

set_option maxHeartbeats 1000000 in
/-- THE BODY AT THE FIRST POINT, on any whole buffers: the input block `x0` stays; the edge-weight buffer and the
    row-sum buffer, whatever they held, are overwritten whole by the block's bf16 edge weights and by its row
    sums; the column-sum buffer, whatever it held, is set to zero, read back, and overwritten by zero plus the
    block's column sums. -/
theorem run0_first (c : Dev nD) (i : grid0.Coords)
    (arg1 : Memref sig .tc .vmem S512x4096 .f32) (harg1 : arg1.IsWhole)
    (arg2 : Memref sig .tc .vmem S512x4096 .bf16) (harg2 : arg2.IsWhole)
    (arg3 : Memref sig .tc .vmem S512 .f32) (harg3 : arg3.IsWhole)
    (arg4 : Memref sig .tc .vmem S4096 .f32) (harg4 : arg4.IsWhole)
    (hc : firstPt0 i) (x0 : Vec F S512x4096 .f32) (E : Set ℕ) (K : PUnit → sProp 𝕄) :
    iprop(owns (c : Thread nD τ) arg1 fullShare x0 ∗ (∃ d, owns (c : Thread nD τ) arg2 fullShare d)
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare (k0_pay2 i x0)
            ∗ owns (c : Thread nD τ) arg3 fullShare (k0_pay3 i x0)
            ∗ owns (c : Thread nD τ) arg4 fullShare (k0_pay5 i x0 (k0_pay4 (F := F)))) -∗ K ⟨⟩))
      ⊢ wp frame (wpE (defs₀ (F := F)) Variants.none c none) E (cc0__build_graph_kernel i arg1 harg1 arg2 harg2 arg3 harg3 arg4 harg4) K := by
  simp only [cc0__build_graph_kernel_eq_skeleton]; unfold cc0__build_graph_kernel_skel
  unfold owns
  iintro ⟨⟨%f1, %hf1, H1⟩, ⟨%d2, %f2, -, H2⟩, ⟨%d3, %f3, -, H3⟩, ⟨%d4, %f4, -, H4⟩, Hk⟩
  obtain rfl := harg1.eq_unread hf1
  sl_exec (disch := first | exact hc)
  sl_step
  iapply Hk
  isplitl [H1]
  · iexists _; isplitr; · ipureintro; exact harg1.read_unread _
    iexact H1
  isplitl [H2]
  · iexists _; isplitr
    swap; · iexact H2
    ipureintro
    rw [read_after_whole_store _ _ zeros2]
    simp only [View.readAt_eq_ld, harg1.read_unread, View.ld_unit_zero (S := S512x4096) zeros2]
  isplitl [H3]
  · iexists _; isplitr
    swap; · iexact H3
    ipureintro
    rw [read_after_whole_store _ _ zeros1]
    simp only [View.readAt_eq_ld, harg1.read_unread, View.ld_unit_zero (S := S512x4096) zeros2]
  iexists _; isplitr
  swap; · iexact H4
  ipureintro
  sl_unfold_words
  rw [read_after_whole_store _ _ zeros1, View.readCov_unit_zero (S := S4096) _ zeros1]
  simp only [View.readAt_eq_ld, harg1.read_unread, View.ld_unit_zero (S := S512x4096) zeros2]

set_option maxHeartbeats 1000000 in
/-- THE BODY AT A LATER POINT, on any whole buffers: as at the first point for the input, the edge weights and the
    row sums; the column-sum buffer is not reset, so from the running sums `s` it goes to `s` plus the block's
    column sums. -/
theorem run0_later (c : Dev nD) (i : grid0.Coords)
    (arg1 : Memref sig .tc .vmem S512x4096 .f32) (harg1 : arg1.IsWhole)
    (arg2 : Memref sig .tc .vmem S512x4096 .bf16) (harg2 : arg2.IsWhole)
    (arg3 : Memref sig .tc .vmem S512 .f32) (harg3 : arg3.IsWhole)
    (arg4 : Memref sig .tc .vmem S4096 .f32) (harg4 : arg4.IsWhole)
    (hc : ¬ firstPt0 i) (x0 : Vec F S512x4096 .f32) (s : Vec F S4096 .f32) (E : Set ℕ) (K : PUnit → sProp 𝕄) :
    iprop(owns (c : Thread nD τ) arg1 fullShare x0 ∗ (∃ d, owns (c : Thread nD τ) arg2 fullShare d)
        ∗ (∃ d, owns (c : Thread nD τ) arg3 fullShare d) ∗ owns (c : Thread nD τ) arg4 fullShare s
        ∗ (iprop(owns (c : Thread nD τ) arg1 fullShare x0 ∗ owns (c : Thread nD τ) arg2 fullShare (k0_pay2 i x0)
            ∗ owns (c : Thread nD τ) arg3 fullShare (k0_pay3 i x0)
            ∗ owns (c : Thread nD τ) arg4 fullShare (k0_pay5 i x0 s)) -∗ K ⟨⟩))
      ⊢ wp frame (wpE (defs₀ (F := F)) Variants.none c none) E (cc0__build_graph_kernel i arg1 harg1 arg2 harg2 arg3 harg3 arg4 harg4) K := by
  simp only [cc0__build_graph_kernel_eq_skeleton]; unfold cc0__build_graph_kernel_skel
  unfold owns
  iintro ⟨⟨%f1, %hf1, H1⟩, ⟨%d2, %f2, -, H2⟩, ⟨%d3, %f3, -, H3⟩, ⟨%f4, %hf4, H4⟩, Hk⟩
  obtain rfl := harg1.eq_unread hf1; obtain rfl := harg4.eq_unread hf4
  sl_exec (disch := first | exact hc)
  sl_step
  iapply Hk
  isplitl [H1]
  · iexists _; isplitr; · ipureintro; exact harg1.read_unread _
    iexact H1
  isplitl [H2]
  · iexists _; isplitr
    swap; · iexact H2
    ipureintro
    rw [read_after_whole_store _ _ zeros2]
    simp only [View.readAt_eq_ld, harg1.read_unread, View.ld_unit_zero (S := S512x4096) zeros2]
  isplitl [H3]
  · iexists _; isplitr
    swap; · iexact H3
    ipureintro
    rw [read_after_whole_store _ _ zeros1]
    simp only [View.readAt_eq_ld, harg1.read_unread, View.ld_unit_zero (S := S512x4096) zeros2]
  iexists _; isplitr
  swap; · iexact H4
  ipureintro
  sl_unfold_words
  rw [read_after_whole_store _ _ zeros1]
  simp only [View.readAt_eq_ld, harg1.read_unread, harg4.read_unread, View.ld_unit_zero (S := S512x4096) zeros2,
    View.ld_unit_zero (S := S4096) zeros1]

/-! ## The proof data -/

/-- Region 0's proof data on core `c`: the arrays as the region finds them; after the body at point `t` the
    input buffer still at its block, the edge-weight buffer at the block's bf16 edge weights, the row-sum buffer
    at the block's row sums, the column-sum buffer at the sums over the blocks 0 .. t (`colAt0`); the invariant
    is the scoped rest and the generator register, passed through unread; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay2 (grid0.coords t) (iblk0 V c 0 t)
    | ⟨2, _⟩ => k0_pay3 (grid0.coords t) (iblk0 V c 0 t)
    | ⟨3, _⟩ => colAt0 V c t.val t.isLt
  Φ _ := Pipeline.ΦA spec0 c
  q _ := fullShare
  owed _ := 0

/-- The arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) :
    (dat0 V c).after 1 t = k0_pay2 (grid0.coords t) (iblk0 V c 0 t) := by dsimp only [dat0]
theorem after0_2 (c : Dev nD) (t : Fin cfg0.N) :
    (dat0 V c).after 2 t = k0_pay3 (grid0.coords t) (iblk0 V c 0 t) := by dsimp only [dat0]
theorem after0_3 (c : Dev nD) (t : Fin cfg0.N) : (dat0 V c).after 3 t = colAt0 V c t.val t.isLt := by dsimp only [dat0]

/-- The invariant is the same at every point: it is what the region enters with and what it leaves. -/
theorem hin0 (c : Dev nD) : (Pipeline.ΦA spec0 c : sProp 𝕄) ⊢ (dat0 V c).Φ 0 := .rfl
theorem hout0 (c : Dev nD) : (dat0 V c).Φ (Fin.last cfg0.N) ⊢ (Pipeline.ΦA spec0 c : sProp 𝕄) := .rfl
theorem owed0 (c : Dev nD) (t : Fin (cfg0.N + 1)) : (dat0 V c).owed t = 0 := rfl

/-! ## What the body finds -/

/-- The input buffer holds the point's block of A at every point: it is fetched at every point and the body only
    reads it. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- At a later point the column-sum buffer holds what the point before left: the window is an output, so nothing
    is fetched into it; it is written back only after point 7, so no write-back comes between; its block index
    never moves and it is not cut. -/
theorem before0_3_later (c : Dev nD) (t : Fin cfg0.N) (h0 : t.val ≠ 0) (d) :
    (dat0 V c).before 3 t d = colAt0 V c (t.val - 1) (Nat.lt_of_le_of_lt (Nat.sub_le _ _) t.isLt) := by
  have hN : t.val < 8 := lt_of_lt_of_eq t.isLt (show cfg0.N = 8 from N_0)
  rw [Dat.before_out_kept _ 3 rfl t h0
    (Bool.eq_false_iff.mpr fun h => by have := (flush0_3 _).mp h; dsimp only at this; omega)
    (fun _ => rfl) (fun _ _ => rfl)]
  dsimp only [dat0]

/-- The running column sums at point 0: zero plus the first block's. -/
theorem colAt0_first (c : Dev nD) (t : Fin cfg0.N) (h0 : t.val = 0) :
    colAt0 V c t.val t.isLt = k0_pay5 (grid0.coords t) (iblk0 V c 0 t) (k0_pay4 (F := F)) := by
  obtain ⟨n, hn⟩ := t
  cases n with
  | zero => exact colAt0_zero V c hn
  | succ n => exact absurd h0 (Nat.succ_ne_zero n)

/-- The running column sums at a later point: the point before's plus this block's. -/
theorem colAt0_later (c : Dev nD) (t : Fin cfg0.N) (h0 : t.val ≠ 0) :
    colAt0 V c t.val t.isLt = k0_pay5 (grid0.coords t) (iblk0 V c 0 t)
      (colAt0 V c (t.val - 1) (Nat.lt_of_le_of_lt (Nat.sub_le _ _) t.isLt)) := by
  obtain ⟨n, hn⟩ := t
  cases n with
  | zero => exact absurd rfl h0
  | succ n => exact colAt0_succ V c n hn

/-! ## The body obligation -/

/-- Each window's current buffer at point `t`, and that it is a whole buffer. -/
abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096 .f32 := win0_3.stage (cfg0.slots t 3)
abbrev hs0_3 (t : Fin cfg0.N) : (ms0_3 t).IsWhole := hstage0_3 ((cfg0.slots t 3).cast nbuf0_3)

/-- What the body is entered with at point `t`: the invariant, the core's dues, each window's current buffer at
    what it then holds; -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it must leave. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 800000 in
/-- The body at any point. The input buffer holds its block; the two whole-overwritten outputs may hold anything.
    At point 0 the column-sum buffer may hold anything too and is left at zero plus the block's column sums; at a
    later point it holds the sums over the earlier blocks and is left at those plus this block's. The invariant and
    the dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2, after0_3]
  by_cases h0 : t.val = 0
  · rw [colAt0_first V c t h0]
    iintro ⟨HΦ, Ho, ⟨%d0, H0⟩, ⟨%d1, H1⟩, ⟨%d2, H2⟩, ⟨%d3, H3⟩⟩
    iapply (run0_first c (grid0.coords t) _ _ _ _ _ _ _ _ ((firstPt0_iff t).mpr h0) (iblk0 V c 0 t) Set.univ _)
    isplitl [H0]; · iexact H0
    isplitl [H1]; · iexists _; iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [colAt0_later V c t h0]
    simp only [before0_3_later V c t h0]
    iintro ⟨HΦ, Ho, ⟨%d0, H0⟩, ⟨%d1, H1⟩, ⟨%d2, H2⟩, ⟨%d3, H3⟩⟩
    iapply (run0_later c (grid0.coords t) _ _ _ _ _ _ _ _ (fun h => h0 ((firstPt0_iff t).mp h)) (iblk0 V c 0 t)
      (colAt0 V c (t.val - 1) (Nat.lt_of_le_of_lt (Nat.sub_le _ _) t.isLt)) Set.univ _)
    isplitl [H0]; · iexact H0
    isplitl [H1]; · iexists _; iexact H1
    isplitl [H2]; · iexists _; iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The body obligation of region 0, at every point. -/
theorem body_obligation0 (c : Dev nD) :
    BodyObligation (dat0 (F := F) V c) (defs₀ (F := F)) Variants.none () Set.univ := fun t => by
  rw [bigSep_W0, bigSep_W0]
  exact sound_body0 V c t

end Cert.KernelIdeal.Hand

end
-- ==== Proof.KI.Frame1.lean ====
/-
  Region 1, the first projection call: at each of its four grid points the body takes a 1024-row block of the
  feature matrix, the matching 1024 entries of the row scale, and the whole 256 x 256 weight matrix; it scales
  row r of the feature block by entry r of the scale, rounds both factors to bf16, multiplies the scaled block by
  the weights from a zero accumulator, and stores the product rounded to bf16 as the output block. Nothing is
  carried from point to point: what the output block holds after a point is a function of the three input blocks
  at that point alone.
-/
import proofs.«142270_j68298569941180_1_alg».proof.Proof.KI.Blocks
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Offsets -/

/-- The two-axis offset written as a literal pair is the zero offset. -/
private theorem zeroOff2 : (![0, 0] : Fin 2 → Nat) = fun _ => 0 := by funext a; fin_cases a <;> rfl
/-- The one-axis offset written as a literal is the zero offset. -/
private theorem zeroOff1 : (![0] : Fin 1 → Nat) = fun _ => 0 := by funext a; fin_cases a; rfl

/-! ## Whole-buffer loads and the whole-buffer store -/

/-- The one store of the body lies over every index of the output block. -/
theorem covers1 (p : Vec F S1024x256 .bf16) (y : S1024x256.Idx) :
    ∃ pc ∈ ([⟨Rect.unit ![0, 0] S1024x256.size inb_S1024x256_S1024x256_0_0, p⟩] : List (View.Piece (Elt F) S1024x256 .bf16)),
      y ∈ pc.1.set :=
  ⟨⟨Rect.unit ![0, 0] S1024x256.size inb_S1024x256_S1024x256_0_0, p⟩, List.mem_singleton_self _,
    View.mem_set_unit_zero (S := S1024x256) zeroOff2 inb_S1024x256_S1024x256_0_0 y⟩

/-- A 1024 x 256 bf16 buffer written once over all of itself reads back the written value, whatever it held. -/
theorem stored_whole1 (m : Memref sig .tc .vmem S1024x256 .bf16) (f : BufTy.Contents (Elt F) m.view.ty)
    (p : Vec F S1024x256 .bf16) :
    View.read (Elt F) m.view
      (m.view.writes (Elt F) f [⟨Rect.unit ![0, 0] S1024x256.size inb_S1024x256_S1024x256_0_0, p⟩]) = p := by
  rw [View.read_writes_eq_canon _ _ _ (covers1 p)]
  exact View.canon_unit_zero (S := S1024x256) zeroOff2 _ p

/-- Loading all of a 1024 x 256 f32 buffer reads its contents. -/
theorem loaded_feat1 (m : Memref sig .tc .vmem S1024x256 .f32) (f : BufTy.Contents (Elt F) m.view.ty) :
    View.readAt (Elt F) m.view (Rect.unit ![0, 0] S1024x256.size inb_S1024x256_S1024x256_0_0).toLoadRect f
      = View.read (Elt F) m.view f := by
  rw [View.readAt_eq_ld]
  exact View.ld_unit_zero (S := S1024x256) zeroOff2 _ _
/-- Loading all of a 1024-entry f32 buffer reads its contents. -/
theorem loaded_scale1 (m : Memref sig .tc .vmem S1024 .f32) (f : BufTy.Contents (Elt F) m.view.ty) :
    View.readAt (Elt F) m.view (Rect.unit ![0] S1024.size inb_S1024_S1024_0).toLoadRect f
      = View.read (Elt F) m.view f := by
  rw [View.readAt_eq_ld]
  exact View.ld_unit_zero (S := S1024) zeroOff1 _ _
/-- Loading all of a 256 x 256 f32 buffer reads its contents. -/
theorem loaded_weight1 (m : Memref sig .tc .vmem S256x256 .f32) (f : BufTy.Contents (Elt F) m.view.ty) :
    View.readAt (Elt F) m.view (Rect.unit ![0, 0] S256x256.size inb_S256x256_S256x256_0_0).toLoadRect f
      = View.read (Elt F) m.view f := by
  rw [View.readAt_eq_ld]
  exact View.ld_unit_zero (S := S256x256) zeroOff2 _ _

/-! ## One run of the body -/

set_option maxHeartbeats 1000000 in
/-- One run of the projection body on four whole buffers: the feature block `x0`, the scale entries `x1` and the
    weights `x2` are read whole and left as they were; the fourth buffer, whatever it held, ends at the bf16 rounding of
    (rows of `x0` scaled by `x1`) times `x2`. The single store lies over the whole buffer, so what is read back from
    it afterwards is the stored value itself. -/
theorem runs_kernel1 (c : Dev nD) (E : Set ℕ) (i : grid1.Coords)
    (arg1 : Memref sig .tc .vmem S1024x256 .f32) (harg1 : arg1.IsWhole)
    (arg2 : Memref sig .tc .vmem S1024 .f32) (harg2 : arg2.IsWhole)
    (arg3 : Memref sig .tc .vmem S256x256 .f32) (harg3 : arg3.IsWhole)
    (arg4 : Memref sig .tc .vmem S1024x256 .bf16) (harg4 : arg4.IsWhole)
    (x0 : Vec F S1024x256 .f32) (x1 : Vec F S1024 .f32) (x2 : Vec F S256x256 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k1_pay1 x0 x1 x2)) -∗ K ⟨⟩))
      ⊢ wp frame (wpE (defs₀ (F := F)) Variants.none c none) E
          (cc1__scale_matmul_kernel i arg1 harg1 arg2 harg2 arg3 harg3 arg4 harg4) K := by
  simp only [cc1__scale_matmul_kernel_eq_skeleton]; unfold cc1__scale_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (stored_whole1 arg4 f3 _).trans ?_
  rw [loaded_feat1 arg1 f0, loaded_scale1 arg2 f1, loaded_weight1 arg3 f2]

/-! ## The region's proof data -/

/-- Region 1 on core `c`, entered from the contents `V`: each array as `V` has it; after the body at point `t` the
    three input buffers still hold their blocks and the output buffer holds the rounded product of the scaled feature
    block with the weights; the invariant is the untouched rest; nothing is owed; every array is held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay1 (iblk1 V c 0 t) (iblk1 V c 1 t) (iblk1 V c 2 t) := by dsimp only [dat1]

theorem hin1 (c : Dev nD) : (Pipeline.ΦA spec1 c : sProp 𝕄) ⊢ (dat1 V c).Φ 0 := by
  dsimp only [dat1]; exact .rfl
theorem hout1 (c : Dev nD) : (dat1 V c).Φ (Fin.last cfg1.N) ⊢ (Pipeline.ΦA spec1 c : sProp 𝕄) := by
  dsimp only [dat1]; exact .rfl
theorem owed1 (c : Dev nD) (t : Fin (cfg1.N + 1)) : (dat1 V c).owed t = 0 := by dsimp only [dat1]

/-! ## What the body finds in the input buffers -/

/-- The feature buffer holds the point's feature block when the body runs: the block is fetched at every point. -/
theorem before1_0 (c : Dev nD) (t : Fin cfg1.N) (d) : (dat1 V c).before 0 t d = iblk1 V c 0 t :=
  ((dat1 V c).before_in_eq_fetched 0 rfl (fun _ => rfl) (fun _ _ _ => rfl)
      (fun s => by rw [after1_0]; unfold Dat.blockOf iblk1; rw [A_eq1]; try rfl) t d).trans
    (by unfold Dat.fetched Dat.blockOf iblk1; rw [A_eq1]; try rfl)
/-- The scale buffer holds the point's 1024 scale entries. -/
theorem before1_1 (c : Dev nD) (t : Fin cfg1.N) (d) : (dat1 V c).before 1 t d = iblk1 V c 1 t :=
  ((dat1 V c).before_in_eq_fetched 1 rfl (fun _ => rfl) (fun _ _ _ => rfl)
      (fun s => by rw [after1_1]; unfold Dat.blockOf iblk1; rw [A_eq1]; try rfl) t d).trans
    (by unfold Dat.fetched Dat.blockOf iblk1; rw [A_eq1]; try rfl)
/-- The weight buffer holds the whole weight matrix at every point although it is brought in at the first point only:
    its block index never moves and the body leaves it in place. -/
theorem before1_2 (c : Dev nD) (t : Fin cfg1.N) (d) : (dat1 V c).before 2 t d = iblk1 V c 2 t :=
  ((dat1 V c).before_in_eq_fetched 2 rfl (fun _ => rfl) (fun _ _ _ => rfl)
      (fun s => by rw [after1_2]; unfold Dat.blockOf iblk1; rw [A_eq1]; try rfl) t d).trans
    (by unfold Dat.fetched Dat.blockOf iblk1; rw [A_eq1]; try rfl)

/-! ## The body at a grid point -/

/-- What the body is entered with at point `t`: the invariant, what the core owes, and the four current buffers. -/
def entry1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it returns with. -/
def exit1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three input buffers hold their blocks, so one run of the body applies; the invariant
    and what the core owes are not read. -/
theorem runs_body1 (c : Dev nD) (t : Fin cfg1.N) :
    entry1 V c t ⊢ wp frame (wpE (defs₀ (F := F)) Variants.none c none) Set.univ (bodyAt1 t) (fun _ => exit1 V c t) := by
  unfold entry1 exit1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (runs_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 1, at every point. -/
theorem body_obligation1 (c : Dev nD) : BodyObligation (dat1 (F := F) V c) (defs₀ (F := F)) Variants.none () Set.univ := fun t => by
  rw [bigSep_W1, bigSep_W1]
  exact runs_body1 V c t

end Cert.KernelIdeal.Hand

end
-- ==== Proof.KI.Frame2.lean ====
/-
  Region 2: one graph aggregation, on a 4 × 4 grid of (target block i, source block k), point 4·i + k.

  At each point the body multiplies the transposed 1024 × 1024 block (k, i) of edge weights by the 1024 × 256 block k
  of projected features and adds the product to a 1024 × 256 accumulator kept in a scratch buffer between points:
  zeroed first where k = 0, carried otherwise. Where k = 3 the finished sum is scaled row by row by the target
  block's inverse-square-root degrees, the bias row is added, negatives are cut to zero, and the result is stored into
  the output block i, which is written back there and only there; at the other points the output buffer is handed
  back as it was found.

  This module gives the region's proof data at the contents `V` it is entered from, for any float instance: what each
  window's buffer holds after the body at each point, the invariant that carries the accumulator from point to point
  (`accAt2`), and the body's obligation, from three statements of the body on arbitrary whole memrefs — one per
  control case (first, middle, last source block).
-/
import proofs.«142270_j68298569941180_1_alg».proof.Proof.KI.Blocks
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the source-block coordinate is first and where it is last -/

/-- The first branch of the body is taken where the source-block coordinate is 0. -/
abbrev isFirstSrc2 (i : grid2.Coords) : Prop :=
  (Scalar.cmpi .ne (Scalar.extui (Scalar.cmpi .eq (BitVec.ofNat 32 (i 1).val) 0#32)) 0#32) = 1#1
theorem isFirstSrc2_iff : ∀ t : Fin cfg2.N, isFirstSrc2 (grid2.coords t) ↔ t.val % 4 = 0 :=
  (by decide +kernel : ∀ t : Fin grid2.N, isFirstSrc2 (grid2.coords t) ↔ t.val % 4 = 0)

/-- The last branch of the body is taken where the source-block coordinate is 3. -/
abbrev isLastSrc2 (i : grid2.Coords) : Prop := k2_cond2 i = 1#1
theorem isLastSrc2_iff : ∀ t : Fin cfg2.N, isLastSrc2 (grid2.coords t) ↔ t.val % 4 = 3 :=
  (by decide +kernel : ∀ t : Fin grid2.N, isLastSrc2 (grid2.coords t) ↔ t.val % 4 = 3)

/-! ## Which windows the body stores into, point by point -/

/-- The four inputs are read at every point; -/
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
/-- the output is left alone, and not written back, except at the last source block, -/
theorem idle2_4_of : ∀ t : Fin cfg2.N, ¬ t.val % 4 = 3 → cfg2.idle 4 (grid2.coords t) = true := by decide +kernel
theorem noFlush2_4_of : ∀ t : Fin cfg2.N, ¬ t.val % 4 = 3 → (cfg2.win 4).flush t = false := by decide +kernel
/-- where it is stored. -/
theorem live2_4_of : ∀ t : Fin cfg2.N, t.val % 4 = 3 → cfg2.idle 4 (grid2.coords t) = false := by decide +kernel

/-- The accumulator's memref: the whole scratch buffer of the call. -/
abbrev accM2 : Memref sig .tc .vmem S1024x256 .f32 := Memref.whole cc2_scratch0

/-- The launch's invariant with the accumulator split off the other scoped buffers and held as a memref at
    some contents. -/
theorem PhiA2_eq (c : Dev nD) :
    (Pipeline.ΦA spec2 c : sProp 𝕄)
      = iprop((iprop((∃ d, owns (c : Thread nD τ) accM2 fullShare d))
          ∗ Pipeline.scopedRestBut (Ix := Unit) (Name := ℕ) (U := UR sig nD τ) (Lvl := ℕ) (Val := Elt F) spec2 c [cc2_scratch0])
          ∗ (∃ r, prngReg c r)) := by
  unfold Pipeline.ΦA; rw [scopedRest2_split]; simp only [accM2, owns_whole]; rfl

theorem unitOffPair2 : (![0, 0] : Fin 2 → Nat) = fun _ => 0 := funext fun a => by fin_cases a <;> rfl
theorem unitOffOne2 : (![0] : Fin 1 → Nat) = fun _ => 0 := funext fun a => by fin_cases a <;> rfl

/-! ## The body on any whole memrefs, one statement per control case -/

set_option maxHeartbeats 1000000 in
/-- Source block 0 of a target block: the accumulator is zeroed, read back, and the first block product is
    added to it; the output buffer is not touched. -/
theorem run2_first (c : Dev nD) (i : grid2.Coords)
    (arg2 : Memref sig .tc .vmem S1024x1024 .bf16) (harg2 : arg2.IsWhole)
    (arg3 : Memref sig .tc .vmem S1024x256 .bf16) (harg3 : arg3.IsWhole)
    (arg4 : Memref sig .tc .vmem S1024 .f32) (harg4 : arg4.IsWhole)
    (arg5 : Memref sig .tc .vmem S256 .f32) (harg5 : arg5.IsWhole)
    (arg6 : Memref sig .tc .vmem S1024x256 .f32) (harg6 : arg6.IsWhole)
    (arg7 : Memref sig .tc .vmem S1024x256 .f32) (harg7 : arg7.IsWhole)
    (hc0 : isFirstSrc2 i) (hc1 : ¬ isLastSrc2 i)
    (x0 : Vec F S1024x1024 .bf16) (x1 : Vec F S1024x256 .bf16) (x2 : Vec F S1024 .f32) (x3 : Vec F S256 .f32)
    (x4 : Vec F S1024x256 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare x4
            ∗ owns (c : Thread nD τ) arg7 fullShare (k2_pay2 x0 x1 (k2_pay1 (F := F)))) -∗ K ⟨⟩))
      ⊢ wp frame (wpE (defs₀ (F := F)) Variants.none c none) E
          (cc2__aggregate_kernel i arg2 harg2 arg3 harg3 arg4 harg4 arg5 harg5 arg6 harg6 arg7 harg7) K := by
  simp only [cc2__aggregate_kernel_eq_skeleton]; unfold cc2__aggregate_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1
  obtain rfl := harg4.eq_unread hf2; obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_words
  rw [View.read_writes_eq_canon _ _ _ (fun y => ⟨_, List.mem_cons_self, View.mem_set_unit_zero unitOffPair2 inb_S1024x256_S1024x256_0_0 y⟩)]
  rw [View.canon_cons_unit_zero (S := S1024x256) unitOffPair2, View.readCov_unit_zero (S := S1024x256) _ unitOffPair2]
  simp only [View.readAt_eq_ld, harg2.read_unread, harg3.read_unread,
    View.ld_unit_zero (S := S1024x1024) unitOffPair2, View.ld_unit_zero (S := S1024x256) unitOffPair2]

set_option maxHeartbeats 1000000 in
/-- A source block that is neither first nor last: the block product is added to the accumulator as the
    point before left it; the output buffer is not touched. -/
theorem run2_mid (c : Dev nD) (i : grid2.Coords)
    (arg2 : Memref sig .tc .vmem S1024x1024 .bf16) (harg2 : arg2.IsWhole)
    (arg3 : Memref sig .tc .vmem S1024x256 .bf16) (harg3 : arg3.IsWhole)
    (arg4 : Memref sig .tc .vmem S1024 .f32) (harg4 : arg4.IsWhole)
    (arg5 : Memref sig .tc .vmem S256 .f32) (harg5 : arg5.IsWhole)
    (arg6 : Memref sig .tc .vmem S1024x256 .f32) (harg6 : arg6.IsWhole)
    (arg7 : Memref sig .tc .vmem S1024x256 .f32) (harg7 : arg7.IsWhole)
    (hc0 : ¬ isFirstSrc2 i) (hc1 : ¬ isLastSrc2 i)
    (x0 : Vec F S1024x1024 .bf16) (x1 : Vec F S1024x256 .bf16) (x2 : Vec F S1024 .f32) (x3 : Vec F S256 .f32)
    (x4 : Vec F S1024x256 .f32) (xs : Vec F S1024x256 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare xs
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare x4
            ∗ owns (c : Thread nD τ) arg7 fullShare (k2_pay2 x0 x1 xs)) -∗ K ⟨⟩))
      ⊢ wp frame (wpE (defs₀ (F := F)) Variants.none c none) E
          (cc2__aggregate_kernel i arg2 harg2 arg3 harg3 arg4 harg4 arg5 harg5 arg6 harg6 arg7 harg7) K := by
  simp only [cc2__aggregate_kernel_eq_skeleton]; unfold cc2__aggregate_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1
  obtain rfl := harg4.eq_unread hf2; obtain rfl := harg5.eq_unread hf3; obtain rfl := harg6.eq_unread hf4
  obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_words
  rw [View.read_writes_eq_canon _ _ _ (fun y => ⟨_, List.mem_cons_self, View.mem_set_unit_zero unitOffPair2 inb_S1024x256_S1024x256_0_0 y⟩)]
  rw [View.canon_cons_unit_zero (S := S1024x256) unitOffPair2]
  simp only [View.readAt_eq_ld, harg2.read_unread, harg3.read_unread, harg7.read_unread,
    View.ld_unit_zero (S := S1024x1024) unitOffPair2, View.ld_unit_zero (S := S1024x256) unitOffPair2]

set_option maxHeartbeats 1000000 in
/-- The last source block of a target block: the block product is added to the accumulator, and the finished
    sum — scaled row by row, the bias added, negatives cut to zero — is stored whole into the output buffer. -/
theorem run2_last (c : Dev nD) (i : grid2.Coords)
    (arg2 : Memref sig .tc .vmem S1024x1024 .bf16) (harg2 : arg2.IsWhole)
    (arg3 : Memref sig .tc .vmem S1024x256 .bf16) (harg3 : arg3.IsWhole)
    (arg4 : Memref sig .tc .vmem S1024 .f32) (harg4 : arg4.IsWhole)
    (arg5 : Memref sig .tc .vmem S256 .f32) (harg5 : arg5.IsWhole)
    (arg6 : Memref sig .tc .vmem S1024x256 .f32) (harg6 : arg6.IsWhole)
    (arg7 : Memref sig .tc .vmem S1024x256 .f32) (harg7 : arg7.IsWhole)
    (hc0 : ¬ isFirstSrc2 i) (hc1 : isLastSrc2 i)
    (x0 : Vec F S1024x1024 .bf16) (x1 : Vec F S1024x256 .bf16) (x2 : Vec F S1024 .f32) (x3 : Vec F S256 .f32)
    (xs : Vec F S1024x256 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare (k2_pay3 x2 x3 (k2_pay2 x0 x1 xs))
            ∗ owns (c : Thread nD τ) arg7 fullShare (k2_pay2 x0 x1 xs)) -∗ K ⟨⟩))
      ⊢ wp frame (wpE (defs₀ (F := F)) Variants.none c none) E
          (cc2__aggregate_kernel i arg2 harg2 arg3 harg3 arg4 harg4 arg5 harg5 arg6 harg6 arg7 harg7) K := by
  simp only [cc2__aggregate_kernel_eq_skeleton]; unfold cc2__aggregate_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1
  obtain rfl := harg4.eq_unread hf2; obtain rfl := harg5.eq_unread hf3
  obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (fun y => ⟨_, List.mem_cons_self, View.mem_set_unit_zero unitOffPair2 inb_S1024x256_S1024x256_0_0 y⟩)]
    rw [View.canon_cons_unit_zero (S := S1024x256) unitOffPair2]
    simp only [View.readAt_eq_ld, harg2.read_unread, harg3.read_unread, harg4.read_unread, harg5.read_unread,
      harg7.read_unread, View.readCov_unit_zero (S := S1024x256) _ unitOffPair2,
      View.ld_unit_zero (S := S1024x1024) unitOffPair2, View.ld_unit_zero (S := S1024x256) unitOffPair2,
      View.ld_unit_zero (S := S1024) unitOffOne2, View.ld_unit_zero (S := S256) unitOffOne2]
  iexists _; isplitr
  swap; · iexact HS
  ipureintro
  sl_unfold_words
  rw [View.read_writes_eq_canon _ _ _ (fun y => ⟨_, List.mem_cons_self, View.mem_set_unit_zero unitOffPair2 inb_S1024x256_S1024x256_0_0 y⟩)]
  rw [View.canon_cons_unit_zero (S := S1024x256) unitOffPair2]
  simp only [View.readAt_eq_ld, harg2.read_unread, harg3.read_unread, harg7.read_unread,
    View.ld_unit_zero (S := S1024x1024) unitOffPair2, View.ld_unit_zero (S := S1024x256) unitOffPair2]

/-- Each window's staging memref at point `t`, as the pipeline passes it to the body, and its wholeness. -/
abbrev ms2_0 (t : Fin cfg2.N) : Memref sig .tc .vmem S1024x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x256 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S256 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1024x256 .f32 := win2_4.stage (cfg2.slots t 4)
abbrev hs2_4 (t : Fin cfg2.N) : (ms2_4 t).IsWhole := hstage2_4 ((cfg2.slots t 4).cast nbuf2_4)

/-! ## The proof data -/

/-- What the region holds between points besides the windows: before the first point the scratch buffers at
    anything; after point `n` the accumulator at its contents after that point, the other scoped buffers at
    anything, and the generator register at some state. -/
def PhiAcc2 (c : Dev nD) : (n : ℕ) → n ≤ cfg2.N → sProp 𝕄
  | 0, _ => Pipeline.ΦA spec2 c
  | n + 1, hn => iprop((iprop(owns (c : Thread nD τ) accM2 fullShare (accAt2 V c n hn))
      ∗ Pipeline.scopedRestBut (Ix := Unit) (Name := ℕ) (U := UR sig nD τ) (Lvl := ℕ) (Val := Elt F) spec2 c [cc2_scratch0])
      ∗ (∃ r, prngReg c r))

theorem PhiAcc2_zero (c : Dev nD) (n : ℕ) (h : n ≤ cfg2.N) (hz : n = 0) : PhiAcc2 V c n h = Pipeline.ΦA spec2 c := by
  subst hz; rfl

theorem PhiAcc2_succ (c : Dev nD) (n : ℕ) (hn : n < cfg2.N) :
    PhiAcc2 V c (n + 1) hn = iprop((iprop(owns (c : Thread nD τ) accM2 fullShare (accAt2 V c n hn))
      ∗ Pipeline.scopedRestBut (Ix := Unit) (Name := ℕ) (U := UR sig nD τ) (Lvl := ℕ) (Val := Elt F) spec2 c [cc2_scratch0])
      ∗ (∃ r, prngReg c r)) := rfl

theorem PhiAcc2_pos (c : Dev nD) (n : ℕ) (h : n ≤ cfg2.N) (hz : n ≠ 0) :
    PhiAcc2 V c n h = iprop((iprop(owns (c : Thread nD τ) accM2 fullShare (accAt2 V c (n - 1) (by omega)))
      ∗ Pipeline.scopedRestBut (Ix := Unit) (Name := ℕ) (U := UR sig nD τ) (Lvl := ℕ) (Val := Elt F) spec2 c [cc2_scratch0])
      ∗ (∃ r, prngReg c r)) := by
  cases n with
  | zero => exact absurd rfl hz
  | succ n => rfl

/-- The proof data of region 2 on core `c`, entered from the contents `V`: each input's buffer keeps its block;
    the output's buffer, where the body stores into it, holds the finished accumulator scaled, shifted and cut at
    zero; between points the accumulator is carried at its contents (`PhiAcc2`). -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => k2_pay3 (iblk2 V c 2 t) (iblk2 V c 3 t) (accAt2 V c t.val t.isLt)
  Φ t := PhiAcc2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = PhiAcc2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) :
    (dat2 V c).after 4 t = k2_pay3 (iblk2 V c 2 t) (iblk2 V c 3 t) (accAt2 V c t.val t.isLt) := by dsimp only [dat2]

theorem owed2 (c : Dev nD) (t : Fin (cfg2.N + 1)) : (dat2 V c).owed t = 0 := rfl

/-- An input's buffer holds its block at every point, fetched there or kept from the point before. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it hands back. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point. The inputs' buffers hold their blocks. By the source-block coordinate the point is a
    first, a middle or a last one; the invariant hands the body the accumulator (at anything before the first
    point, else at what the point before left) and takes it back at this point's contents; the output's buffer
    comes back as found except at a last point, where it holds the finished block. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiAcc2 V c (t.val + 1) t.isLt from rfl, PhiAcc2_succ]
  rw [show (dat2 V c).leavesExact 0 t = owns (c : Thread nD τ) (ms2_0 t) fullShare ((dat2 V c).after 0 t) from by
    unfold Dat.leavesExact; rw [live2_0 t], after2_0]
  rw [show (dat2 V c).leavesExact 1 t = owns (c : Thread nD τ) (ms2_1 t) fullShare ((dat2 V c).after 1 t) from by
    unfold Dat.leavesExact; rw [live2_1 t], after2_1]
  rw [show (dat2 V c).leavesExact 2 t = owns (c : Thread nD τ) (ms2_2 t) fullShare ((dat2 V c).after 2 t) from by
    unfold Dat.leavesExact; rw [live2_2 t], after2_2]
  rw [show (dat2 V c).leavesExact 3 t = owns (c : Thread nD τ) (ms2_3 t) fullShare ((dat2 V c).after 3 t) from by
    unfold Dat.leavesExact; rw [live2_3 t], after2_3]
  have hN : t.val < 16 := lt_of_lt_of_eq t.isLt (show cfg2.N = 16 from N_2)
  by_cases h0 : t.val % 4 = 0
  · have h1 : ¬ t.val % 4 = 3 := by omega
    rw [Dat.leavesExact_idle (dat2 V c) 4 t (idle2_4_of t h1) (noFlush2_4_of t h1)]
    rw [accAt2_reset V c t h0]
    by_cases hz : t.val = 0
    · rw [Phi2_castSucc V c t, PhiAcc2_zero V c _ _ hz, PhiA2_eq]
      iintro ⟨⟨⟨HS, Hr⟩, Hg⟩, Ho, ⟨%d0, H0⟩, ⟨%d1, H1⟩, ⟨%d2, H2⟩, ⟨%d3, H3⟩, ⟨%d4, H4⟩⟩
      iapply (run2_first c (grid2.coords t) (ms2_0 t) (hs2_0 t) (ms2_1 t) (hs2_1 t) (ms2_2 t) (hs2_2 t) (ms2_3 t) (hs2_3 t) (ms2_4 t) (hs2_4 t) accM2 (Memref.isWhole_whole _)
        ((isFirstSrc2_iff t).mpr h0) (fun h => h1 ((isLastSrc2_iff t).mp h))
        (iblk2 V c 0 t) (iblk2 V c 1 t) (iblk2 V c 2 t) (iblk2 V c 3 t) ((dat2 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4
    · rw [Phi2_castSucc V c t, PhiAcc2_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply (run2_first c (grid2.coords t) (ms2_0 t) (hs2_0 t) (ms2_1 t) (hs2_1 t) (ms2_2 t) (hs2_2 t) (ms2_3 t) (hs2_3 t) (ms2_4 t) (hs2_4 t) accM2 (Memref.isWhole_whole _)
        ((isFirstSrc2_iff t).mpr h0) (fun h => h1 ((isLastSrc2_iff t).mp h))
        (iblk2 V c 0 t) (iblk2 V c 1 t) (iblk2 V c 2 t) (iblk2 V c 3 t) ((dat2 V c).before 4 t d4) Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [accAt2_step V c t h0]
    rw [Phi2_castSucc V c t, PhiAcc2_pos V c _ _ hz]
    by_cases h1 : t.val % 4 = 3
    · rw [show (dat2 V c).leavesExact 4 t = owns (c : Thread nD τ) (ms2_4 t) fullShare ((dat2 V c).after 4 t) from by
        unfold Dat.leavesExact; rw [live2_4_of t h1], after2_4]
      rw [accAt2_step V c t h0]
      iintro ⟨⟨⟨HS, Hr⟩, Hg⟩, Ho, ⟨%d0, H0⟩, ⟨%d1, H1⟩, ⟨%d2, H2⟩, ⟨%d3, H3⟩, ⟨%d4, H4⟩⟩
      iapply (run2_last c (grid2.coords t) (ms2_0 t) (hs2_0 t) (ms2_1 t) (hs2_1 t) (ms2_2 t) (hs2_2 t) (ms2_3 t) (hs2_3 t) (ms2_4 t) (hs2_4 t) accM2 (Memref.isWhole_whole _)
        (fun h => h0 ((isFirstSrc2_iff t).mp h)) ((isLastSrc2_iff t).mpr h1)
        (iblk2 V c 0 t) (iblk2 V c 1 t) (iblk2 V c 2 t) (iblk2 V c 3 t) (accAt2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexact H4
    · rw [Dat.leavesExact_idle (dat2 V c) 4 t (idle2_4_of t h1) (noFlush2_4_of t h1)]
      iintro ⟨⟨⟨HS, Hr⟩, Hg⟩, Ho, ⟨%d0, H0⟩, ⟨%d1, H1⟩, ⟨%d2, H2⟩, ⟨%d3, H3⟩, ⟨%d4, H4⟩⟩
      iapply (run2_mid c (grid2.coords t) (ms2_0 t) (hs2_0 t) (ms2_1 t) (hs2_1 t) (ms2_2 t) (hs2_2 t) (ms2_3 t) (hs2_3 t) (ms2_4 t) (hs2_4 t) accM2 (Memref.isWhole_whole _)
        (fun h => h0 ((isFirstSrc2_iff t).mp h)) (fun h => h1 ((isLastSrc2_iff t).mp h))
        (iblk2 V c 0 t) (iblk2 V c 1 t) (iblk2 V c 2 t) (iblk2 V c 3 t) ((dat2 V c).before 4 t d4) (accAt2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4

/-- The body obligation of region 2, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiAcc2 V c 0 (Nat.zero_le _) from rfl, PhiAcc2_zero V c 0 _ rfl]
  try exact Idealize.SL.BI.Entails.refl _

/-- After any point the invariant gives the launch's back: the accumulator's contents are forgotten. -/
theorem Phi2_forget (c : Dev nD) (t : Fin (cfg2.N + 1)) (ht : t.val ≠ 0) :
    (dat2 V c).Φ t ⊢ (Pipeline.ΦA spec2 c : sProp 𝕄) := by
  rw [show (dat2 V c).Φ t = PhiAcc2 V c t.val (Nat.le_of_lt_succ t.isLt) from rfl, PhiAcc2_pos V c _ _ ht, PhiA2_eq]
  iintro ⟨⟨HS, Hr⟩, Hg⟩
  isplitl [HS Hr]
  · isplitl [HS]
    · iexists _; iexact HS
    iexact Hr
  iexact Hg

theorem hout2 (c : Dev nD) : (dat2 V c).Φ (Fin.last cfg2.N) ⊢ (Pipeline.ΦA spec2 c : sProp 𝕄) :=
  Phi2_forget V c _ (by rw [Fin.val_last]; have : cfg2.N = 16 := N_2; omega)

end Cert.KernelIdeal.Hand

end
-- ==== Proof.KI.Frame3.lean ====
/-
  Region 3, the second projection call: the same body as the first, run on the first layer's output. At each of
  its four grid points it takes a 1024-row block of that 4096 x 256 matrix, the matching 1024 entries of the row
  scale, and the whole second 256 x 256 weight matrix; it scales row r of the block by entry r of the scale, rounds
  both factors to bf16, multiplies from a zero accumulator, and stores the product rounded to bf16 as the output
  block. Nothing is carried from point to point.
-/
import proofs.«142270_j68298569941180_1_alg».proof.Proof.KI.Blocks
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Offsets -/

/-- The two-axis offset written as a literal pair is the zero offset. -/
private theorem zeroOff2 : (![0, 0] : Fin 2 → Nat) = fun _ => 0 := by funext a; fin_cases a <;> rfl
/-- The one-axis offset written as a literal is the zero offset. -/
private theorem zeroOff1 : (![0] : Fin 1 → Nat) = fun _ => 0 := by funext a; fin_cases a; rfl

/-! ## Whole-buffer loads and the whole-buffer store -/

/-- The one store of the body lies over every index of the output block. -/
theorem covers3 (p : Vec F S1024x256 .bf16) (y : S1024x256.Idx) :
    ∃ pc ∈ ([⟨Rect.unit ![0, 0] S1024x256.size inb_S1024x256_S1024x256_0_0, p⟩] : List (View.Piece (Elt F) S1024x256 .bf16)),
      y ∈ pc.1.set :=
  ⟨⟨Rect.unit ![0, 0] S1024x256.size inb_S1024x256_S1024x256_0_0, p⟩, List.mem_singleton_self _,
    View.mem_set_unit_zero (S := S1024x256) zeroOff2 inb_S1024x256_S1024x256_0_0 y⟩

/-- A 1024 x 256 bf16 buffer written once over all of itself reads back the written value, whatever it held. -/
theorem stored_whole3 (m : Memref sig .tc .vmem S1024x256 .bf16) (f : BufTy.Contents (Elt F) m.view.ty)
    (p : Vec F S1024x256 .bf16) :
    View.read (Elt F) m.view
      (m.view.writes (Elt F) f [⟨Rect.unit ![0, 0] S1024x256.size inb_S1024x256_S1024x256_0_0, p⟩]) = p := by
  rw [View.read_writes_eq_canon _ _ _ (covers3 p)]
  exact View.canon_unit_zero (S := S1024x256) zeroOff2 _ p

/-- Loading all of a 1024 x 256 f32 buffer reads its contents. -/
theorem loaded_hidden3 (m : Memref sig .tc .vmem S1024x256 .f32) (f : BufTy.Contents (Elt F) m.view.ty) :
    View.readAt (Elt F) m.view (Rect.unit ![0, 0] S1024x256.size inb_S1024x256_S1024x256_0_0).toLoadRect f
      = View.read (Elt F) m.view f := by
  rw [View.readAt_eq_ld]
  exact View.ld_unit_zero (S := S1024x256) zeroOff2 _ _
/-- Loading all of a 1024-entry f32 buffer reads its contents. -/
theorem loaded_scale3 (m : Memref sig .tc .vmem S1024 .f32) (f : BufTy.Contents (Elt F) m.view.ty) :
    View.readAt (Elt F) m.view (Rect.unit ![0] S1024.size inb_S1024_S1024_0).toLoadRect f
      = View.read (Elt F) m.view f := by
  rw [View.readAt_eq_ld]
  exact View.ld_unit_zero (S := S1024) zeroOff1 _ _
/-- Loading all of a 256 x 256 f32 buffer reads its contents. -/
theorem loaded_weight3 (m : Memref sig .tc .vmem S256x256 .f32) (f : BufTy.Contents (Elt F) m.view.ty) :
    View.readAt (Elt F) m.view (Rect.unit ![0, 0] S256x256.size inb_S256x256_S256x256_0_0).toLoadRect f
      = View.read (Elt F) m.view f := by
  rw [View.readAt_eq_ld]
  exact View.ld_unit_zero (S := S256x256) zeroOff2 _ _

/-! ## One run of the body -/

set_option maxHeartbeats 1000000 in
/-- One run of the second projection body on four whole buffers: the block `x0` of the first layer's output, the scale
    entries `x1` and the second weight matrix `x2` are read whole and left as they were; the fourth buffer, whatever it
    held, ends at the bf16 rounding of (rows of `x0` scaled by `x1`) times `x2`. The single store lies over the whole
    buffer, so what is read back from it afterwards is the stored value itself. -/
theorem runs_kernel3 (c : Dev nD) (E : Set ℕ) (i : grid3.Coords)
    (arg1 : Memref sig .tc .vmem S1024x256 .f32) (harg1 : arg1.IsWhole)
    (arg2 : Memref sig .tc .vmem S1024 .f32) (harg2 : arg2.IsWhole)
    (arg3 : Memref sig .tc .vmem S256x256 .f32) (harg3 : arg3.IsWhole)
    (arg4 : Memref sig .tc .vmem S1024x256 .bf16) (harg4 : arg4.IsWhole)
    (x0 : Vec F S1024x256 .f32) (x1 : Vec F S1024 .f32) (x2 : Vec F S256x256 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (k3_pay1 x0 x1 x2)) -∗ K ⟨⟩))
      ⊢ wp frame (wpE (defs₀ (F := F)) Variants.none c none) E
          (cc3__scale_matmul_kernel i arg1 harg1 arg2 harg2 arg3 harg3 arg4 harg4) K := by
  simp only [cc3__scale_matmul_kernel_eq_skeleton]; unfold cc3__scale_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (stored_whole3 arg4 f3 _).trans ?_
  rw [loaded_hidden3 arg1 f0, loaded_scale3 arg2 f1, loaded_weight3 arg3 f2]

/-! ## The region's proof data -/

/-- Region 3 on core `c`, entered from the contents `V`: each array as `V` has it; after the body at point `t` the
    three input buffers still hold their blocks and the output buffer holds the rounded product of the scaled block
    of the first layer's output with the second weight matrix; the invariant is the untouched rest; nothing is owed;
    every array is held whole. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => k3_pay1 (iblk3 V c 0 t) (iblk3 V c 1 t) (iblk3 V c 2 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) :
    (dat3 V c).after 3 t = k3_pay1 (iblk3 V c 0 t) (iblk3 V c 1 t) (iblk3 V c 2 t) := by dsimp only [dat3]

theorem hin3 (c : Dev nD) : (Pipeline.ΦA spec3 c : sProp 𝕄) ⊢ (dat3 V c).Φ 0 := by
  dsimp only [dat3]; exact .rfl
theorem hout3 (c : Dev nD) : (dat3 V c).Φ (Fin.last cfg3.N) ⊢ (Pipeline.ΦA spec3 c : sProp 𝕄) := by
  dsimp only [dat3]; exact .rfl
theorem owed3 (c : Dev nD) (t : Fin (cfg3.N + 1)) : (dat3 V c).owed t = 0 := by dsimp only [dat3]

/-! ## What the body finds in the input buffers -/

/-- The first buffer holds the point's 1024 rows of the first layer's output when the body runs: that block is
    fetched at every point. -/
theorem before3_0 (c : Dev nD) (t : Fin cfg3.N) (d) : (dat3 V c).before 0 t d = iblk3 V c 0 t :=
  ((dat3 V c).before_in_eq_fetched 0 rfl (fun _ => rfl) (fun _ _ _ => rfl)
      (fun s => by rw [after3_0]; unfold Dat.blockOf iblk3; rw [A_eq3]; try rfl) t d).trans
    (by unfold Dat.fetched Dat.blockOf iblk3; rw [A_eq3]; try rfl)
/-- The scale buffer holds the point's 1024 scale entries. -/
theorem before3_1 (c : Dev nD) (t : Fin cfg3.N) (d) : (dat3 V c).before 1 t d = iblk3 V c 1 t :=
  ((dat3 V c).before_in_eq_fetched 1 rfl (fun _ => rfl) (fun _ _ _ => rfl)
      (fun s => by rw [after3_1]; unfold Dat.blockOf iblk3; rw [A_eq3]; try rfl) t d).trans
    (by unfold Dat.fetched Dat.blockOf iblk3; rw [A_eq3]; try rfl)
/-- The weight buffer holds the whole second weight matrix at every point although it is brought in at the first
    point only: its block index never moves and the body leaves it in place. -/
theorem before3_2 (c : Dev nD) (t : Fin cfg3.N) (d) : (dat3 V c).before 2 t d = iblk3 V c 2 t :=
  ((dat3 V c).before_in_eq_fetched 2 rfl (fun _ => rfl) (fun _ _ _ => rfl)
      (fun s => by rw [after3_2]; unfold Dat.blockOf iblk3; rw [A_eq3]; try rfl) t d).trans
    (by unfold Dat.fetched Dat.blockOf iblk3; rw [A_eq3]; try rfl)

/-! ## The body at a grid point -/

/-- What the body is entered with at point `t`: the invariant, what the core owes, and the four current buffers. -/
def entry3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- What it returns with. -/
def exit3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the three input buffers hold their blocks, so one run of the body applies; the invariant
    and what the core owes are not read. -/
theorem runs_body3 (c : Dev nD) (t : Fin cfg3.N) :
    entry3 V c t ⊢ wp frame (wpE (defs₀ (F := F)) Variants.none c none) Set.univ (bodyAt3 t) (fun _ => exit3 V c t) := by
  unfold entry3 exit3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (runs_kernel3 c Set.univ _ _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of region 3, at every point. -/
theorem body_obligation3 (c : Dev nD) : BodyObligation (dat3 (F := F) V c) (defs₀ (F := F)) Variants.none () Set.univ := fun t => by
  rw [bigSep_W3, bigSep_W3]
  exact runs_body3 V c t

end Cert.KernelIdeal.Hand

end
-- ==== Proof.KI.Frame4.lean ====
/-
  Region 4: one graph aggregation, on a 4 × 4 grid of (target block i, source block k), point 4·i + k.

  At each point the body multiplies the transposed 1024 × 1024 block (k, i) of edge weights by the 1024 × 256 block k
  of projected features and adds the product to a 1024 × 256 accumulator kept in a scratch buffer between points:
  zeroed first where k = 0, carried otherwise. Where k = 3 the finished sum is scaled row by row by the target
  block's inverse-square-root degrees, the bias row is added, negatives are cut to zero, and the result is stored into
  the output block i, which is written back there and only there; at the other points the output buffer is handed
  back as it was found.

  This module gives the region's proof data at the contents `V` it is entered from, for any float instance: what each
  window's buffer holds after the body at each point, the invariant that carries the accumulator from point to point
  (`accAt4`), and the body's obligation, from three statements of the body on arbitrary whole memrefs — one per
  control case (first, middle, last source block).
-/
import proofs.«142270_j68298569941180_1_alg».proof.Proof.KI.Blocks
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the source-block coordinate is first and where it is last -/

/-- The first branch of the body is taken where the source-block coordinate is 0. -/
abbrev isFirstSrc4 (i : grid4.Coords) : Prop :=
  (Scalar.cmpi .ne (Scalar.extui (Scalar.cmpi .eq (BitVec.ofNat 32 (i 1).val) 0#32)) 0#32) = 1#1
theorem isFirstSrc4_iff : ∀ t : Fin cfg4.N, isFirstSrc4 (grid4.coords t) ↔ t.val % 4 = 0 :=
  (by decide +kernel : ∀ t : Fin grid4.N, isFirstSrc4 (grid4.coords t) ↔ t.val % 4 = 0)

/-- The last branch of the body is taken where the source-block coordinate is 3. -/
abbrev isLastSrc4 (i : grid4.Coords) : Prop := k4_cond2 i = 1#1
theorem isLastSrc4_iff : ∀ t : Fin cfg4.N, isLastSrc4 (grid4.coords t) ↔ t.val % 4 = 3 :=
  (by decide +kernel : ∀ t : Fin grid4.N, isLastSrc4 (grid4.coords t) ↔ t.val % 4 = 3)

/-! ## Which windows the body stores into, point by point -/

/-- The four inputs are read at every point; -/
theorem live4_0 : ∀ t : Fin cfg4.N, cfg4.idle 0 (grid4.coords t) = false := by decide +kernel
theorem live4_1 : ∀ t : Fin cfg4.N, cfg4.idle 1 (grid4.coords t) = false := by decide +kernel
theorem live4_2 : ∀ t : Fin cfg4.N, cfg4.idle 2 (grid4.coords t) = false := by decide +kernel
theorem live4_3 : ∀ t : Fin cfg4.N, cfg4.idle 3 (grid4.coords t) = false := by decide +kernel
/-- the output is left alone, and not written back, except at the last source block, -/
theorem idle4_4_of : ∀ t : Fin cfg4.N, ¬ t.val % 4 = 3 → cfg4.idle 4 (grid4.coords t) = true := by decide +kernel
theorem noFlush4_4_of : ∀ t : Fin cfg4.N, ¬ t.val % 4 = 3 → (cfg4.win 4).flush t = false := by decide +kernel
/-- where it is stored. -/
theorem live4_4_of : ∀ t : Fin cfg4.N, t.val % 4 = 3 → cfg4.idle 4 (grid4.coords t) = false := by decide +kernel

/-- The accumulator's memref: the whole scratch buffer of the call. -/
abbrev accM4 : Memref sig .tc .vmem S1024x256 .f32 := Memref.whole cc4_scratch0

/-- The launch's invariant with the accumulator split off the other scoped buffers and held as a memref at
    some contents. -/
theorem PhiA4_eq (c : Dev nD) :
    (Pipeline.ΦA spec4 c : sProp 𝕄)
      = iprop((iprop((∃ d, owns (c : Thread nD τ) accM4 fullShare d))
          ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [accM4, owns_whole]; rfl

theorem unitOffPair4 : (![0, 0] : Fin 2 → Nat) = fun _ => 0 := funext fun a => by fin_cases a <;> rfl
theorem unitOffOne4 : (![0] : Fin 1 → Nat) = fun _ => 0 := funext fun a => by fin_cases a <;> rfl

/-! ## The body on any whole memrefs, one statement per control case -/

set_option maxHeartbeats 1000000 in
/-- Source block 0 of a target block: the accumulator is zeroed, read back, and the first block product is
    added to it; the output buffer is not touched. -/
theorem run4_first (c : Dev nD) (i : grid4.Coords)
    (arg2 : Memref sig .tc .vmem S1024x1024 .bf16) (harg2 : arg2.IsWhole)
    (arg3 : Memref sig .tc .vmem S1024x256 .bf16) (harg3 : arg3.IsWhole)
    (arg4 : Memref sig .tc .vmem S1024 .f32) (harg4 : arg4.IsWhole)
    (arg5 : Memref sig .tc .vmem S256 .f32) (harg5 : arg5.IsWhole)
    (arg6 : Memref sig .tc .vmem S1024x256 .f32) (harg6 : arg6.IsWhole)
    (arg7 : Memref sig .tc .vmem S1024x256 .f32) (harg7 : arg7.IsWhole)
    (hc0 : isFirstSrc4 i) (hc1 : ¬ isLastSrc4 i)
    (x0 : Vec F S1024x1024 .bf16) (x1 : Vec F S1024x256 .bf16) (x2 : Vec F S1024 .f32) (x3 : Vec F S256 .f32)
    (x4 : Vec F S1024x256 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare x4
            ∗ owns (c : Thread nD τ) arg7 fullShare (k4_pay2 x0 x1 (k4_pay1 (F := F)))) -∗ K ⟨⟩))
      ⊢ wp frame (wpE (defs₀ (F := F)) Variants.none c none) E
          (cc4__aggregate_kernel i arg2 harg2 arg3 harg3 arg4 harg4 arg5 harg5 arg6 harg6 arg7 harg7) K := by
  simp only [cc4__aggregate_kernel_eq_skeleton]; unfold cc4__aggregate_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1
  obtain rfl := harg4.eq_unread hf2; obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_words
  rw [View.read_writes_eq_canon _ _ _ (fun y => ⟨_, List.mem_cons_self, View.mem_set_unit_zero unitOffPair4 inb_S1024x256_S1024x256_0_0 y⟩)]
  rw [View.canon_cons_unit_zero (S := S1024x256) unitOffPair4, View.readCov_unit_zero (S := S1024x256) _ unitOffPair4]
  simp only [View.readAt_eq_ld, harg2.read_unread, harg3.read_unread,
    View.ld_unit_zero (S := S1024x1024) unitOffPair4, View.ld_unit_zero (S := S1024x256) unitOffPair4]

set_option maxHeartbeats 1000000 in
/-- A source block that is neither first nor last: the block product is added to the accumulator as the
    point before left it; the output buffer is not touched. -/
theorem run4_mid (c : Dev nD) (i : grid4.Coords)
    (arg2 : Memref sig .tc .vmem S1024x1024 .bf16) (harg2 : arg2.IsWhole)
    (arg3 : Memref sig .tc .vmem S1024x256 .bf16) (harg3 : arg3.IsWhole)
    (arg4 : Memref sig .tc .vmem S1024 .f32) (harg4 : arg4.IsWhole)
    (arg5 : Memref sig .tc .vmem S256 .f32) (harg5 : arg5.IsWhole)
    (arg6 : Memref sig .tc .vmem S1024x256 .f32) (harg6 : arg6.IsWhole)
    (arg7 : Memref sig .tc .vmem S1024x256 .f32) (harg7 : arg7.IsWhole)
    (hc0 : ¬ isFirstSrc4 i) (hc1 : ¬ isLastSrc4 i)
    (x0 : Vec F S1024x1024 .bf16) (x1 : Vec F S1024x256 .bf16) (x2 : Vec F S1024 .f32) (x3 : Vec F S256 .f32)
    (x4 : Vec F S1024x256 .f32) (xs : Vec F S1024x256 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare xs
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare x4
            ∗ owns (c : Thread nD τ) arg7 fullShare (k4_pay2 x0 x1 xs)) -∗ K ⟨⟩))
      ⊢ wp frame (wpE (defs₀ (F := F)) Variants.none c none) E
          (cc4__aggregate_kernel i arg2 harg2 arg3 harg3 arg4 harg4 arg5 harg5 arg6 harg6 arg7 harg7) K := by
  simp only [cc4__aggregate_kernel_eq_skeleton]; unfold cc4__aggregate_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1
  obtain rfl := harg4.eq_unread hf2; obtain rfl := harg5.eq_unread hf3; obtain rfl := harg6.eq_unread hf4
  obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_words
  rw [View.read_writes_eq_canon _ _ _ (fun y => ⟨_, List.mem_cons_self, View.mem_set_unit_zero unitOffPair4 inb_S1024x256_S1024x256_0_0 y⟩)]
  rw [View.canon_cons_unit_zero (S := S1024x256) unitOffPair4]
  simp only [View.readAt_eq_ld, harg2.read_unread, harg3.read_unread, harg7.read_unread,
    View.ld_unit_zero (S := S1024x1024) unitOffPair4, View.ld_unit_zero (S := S1024x256) unitOffPair4]

set_option maxHeartbeats 1000000 in
/-- The last source block of a target block: the block product is added to the accumulator, and the finished
    sum — scaled row by row, the bias added, negatives cut to zero — is stored whole into the output buffer. -/
theorem run4_last (c : Dev nD) (i : grid4.Coords)
    (arg2 : Memref sig .tc .vmem S1024x1024 .bf16) (harg2 : arg2.IsWhole)
    (arg3 : Memref sig .tc .vmem S1024x256 .bf16) (harg3 : arg3.IsWhole)
    (arg4 : Memref sig .tc .vmem S1024 .f32) (harg4 : arg4.IsWhole)
    (arg5 : Memref sig .tc .vmem S256 .f32) (harg5 : arg5.IsWhole)
    (arg6 : Memref sig .tc .vmem S1024x256 .f32) (harg6 : arg6.IsWhole)
    (arg7 : Memref sig .tc .vmem S1024x256 .f32) (harg7 : arg7.IsWhole)
    (hc0 : ¬ isFirstSrc4 i) (hc1 : isLastSrc4 i)
    (x0 : Vec F S1024x1024 .bf16) (x1 : Vec F S1024x256 .bf16) (x2 : Vec F S1024 .f32) (x3 : Vec F S256 .f32)
    (xs : Vec F S1024x256 .f32) (E : Set ℕ) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1
        ∗ owns (c : Thread nD τ) arg4 fullShare x2 ∗ owns (c : Thread nD τ) arg5 fullShare x3
            ∗ owns (c : Thread nD τ) arg6 fullShare (k4_pay3 x2 x3 (k4_pay2 x0 x1 xs))
            ∗ owns (c : Thread nD τ) arg7 fullShare (k4_pay2 x0 x1 xs)) -∗ K ⟨⟩))
      ⊢ wp frame (wpE (defs₀ (F := F)) Variants.none c none) E
          (cc4__aggregate_kernel i arg2 harg2 arg3 harg3 arg4 harg4 arg5 harg5 arg6 harg6 arg7 harg7) K := by
  simp only [cc4__aggregate_kernel_eq_skeleton]; unfold cc4__aggregate_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1
  obtain rfl := harg4.eq_unread hf2; obtain rfl := harg5.eq_unread hf3
  obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (fun y => ⟨_, List.mem_cons_self, View.mem_set_unit_zero unitOffPair4 inb_S1024x256_S1024x256_0_0 y⟩)]
    rw [View.canon_cons_unit_zero (S := S1024x256) unitOffPair4]
    simp only [View.readAt_eq_ld, harg2.read_unread, harg3.read_unread, harg4.read_unread, harg5.read_unread,
      harg7.read_unread, View.readCov_unit_zero (S := S1024x256) _ unitOffPair4,
      View.ld_unit_zero (S := S1024x1024) unitOffPair4, View.ld_unit_zero (S := S1024x256) unitOffPair4,
      View.ld_unit_zero (S := S1024) unitOffOne4, View.ld_unit_zero (S := S256) unitOffOne4]
  iexists _; isplitr
  swap; · iexact HS
  ipureintro
  sl_unfold_words
  rw [View.read_writes_eq_canon _ _ _ (fun y => ⟨_, List.mem_cons_self, View.mem_set_unit_zero unitOffPair4 inb_S1024x256_S1024x256_0_0 y⟩)]
  rw [View.canon_cons_unit_zero (S := S1024x256) unitOffPair4]
  simp only [View.readAt_eq_ld, harg2.read_unread, harg3.read_unread, harg7.read_unread,
    View.ld_unit_zero (S := S1024x1024) unitOffPair4, View.ld_unit_zero (S := S1024x256) unitOffPair4]

/-- Each window's staging memref at point `t`, as the pipeline passes it to the body, and its wholeness. -/
abbrev ms4_0 (t : Fin cfg4.N) : Memref sig .tc .vmem S1024x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x256 .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S256 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1024x256 .f32 := win4_4.stage (cfg4.slots t 4)
abbrev hs4_4 (t : Fin cfg4.N) : (ms4_4 t).IsWhole := hstage4_4 ((cfg4.slots t 4).cast nbuf4_4)

/-! ## The proof data -/

/-- What the region holds between points besides the windows: before the first point the scratch buffers at
    anything; after point `n` the accumulator at its contents after that point, the other scoped buffers at
    anything, and the generator register at some state. -/
def PhiAcc4 (c : Dev nD) : (n : ℕ) → n ≤ cfg4.N → sProp 𝕄
  | 0, _ => Pipeline.ΦA spec4 c
  | n + 1, hn => iprop((iprop(owns (c : Thread nD τ) accM4 fullShare (accAt4 V c n hn))
      ∗ Pipeline.scopedRestBut (Ix := Unit) (Name := ℕ) (U := UR sig nD τ) (Lvl := ℕ) (Val := Elt F) spec4 c [cc4_scratch0])
      ∗ (∃ r, prngReg c r))

theorem PhiAcc4_zero (c : Dev nD) (n : ℕ) (h : n ≤ cfg4.N) (hz : n = 0) : PhiAcc4 V c n h = Pipeline.ΦA spec4 c := by
  subst hz; rfl

theorem PhiAcc4_succ (c : Dev nD) (n : ℕ) (hn : n < cfg4.N) :
    PhiAcc4 V c (n + 1) hn = iprop((iprop(owns (c : Thread nD τ) accM4 fullShare (accAt4 V c n hn))
      ∗ Pipeline.scopedRestBut (Ix := Unit) (Name := ℕ) (U := UR sig nD τ) (Lvl := ℕ) (Val := Elt F) spec4 c [cc4_scratch0])
      ∗ (∃ r, prngReg c r)) := rfl

theorem PhiAcc4_pos (c : Dev nD) (n : ℕ) (h : n ≤ cfg4.N) (hz : n ≠ 0) :
    PhiAcc4 V c n h = iprop((iprop(owns (c : Thread nD τ) accM4 fullShare (accAt4 V c (n - 1) (by omega)))
      ∗ Pipeline.scopedRestBut (Ix := Unit) (Name := ℕ) (U := UR sig nD τ) (Lvl := ℕ) (Val := Elt F) spec4 c [cc4_scratch0])
      ∗ (∃ r, prngReg c r)) := by
  cases n with
  | zero => exact absurd rfl hz
  | succ n => rfl

/-- The proof data of region 4 on core `c`, entered from the contents `V`: each input's buffer keeps its block;
    the output's buffer, where the body stores into it, holds the finished accumulator scaled, shifted and cut at
    zero; between points the accumulator is carried at its contents (`PhiAcc4`). -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => k4_pay3 (iblk4 V c 2 t) (iblk4 V c 3 t) (accAt4 V c t.val t.isLt)
  Φ t := PhiAcc4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem Phi4_castSucc (c : Dev nD) (t : Fin cfg4.N) :
    (dat4 V c).Φ t.castSucc = PhiAcc4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) :
    (dat4 V c).after 4 t = k4_pay3 (iblk4 V c 2 t) (iblk4 V c 3 t) (accAt4 V c t.val t.isLt) := by dsimp only [dat4]

theorem owed4 (c : Dev nD) (t : Fin (cfg4.N + 1)) : (dat4 V c).owed t = 0 := rfl

/-- An input's buffer holds its block at every point, fetched there or kept from the point before. -/
theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl)
    (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl)
    (fun t => by rw [after4_3]; unfold Dat.blockOf iblk4; rw [A_eq4]; try rfl) t d).trans
    (by unfold Dat.fetched Dat.blockOf iblk4; rw [A_eq4]; try rfl)

/-! ## The body obligation -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d)))

/-- and what it hands back. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4800000 in
/-- The body at any point. The inputs' buffers hold their blocks. By the source-block coordinate the point is a
    first, a middle or a last one; the invariant hands the body the accumulator (at anything before the first
    point, else at what the point before left) and takes it back at this point's contents; the output's buffer
    comes back as found except at a last point, where it holds the finished block. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiAcc4 V c (t.val + 1) t.isLt from rfl, PhiAcc4_succ]
  rw [show (dat4 V c).leavesExact 0 t = owns (c : Thread nD τ) (ms4_0 t) fullShare ((dat4 V c).after 0 t) from by
    unfold Dat.leavesExact; rw [live4_0 t], after4_0]
  rw [show (dat4 V c).leavesExact 1 t = owns (c : Thread nD τ) (ms4_1 t) fullShare ((dat4 V c).after 1 t) from by
    unfold Dat.leavesExact; rw [live4_1 t], after4_1]
  rw [show (dat4 V c).leavesExact 2 t = owns (c : Thread nD τ) (ms4_2 t) fullShare ((dat4 V c).after 2 t) from by
    unfold Dat.leavesExact; rw [live4_2 t], after4_2]
  rw [show (dat4 V c).leavesExact 3 t = owns (c : Thread nD τ) (ms4_3 t) fullShare ((dat4 V c).after 3 t) from by
    unfold Dat.leavesExact; rw [live4_3 t], after4_3]
  have hN : t.val < 16 := lt_of_lt_of_eq t.isLt (show cfg4.N = 16 from N_4)
  by_cases h0 : t.val % 4 = 0
  · have h1 : ¬ t.val % 4 = 3 := by omega
    rw [Dat.leavesExact_idle (dat4 V c) 4 t (idle4_4_of t h1) (noFlush4_4_of t h1)]
    rw [accAt4_reset V c t h0]
    by_cases hz : t.val = 0
    · rw [Phi4_castSucc V c t, PhiAcc4_zero V c _ _ hz, PhiA4_eq]
      iintro ⟨⟨⟨HS, Hr⟩, Hg⟩, Ho, ⟨%d0, H0⟩, ⟨%d1, H1⟩, ⟨%d2, H2⟩, ⟨%d3, H3⟩, ⟨%d4, H4⟩⟩
      iapply (run4_first c (grid4.coords t) (ms4_0 t) (hs4_0 t) (ms4_1 t) (hs4_1 t) (ms4_2 t) (hs4_2 t) (ms4_3 t) (hs4_3 t) (ms4_4 t) (hs4_4 t) accM4 (Memref.isWhole_whole _)
        ((isFirstSrc4_iff t).mpr h0) (fun h => h1 ((isLastSrc4_iff t).mp h))
        (iblk4 V c 0 t) (iblk4 V c 1 t) (iblk4 V c 2 t) (iblk4 V c 3 t) ((dat4 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4
    · rw [Phi4_castSucc V c t, PhiAcc4_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply (run4_first c (grid4.coords t) (ms4_0 t) (hs4_0 t) (ms4_1 t) (hs4_1 t) (ms4_2 t) (hs4_2 t) (ms4_3 t) (hs4_3 t) (ms4_4 t) (hs4_4 t) accM4 (Memref.isWhole_whole _)
        ((isFirstSrc4_iff t).mpr h0) (fun h => h1 ((isLastSrc4_iff t).mp h))
        (iblk4 V c 0 t) (iblk4 V c 1 t) (iblk4 V c 2 t) (iblk4 V c 3 t) ((dat4 V c).before 4 t d4) Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    rw [accAt4_step V c t h0]
    rw [Phi4_castSucc V c t, PhiAcc4_pos V c _ _ hz]
    by_cases h1 : t.val % 4 = 3
    · rw [show (dat4 V c).leavesExact 4 t = owns (c : Thread nD τ) (ms4_4 t) fullShare ((dat4 V c).after 4 t) from by
        unfold Dat.leavesExact; rw [live4_4_of t h1], after4_4]
      rw [accAt4_step V c t h0]
      iintro ⟨⟨⟨HS, Hr⟩, Hg⟩, Ho, ⟨%d0, H0⟩, ⟨%d1, H1⟩, ⟨%d2, H2⟩, ⟨%d3, H3⟩, ⟨%d4, H4⟩⟩
      iapply (run4_last c (grid4.coords t) (ms4_0 t) (hs4_0 t) (ms4_1 t) (hs4_1 t) (ms4_2 t) (hs4_2 t) (ms4_3 t) (hs4_3 t) (ms4_4 t) (hs4_4 t) accM4 (Memref.isWhole_whole _)
        (fun h => h0 ((isFirstSrc4_iff t).mp h)) ((isLastSrc4_iff t).mpr h1)
        (iblk4 V c 0 t) (iblk4 V c 1 t) (iblk4 V c 2 t) (iblk4 V c 3 t) (accAt4 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexact H4
    · rw [Dat.leavesExact_idle (dat4 V c) 4 t (idle4_4_of t h1) (noFlush4_4_of t h1)]
      iintro ⟨⟨⟨HS, Hr⟩, Hg⟩, Ho, ⟨%d0, H0⟩, ⟨%d1, H1⟩, ⟨%d2, H2⟩, ⟨%d3, H3⟩, ⟨%d4, H4⟩⟩
      iapply (run4_mid c (grid4.coords t) (ms4_0 t) (hs4_0 t) (ms4_1 t) (hs4_1 t) (ms4_2 t) (hs4_2 t) (ms4_3 t) (hs4_3 t) (ms4_4 t) (hs4_4 t) accM4 (Memref.isWhole_whole _)
        (fun h => h0 ((isFirstSrc4_iff t).mp h)) (fun h => h1 ((isLastSrc4_iff t).mp h))
        (iblk4 V c 0 t) (iblk4 V c 1 t) (iblk4 V c 2 t) (iblk4 V c 3 t) ((dat4 V c).before 4 t d4) (accAt4 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4

/-- The body obligation of region 4, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : (Pipeline.ΦA spec4 c : sProp 𝕄) ⊢ (dat4 V c).Φ 0 := by
  rw [show (dat4 V c).Φ 0 = PhiAcc4 V c 0 (Nat.zero_le _) from rfl, PhiAcc4_zero V c 0 _ rfl]
  try exact Idealize.SL.BI.Entails.refl _

/-- After any point the invariant gives the launch's back: the accumulator's contents are forgotten. -/
theorem Phi4_forget (c : Dev nD) (t : Fin (cfg4.N + 1)) (ht : t.val ≠ 0) :
    (dat4 V c).Φ t ⊢ (Pipeline.ΦA spec4 c : sProp 𝕄) := by
  rw [show (dat4 V c).Φ t = PhiAcc4 V c t.val (Nat.le_of_lt_succ t.isLt) from rfl, PhiAcc4_pos V c _ _ ht, PhiA4_eq]
  iintro ⟨⟨HS, Hr⟩, Hg⟩
  isplitl [HS Hr]
  · isplitl [HS]
    · iexists _; iexact HS
    iexact Hr
  iexact Hg

theorem hout4 (c : Dev nD) : (dat4 V c).Φ (Fin.last cfg4.N) ⊢ (Pipeline.ΦA spec4 c : sProp 𝕄) :=
  Phi4_forget V c _ (by rw [Fin.val_last]; have : cfg4.N = 16 := N_4; omega)

end Cert.KernelIdeal.Hand

end
-- ==== Proof.KI.Run.lean ====
/-
  The whole run of the kernel program, at any float instance.

  @main is six items: the graph-building region, eight host operations (the two degree normalisers), and the four
  regions of the two layers. Between two items core `c` holds every unscoped buffer at a named valuation:
  `W0` the launch contents; `W1` after region 0 (its three output arrays at what its write-backs leave, everything else
  as launched); `W2` after the host operations; `W3` … `W6` after regions 1 … 4 likewise. Each region is entered from
  the valuation before it (`E0` … `E4`) and its proof data are stated at that valuation, so each region's arrays after
  it are `Dat.arrAt` of its own proof data. `run_all`: every weakly fair execution terminates and the final memory
  holds every unscoped buffer at `W6`. No item writes an argument array, so each argument reads back through the
  chain to its launch contents (`frame`).
-/
import proofs.«142270_j68298569941180_1_alg».proof.Proof.KI.Frame0
import proofs.«142270_j68298569941180_1_alg».proof.Proof.KI.Frame1
import proofs.«142270_j68298569941180_1_alg».proof.Proof.KI.Frame2
import proofs.«142270_j68298569941180_1_alg».proof.Proof.KI.Frame3
import proofs.«142270_j68298569941180_1_alg».proof.Proof.KI.Frame4
import proofs.«142270_j68298569941180_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents between the items -/

/-- Core `c`'s buffers at launch. -/
abbrev W0 : Dev nD → Valuation τ sig (Elt F) := fun c b => m (c, b)

/-- The buffer contents region 0 is entered from, read at the TensorCore's references. -/
abbrev E0 : (c : Dev nD) → (b : Ref sig .tc) → Buf (Elt F) ((c : Thread nD τ).loc b) := fun c b => W0 m c b
/-- After region 0: its arrays at what its write-backs leave, every other buffer as it was entered. -/
def W1 (c : Dev nD) : Valuation τ sig (Elt F) :=
  Pipeline.withArrays spec0 c (W0 m c) fun w => (dat0 (E0 m) c).arrAt w cfg0.N
theorem W1_arr (c : Dev nD) (w : Fin cfg0.W) :
    W1 m c (Proc.devRef .tc (Pipeline.arrRef spec0 w)) = (dat0 (E0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- An input array of region 0 leaves the region as it entered. -/
theorem W1_in (c : Dev nD) (w : Fin cfg0.W) (hin : (cfg0.win w).isOut = false) :
    W1 m c (Proc.devRef .tc (Pipeline.arrRef spec0 w)) = W0 m c (Proc.devRef .tc (Pipeline.arrRef spec0 w)) :=
  (W1_arr m c w).trans (((dat0 (E0 m) c).arrAt_in w hin _).trans (A_eq0 (E0 m) c w))
theorem hF0 (c : Dev nD) (w : Fin cfg0.W) :
    (dat0 (E0 m) c).arrAt w cfg0.N = (fun b : Ref sig .tc => W1 m c b) (Pipeline.arrRef spec0 w) :=
  (W1_arr m c w).symm
theorem hrest0 (c : Dev nD) : ∀ b, b ∉ Finset.univ.image (Pipeline.arrRef spec0) →
    (fun b : Ref sig .tc => W1 m c b) b = E0 m c b :=
  fun b hb => W1_of_ne m c b fun w e => hb (Finset.mem_image.mpr ⟨w, Finset.mem_univ _, e⟩)

/-- After the eight host operations. -/
abbrev W2 : Dev nD → Valuation τ sig (Elt F) := fun c => StableHlo.after hostOps1 (W1 m c)
/-- A buffer the host operations do not write keeps its contents. -/
theorem W2_of (c : Dev nD) (r : Ref sig .tc) (h : r ∉ hostOps1_W) : W2 m c (Proc.devRef .tc r) = W1 m c (Proc.devRef .tc r) :=
  StableHlo.after_of_writes_sub hostOps1 _ hostOps1_writes h

/-- The buffer contents region 1 is entered from, read at the TensorCore's references. -/
abbrev E1 : (c : Dev nD) → (b : Ref sig .tc) → Buf (Elt F) ((c : Thread nD τ).loc b) := fun c b => W2 m c b
/-- After region 1: its arrays at what its write-backs leave, every other buffer as it was entered. -/
def W3 (c : Dev nD) : Valuation τ sig (Elt F) :=
  Pipeline.withArrays spec1 c (W2 m c) fun w => (dat1 (E1 m) c).arrAt w cfg1.N
theorem W3_arr (c : Dev nD) (w : Fin cfg1.W) :
    W3 m c (Proc.devRef .tc (Pipeline.arrRef spec1 w)) = (dat1 (E1 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- An input array of region 1 leaves the region as it entered. -/
theorem W3_in (c : Dev nD) (w : Fin cfg1.W) (hin : (cfg1.win w).isOut = false) :
    W3 m c (Proc.devRef .tc (Pipeline.arrRef spec1 w)) = W2 m c (Proc.devRef .tc (Pipeline.arrRef spec1 w)) :=
  (W3_arr m c w).trans (((dat1 (E1 m) c).arrAt_in w hin _).trans (A_eq1 (E1 m) c w))
theorem hF1 (c : Dev nD) (w : Fin cfg1.W) :
    (dat1 (E1 m) c).arrAt w cfg1.N = (fun b : Ref sig .tc => W3 m c b) (Pipeline.arrRef spec1 w) :=
  (W3_arr m c w).symm
theorem hrest1 (c : Dev nD) : ∀ b, b ∉ Finset.univ.image (Pipeline.arrRef spec1) →
    (fun b : Ref sig .tc => W3 m c b) b = E1 m c b :=
  fun b hb => W3_of_ne m c b fun w e => hb (Finset.mem_image.mpr ⟨w, Finset.mem_univ _, e⟩)

/-- The buffer contents region 2 is entered from, read at the TensorCore's references. -/
abbrev E2 : (c : Dev nD) → (b : Ref sig .tc) → Buf (Elt F) ((c : Thread nD τ).loc b) := fun c b => W3 m c b
/-- After region 2: its arrays at what its write-backs leave, every other buffer as it was entered. -/
def W4 (c : Dev nD) : Valuation τ sig (Elt F) :=
  Pipeline.withArrays spec2 c (W3 m c) fun w => (dat2 (E2 m) c).arrAt w cfg2.N
theorem W4_arr (c : Dev nD) (w : Fin cfg2.W) :
    W4 m c (Proc.devRef .tc (Pipeline.arrRef spec2 w)) = (dat2 (E2 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- An input array of region 2 leaves the region as it entered. -/
theorem W4_in (c : Dev nD) (w : Fin cfg2.W) (hin : (cfg2.win w).isOut = false) :
    W4 m c (Proc.devRef .tc (Pipeline.arrRef spec2 w)) = W3 m c (Proc.devRef .tc (Pipeline.arrRef spec2 w)) :=
  (W4_arr m c w).trans (((dat2 (E2 m) c).arrAt_in w hin _).trans (A_eq2 (E2 m) c w))
theorem hF2 (c : Dev nD) (w : Fin cfg2.W) :
    (dat2 (E2 m) c).arrAt w cfg2.N = (fun b : Ref sig .tc => W4 m c b) (Pipeline.arrRef spec2 w) :=
  (W4_arr m c w).symm
theorem hrest2 (c : Dev nD) : ∀ b, b ∉ Finset.univ.image (Pipeline.arrRef spec2) →
    (fun b : Ref sig .tc => W4 m c b) b = E2 m c b :=
  fun b hb => W4_of_ne m c b fun w e => hb (Finset.mem_image.mpr ⟨w, Finset.mem_univ _, e⟩)

/-- The buffer contents region 3 is entered from, read at the TensorCore's references. -/
abbrev E3 : (c : Dev nD) → (b : Ref sig .tc) → Buf (Elt F) ((c : Thread nD τ).loc b) := fun c b => W4 m c b
/-- After region 3: its arrays at what its write-backs leave, every other buffer as it was entered. -/
def W5 (c : Dev nD) : Valuation τ sig (Elt F) :=
  Pipeline.withArrays spec3 c (W4 m c) fun w => (dat3 (E3 m) c).arrAt w cfg3.N
theorem W5_arr (c : Dev nD) (w : Fin cfg3.W) :
    W5 m c (Proc.devRef .tc (Pipeline.arrRef spec3 w)) = (dat3 (E3 m) c).arrAt w cfg3.N := by
  unfold W5; exact Pipeline.withArrays_arr spec3 launch3.win.arr_inj c _ _ w
theorem W5_of_ne (c : Dev nD) (b : Ref sig .tc) (hb : ∀ w, Pipeline.arrRef spec3 w ≠ b) :
    W5 m c (Proc.devRef .tc b) = W4 m c (Proc.devRef .tc b) := by
  unfold W5; exact Pipeline.withArrays_of_ne spec3 c _ _ b hb
/-- An input array of region 3 leaves the region as it entered. -/
theorem W5_in (c : Dev nD) (w : Fin cfg3.W) (hin : (cfg3.win w).isOut = false) :
    W5 m c (Proc.devRef .tc (Pipeline.arrRef spec3 w)) = W4 m c (Proc.devRef .tc (Pipeline.arrRef spec3 w)) :=
  (W5_arr m c w).trans (((dat3 (E3 m) c).arrAt_in w hin _).trans (A_eq3 (E3 m) c w))
theorem hF3 (c : Dev nD) (w : Fin cfg3.W) :
    (dat3 (E3 m) c).arrAt w cfg3.N = (fun b : Ref sig .tc => W5 m c b) (Pipeline.arrRef spec3 w) :=
  (W5_arr m c w).symm
theorem hrest3 (c : Dev nD) : ∀ b, b ∉ Finset.univ.image (Pipeline.arrRef spec3) →
    (fun b : Ref sig .tc => W5 m c b) b = E3 m c b :=
  fun b hb => W5_of_ne m c b fun w e => hb (Finset.mem_image.mpr ⟨w, Finset.mem_univ _, e⟩)

/-- The buffer contents region 4 is entered from, read at the TensorCore's references. -/
abbrev E4 : (c : Dev nD) → (b : Ref sig .tc) → Buf (Elt F) ((c : Thread nD τ).loc b) := fun c b => W5 m c b
/-- After region 4: its arrays at what its write-backs leave, every other buffer as it was entered. -/
def W6 (c : Dev nD) : Valuation τ sig (Elt F) :=
  Pipeline.withArrays spec4 c (W5 m c) fun w => (dat4 (E4 m) c).arrAt w cfg4.N
theorem W6_arr (c : Dev nD) (w : Fin cfg4.W) :
    W6 m c (Proc.devRef .tc (Pipeline.arrRef spec4 w)) = (dat4 (E4 m) c).arrAt w cfg4.N := by
  unfold W6; exact Pipeline.withArrays_arr spec4 launch4.win.arr_inj c _ _ w
theorem W6_of_ne (c : Dev nD) (b : Ref sig .tc) (hb : ∀ w, Pipeline.arrRef spec4 w ≠ b) :
    W6 m c (Proc.devRef .tc b) = W5 m c (Proc.devRef .tc b) := by
  unfold W6; exact Pipeline.withArrays_of_ne spec4 c _ _ b hb
/-- An input array of region 4 leaves the region as it entered. -/
theorem W6_in (c : Dev nD) (w : Fin cfg4.W) (hin : (cfg4.win w).isOut = false) :
    W6 m c (Proc.devRef .tc (Pipeline.arrRef spec4 w)) = W5 m c (Proc.devRef .tc (Pipeline.arrRef spec4 w)) :=
  (W6_arr m c w).trans (((dat4 (E4 m) c).arrAt_in w hin _).trans (A_eq4 (E4 m) c w))
theorem hF4 (c : Dev nD) (w : Fin cfg4.W) :
    (dat4 (E4 m) c).arrAt w cfg4.N = (fun b : Ref sig .tc => W6 m c b) (Pipeline.arrRef spec4 w) :=
  (W6_arr m c w).symm
theorem hrest4 (c : Dev nD) : ∀ b, b ∉ Finset.univ.image (Pipeline.arrRef spec4) →
    (fun b : Ref sig .tc => W6 m c b) b = E4 m c b :=
  fun b hb => W6_of_ne m c b fun w e => hb (Finset.mem_image.mpr ⟨w, Finset.mem_univ _, e⟩)

/-! ## What each item leaves alone -/

/-- A buffer that is no output array of region 0 keeps its contents through it. -/
theorem W1_keep (c : Dev nD) (b : Ref sig .tc) (h : ∀ w, (cfg0.win w).isOut = true → Pipeline.arrRef spec0 w ≠ b) :
    W1 m c (Proc.devRef .tc b) = W0 m c (Proc.devRef .tc b) := by
  by_cases hb : ∃ w, Pipeline.arrRef spec0 w = b
  · obtain ⟨w, rfl⟩ := hb
    refine W1_in m c w ?_
    cases hw : (cfg0.win w).isOut with
    | false => rfl
    | true => exact absurd rfl (h w hw)
  · exact W1_of_ne m c b fun w e => hb ⟨w, e⟩

/-- A buffer that is no output array of region 1 keeps its contents through it. -/
theorem W3_keep (c : Dev nD) (b : Ref sig .tc) (h : ∀ w, (cfg1.win w).isOut = true → Pipeline.arrRef spec1 w ≠ b) :
    W3 m c (Proc.devRef .tc b) = W2 m c (Proc.devRef .tc b) := by
  by_cases hb : ∃ w, Pipeline.arrRef spec1 w = b
  · obtain ⟨w, rfl⟩ := hb
    refine W3_in m c w ?_
    cases hw : (cfg1.win w).isOut with
    | false => rfl
    | true => exact absurd rfl (h w hw)
  · exact W3_of_ne m c b fun w e => hb ⟨w, e⟩

/-- A buffer that is no output array of region 2 keeps its contents through it. -/
theorem W4_keep (c : Dev nD) (b : Ref sig .tc) (h : ∀ w, (cfg2.win w).isOut = true → Pipeline.arrRef spec2 w ≠ b) :
    W4 m c (Proc.devRef .tc b) = W3 m c (Proc.devRef .tc b) := by
  by_cases hb : ∃ w, Pipeline.arrRef spec2 w = b
  · obtain ⟨w, rfl⟩ := hb
    refine W4_in m c w ?_
    cases hw : (cfg2.win w).isOut with
    | false => rfl
    | true => exact absurd rfl (h w hw)
  · exact W4_of_ne m c b fun w e => hb ⟨w, e⟩

/-- A buffer that is no output array of region 3 keeps its contents through it. -/
theorem W5_keep (c : Dev nD) (b : Ref sig .tc) (h : ∀ w, (cfg3.win w).isOut = true → Pipeline.arrRef spec3 w ≠ b) :
    W5 m c (Proc.devRef .tc b) = W4 m c (Proc.devRef .tc b) := by
  by_cases hb : ∃ w, Pipeline.arrRef spec3 w = b
  · obtain ⟨w, rfl⟩ := hb
    refine W5_in m c w ?_
    cases hw : (cfg3.win w).isOut with
    | false => rfl
    | true => exact absurd rfl (h w hw)
  · exact W5_of_ne m c b fun w e => hb ⟨w, e⟩

/-- A buffer that is no output array of region 4 keeps its contents through it. -/
theorem W6_keep (c : Dev nD) (b : Ref sig .tc) (h : ∀ w, (cfg4.win w).isOut = true → Pipeline.arrRef spec4 w ≠ b) :
    W6 m c (Proc.devRef .tc b) = W5 m c (Proc.devRef .tc b) := by
  by_cases hb : ∃ w, Pipeline.arrRef spec4 w = b
  · obtain ⟨w, rfl⟩ := hb
    refine W6_in m c w ?_
    cases hw : (cfg4.win w).isOut with
    | false => rfl
    | true => exact absurd rfl (h w hw)
  · exact W6_of_ne m c b fun w e => hb ⟨w, e⟩

/-- Argument 0 reaches the end as launched: no region writes it back and no host operation writes it. -/
theorem W6_main_arg0 (c : Dev nD) : W6 m c (Proc.devRef .tc main_arg0) = m ((c : Thread nD τ).loc main_arg0) :=
  (W6_keep m c main_arg0 (by decide)).trans <| (W5_keep m c main_arg0 (by decide)).trans <| (W4_keep m c main_arg0 (by decide)).trans <|
    (W3_keep m c main_arg0 (by decide)).trans <| (W2_of m c main_arg0 (by decide)).trans <| (W1_keep m c main_arg0 (by decide)).trans rfl

/-- Argument 1 reaches the end as launched: no region writes it back and no host operation writes it. -/
theorem W6_main_arg1 (c : Dev nD) : W6 m c (Proc.devRef .tc main_arg1) = m ((c : Thread nD τ).loc main_arg1) :=
  (W6_keep m c main_arg1 (by decide)).trans <| (W5_keep m c main_arg1 (by decide)).trans <| (W4_keep m c main_arg1 (by decide)).trans <|
    (W3_keep m c main_arg1 (by decide)).trans <| (W2_of m c main_arg1 (by decide)).trans <| (W1_keep m c main_arg1 (by decide)).trans rfl

/-- Argument 2 reaches the end as launched: no region writes it back and no host operation writes it. -/
theorem W6_main_arg2 (c : Dev nD) : W6 m c (Proc.devRef .tc main_arg2) = m ((c : Thread nD τ).loc main_arg2) :=
  (W6_keep m c main_arg2 (by decide)).trans <| (W5_keep m c main_arg2 (by decide)).trans <| (W4_keep m c main_arg2 (by decide)).trans <|
    (W3_keep m c main_arg2 (by decide)).trans <| (W2_of m c main_arg2 (by decide)).trans <| (W1_keep m c main_arg2 (by decide)).trans rfl

/-- Argument 3 reaches the end as launched: no region writes it back and no host operation writes it. -/
theorem W6_main_arg3 (c : Dev nD) : W6 m c (Proc.devRef .tc main_arg3) = m ((c : Thread nD τ).loc main_arg3) :=
  (W6_keep m c main_arg3 (by decide)).trans <| (W5_keep m c main_arg3 (by decide)).trans <| (W4_keep m c main_arg3 (by decide)).trans <|
    (W3_keep m c main_arg3 (by decide)).trans <| (W2_of m c main_arg3 (by decide)).trans <| (W1_keep m c main_arg3 (by decide)).trans rfl

/-- Argument 4 reaches the end as launched: no region writes it back and no host operation writes it. -/
theorem W6_main_arg4 (c : Dev nD) : W6 m c (Proc.devRef .tc main_arg4) = m ((c : Thread nD τ).loc main_arg4) :=
  (W6_keep m c main_arg4 (by decide)).trans <| (W5_keep m c main_arg4 (by decide)).trans <| (W4_keep m c main_arg4 (by decide)).trans <|
    (W3_keep m c main_arg4 (by decide)).trans <| (W2_of m c main_arg4 (by decide)).trans <| (W1_keep m c main_arg4 (by decide)).trans rfl

/-- Argument 5 reaches the end as launched: no region writes it back and no host operation writes it. -/
theorem W6_main_arg5 (c : Dev nD) : W6 m c (Proc.devRef .tc main_arg5) = m ((c : Thread nD τ).loc main_arg5) :=
  (W6_keep m c main_arg5 (by decide)).trans <| (W5_keep m c main_arg5 (by decide)).trans <| (W4_keep m c main_arg5 (by decide)).trans <|
    (W3_keep m c main_arg5 (by decide)).trans <| (W2_of m c main_arg5 (by decide)).trans <| (W1_keep m c main_arg5 (by decide)).trans rfl

/-! ## The proof data of the five regions and the thread state -/

/-- Every region's proof data, each at the valuation its region is entered from. -/
def pdats : (p : Fin 5) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
  | ⟨3, _⟩ => fun c => dat3 (E3 m) c
  | ⟨4, _⟩ => fun c => dat4 (E4 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- The last thread state without the `owes`. -/
abbrev Tₙ (c : Dev nD) : sProp 𝕄 := iprop(StableHlo.held (c : Thread nD τ) (Pipeline.ucRefs τ sig) (W6 m c) ∗ ∃ r, prngReg c r)

/-- The host operations as one item, from the contents `W1`. -/
abbrev hostItem : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m) R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as items -/

set_option backward.isDefEq.respectTransparency.types false in
/-- Region 0 over the thread state: entered from every unscoped buffer at `W0`, left at `W1`. Its arrays are
    split out of the unscoped buffers and put back at their exit contents; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun w => A_eq0 (E0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show (iprop((∃ r, prngReg c r) ∗ Pipeline.prefHeld (pcfgs (F := F) 0).pre c (fun _ => fullShare) (adm (F := F) 0).1
          ∗ Pipeline.scopedRest spec0 c) : sProp 𝕄) ⊢ Pipeline.ΦA spec0 c from by
      unfold Pipeline.ΦA
      iintro ⟨Hp, -, Hr⟩
      isplitl [Hr]; · iexact Hr
      iexact Hp).trans (hin0 (E0 m) c)
  hout c :=
    (hout0 (E0 m) c).trans (show (Pipeline.ΦA spec0 c : sProp 𝕄)
        ⊢ iprop((∃ r, prngReg c r) ∗ Pipeline.ownSems0 (fun k : PEmpty => k.elim) c ∗ Pipeline.scopedRest spec0 c) from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b : Ref sig .tc => W1 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`. Its arrays are
    split out of the unscoped buffers and put back at their exit contents; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun w => A_eq1 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show (iprop((∃ r, prngReg c r) ∗ Pipeline.prefHeld (pcfgs (F := F) 1).pre c (fun _ => fullShare) (adm (F := F) 1).1
          ∗ Pipeline.scopedRest spec1 c) : sProp 𝕄) ⊢ Pipeline.ΦA spec1 c from by
      unfold Pipeline.ΦA
      iintro ⟨Hp, -, Hr⟩
      isplitl [Hr]; · iexact Hr
      iexact Hp).trans (hin1 (E1 m) c)
  hout c :=
    (hout1 (E1 m) c).trans (show (Pipeline.ΦA spec1 c : sProp 𝕄)
        ⊢ iprop((∃ r, prngReg c r) ∗ Pipeline.ownSems0 (fun k : PEmpty => k.elim) c ∗ Pipeline.scopedRest spec1 c) from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b : Ref sig .tc => W3 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`. Its arrays are
    split out of the unscoped buffers and put back at their exit contents; the generator register goes into the
    region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun w => A_eq2 (E2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show (iprop((∃ r, prngReg c r) ∗ Pipeline.prefHeld (pcfgs (F := F) 2).pre c (fun _ => fullShare) (adm (F := F) 2).1
          ∗ Pipeline.scopedRest spec2 c) : sProp 𝕄) ⊢ Pipeline.ΦA spec2 c from by
      unfold Pipeline.ΦA
      iintro ⟨Hp, -, Hr⟩
      isplitl [Hr]; · iexact Hr
      iexact Hp).trans (hin2 (E2 m) c)
  hout c :=
    (hout2 (E2 m) c).trans (show (Pipeline.ΦA spec2 c : sProp 𝕄)
        ⊢ iprop((∃ r, prngReg c r) ∗ Pipeline.ownSems0 (fun k : PEmpty => k.elim) c ∗ Pipeline.scopedRest spec2 c) from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (fun b : Ref sig .tc => W4 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W4`, left at `W5`. Its arrays are
    split out of the unscoped buffers and put back at their exit contents; the generator register goes into the
    region's invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (E3 m) c).loose
  hwaits := Pipeline.hwaits_of_owed_zero _ _ _ _ L lv 3 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec3 c (E3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (E3 m c) fun w => A_eq3 (E3 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show (iprop((∃ r, prngReg c r) ∗ Pipeline.prefHeld (pcfgs (F := F) 3).pre c (fun _ => fullShare) (adm (F := F) 3).1
          ∗ Pipeline.scopedRest spec3 c) : sProp 𝕄) ⊢ Pipeline.ΦA spec3 c from by
      unfold Pipeline.ΦA
      iintro ⟨Hp, -, Hr⟩
      isplitl [Hr]; · iexact Hr
      iexact Hp).trans (hin3 (E3 m) c)
  hout c :=
    (hout3 (E3 m) c).trans (show (Pipeline.ΦA spec3 c : sProp 𝕄)
        ⊢ iprop((∃ r, prngReg c r) ∗ Pipeline.ownSems0 (fun k : PEmpty => k.elim) c ∗ Pipeline.scopedRest spec3 c) from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (E3 m c) (fun b : Ref sig .tc => W5 m c b) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W5`, left at `W6`. Its arrays are
    split out of the unscoped buffers and put back at their exit contents; the generator register goes into the
    region's invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (E4 m) c).loose
  hwaits := Pipeline.hwaits_of_owed_zero _ _ _ _ L lv 4 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec4 c (E4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (E4 m c) fun w => A_eq4 (E4 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c :=
    (show (iprop((∃ r, prngReg c r) ∗ Pipeline.prefHeld (pcfgs (F := F) 4).pre c (fun _ => fullShare) (adm (F := F) 4).1
          ∗ Pipeline.scopedRest spec4 c) : sProp 𝕄) ⊢ Pipeline.ΦA spec4 c from by
      unfold Pipeline.ΦA
      iintro ⟨Hp, -, Hr⟩
      isplitl [Hr]; · iexact Hr
      iexact Hp).trans (hin4 (E4 m) c)
  hout c :=
    (hout4 (E4 m) c).trans (show (Pipeline.ΦA spec4 c : sProp 𝕄)
        ⊢ iprop((∃ r, prngReg c r) ∗ Pipeline.ownSems0 (fun k : PEmpty => k.elim) c ∗ Pipeline.scopedRest spec4 c) from by
      rw [Pipeline.ownSems0_none]; unfold Pipeline.ΦA
      iintro ⟨Hr, Hp⟩
      isplitl [Hp]; · iexact Hp
      isplitr; · iempintro
      iexact Hr)
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (E4 m c) (fun b : Ref sig .tc => W6 m c b) ((pdats m 4 c).arrAt · cfg4.N) (hF4 m c) (hrest4 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as the six items, and the launch -/

abbrev items : List (Pipeline.Seg (pcfgs (F := F)) adm (pdats m) () defs₀ 𝒱₀ L lv) :=
  [ .region (reg0 m), .host (hostItem m), .region (reg1 m), .region (reg2 m), .region (reg3 m), .region (reg4 m) ]

theorem main_run (c : Dev nD) : main (F := F) c = Pipeline.Seg.run (items m) := (main_chain c).trans (by chain_rfl)

set_option backward.isDefEq.respectTransparency.types false in
/-- Every weakly fair execution of @main from memory `m` with zero counters terminates, nothing faulting, and the final
    memory holds every unscoped buffer of every core at `W6`. -/
theorem run_all (ρ : Dev nD → PrngReg) : θ_run defs (onTc (τ := τ) (main (F := F))) ⟨m, fun _ => 0, ρ⟩
    (fun r => ∀ c : Dev nD, ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

/-- The frame: every weakly fair execution terminates, nothing faulting, and the six argument arrays end as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c)⟩) (run_all m ρ)

end Cert.KernelIdeal.Hand

end
-- ==== Proof.Spec.lean ====
/-
  The mathematics both programs compute, as functions of the argument arrays, over the extended reals.

  From a square matrix `A` the graph has an edge u → v of weight `adj A u v`: one if `A[u,v]` is at least the
  threshold 0.04 (the float word both programs print), plus one more on the diagonal (the self loop added on top of a
  surviving diagonal entry). `outDeg` and `inDeg` are its row and column sums; `isq d` is `1 / sqrt (max d 1)`.
  One graph convolution sends node features `H` to `relu ((Cᵀ · ((H ∘ isq outDeg) · W)) ∘ isq inDeg + b)`:
  `proj` is the inner product `(H[u,:] · isq (outDeg u)) · W[:,d]`, `conv` the aggregation over the sources `u` of
  node `v`, scaled by the target's degree, shifted by the bias and clamped at zero. The certified result is
  `layer A X W1 b1` and `layer A (layer A X W1 b1) W2 b2`.
-/
import Idealize.ShloMosaic.PureOps.Ideal
import Idealize.ShloMosaic.Lib.ValueIdx

noncomputable section

open scoped BigOperators

namespace Cert.Gcn

open Idealize.ShloMosaic Idealize.ShloMosaic.ValueIdx

abbrev SNN : Shape := ⟨2, ![4096, 4096]⟩
abbrev SND : Shape := ⟨2, ![4096, 256]⟩
abbrev SDD : Shape := ⟨2, ![256, 256]⟩
abbrev SN : Shape := ⟨1, ![4096]⟩
abbrev SD : Shape := ⟨1, ![256]⟩

/-- The threshold, 0.04 as the float word both programs carry. -/
def thr : EReal := Ideal.ofBits .f32 0x3D23D70A#32

/-- The indicator of a decidable proposition as an extended real. -/
def ind (p : Prop) [Decidable p] : EReal := if p then 1 else 0

/-- The weight of the edge u → v: the thresholded entry plus the self loop. -/
def adj (A : SNN.Idx → EReal) (u v : Fin 4096) : EReal := ind (thr ≤ A (ix2 u v)) + ind (u.val = v.val)

/-- A node's out-degree: its row of edge weights summed. -/
def outDeg (A : SNN.Idx → EReal) (u : Fin 4096) : EReal := ∑ v : Fin 4096, adj A u v

/-- A node's in-degree: its column of edge weights summed. -/
def inDeg (A : SNN.Idx → EReal) (v : Fin 4096) : EReal := ∑ u : Fin 4096, adj A u v

/-- The degree normaliser: the inverse square root of the degree clamped below at one. -/
def isq (d : EReal) : EReal := Ideal.rsqrt (max d 1)

/-- The projected feature of source node `u`, column `d`: its features scaled by its out-degree normaliser, times `W`. -/
def proj (A : SNN.Idx → EReal) (H : SND.Idx → EReal) (W : SDD.Idx → EReal) (u : Fin 4096) (d : Fin 256) : EReal :=
  ∑ k : Fin 256, (H (ix2 u k) * isq (outDeg A u)) * W (ix2 k d)

/-- One graph convolution at node `v`, column `d`. -/
def conv (A : SNN.Idx → EReal) (H : SND.Idx → EReal) (W : SDD.Idx → EReal) (b : SD.Idx → EReal) (v : Fin 4096) (d : Fin 256) : EReal :=
  max ((∑ u : Fin 4096, adj A u v * proj A H W u d) * isq (inDeg A v) + b (ix1 d)) 0

/-- One layer as an array. -/
def layer (A : SNN.Idx → EReal) (H : SND.Idx → EReal) (W : SDD.Idx → EReal) (b : SD.Idx → EReal) : SND.Idx → EReal :=
  fun j => conv A H W b (j 0) (j 1)

/-- Rows of `X` scaled by `s`, times `W`: what one projection call leaves, as a function of the arrays it reads. -/
def scaleMat (X : SND.Idx → EReal) (s : SN.Idx → EReal) (W : SDD.Idx → EReal) : SND.Idx → EReal :=
  fun j => ∑ k : Fin 256, (X (ix2 (j 0) k) * s (ix1 (j 0))) * W (ix2 k (j 1))

/-- The columns of `C` against `P`, scaled by `s`, shifted by `b`, clamped at zero: what one aggregation call leaves,
    as a function of the arrays it reads. -/
def aggr (C : SNN.Idx → EReal) (P : SND.Idx → EReal) (s : SN.Idx → EReal) (b : SD.Idx → EReal) : SND.Idx → EReal :=
  fun j => max ((∑ u : Fin 4096, C (ix2 u (j 0)) * P (ix2 u (j 1))) * s (ix1 (j 0)) + b (ix1 (j 1))) 0

theorem layer_apply (A : SNN.Idx → EReal) (H : SND.Idx → EReal) (W : SDD.Idx → EReal) (b : SD.Idx → EReal) (v : Fin 4096) (d : Fin 256) :
    layer A H W b (ix2 v d) = conv A H W b v d := rfl

end Cert.Gcn

end
-- ==== Proof.LibBlockSum.lean ====
/-
  A sum over `Fin (nb * bs)` read block by block.

  The indices below `nb * bs` are the pairs (block `b`, offset `r`) through `b * bs + r`; a sum over all of them is
  the sum over the blocks of the sums inside each block. In any commutative additive monoid, so also in the extended
  reals, where only commutativity and associativity of addition are used. `accum` is the running total a loop keeps
  when it starts from `z` and adds one block's sum per step.
-/
import Mathlib.Algebra.BigOperators.Fin
import Mathlib.Logic.Equiv.Fin.Basic

open scoped BigOperators

namespace Cert.LibBlockSum

/-- The index of offset `r` inside block `b`. -/
def blockIdx {nb bs : ℕ} (b : Fin nb) (r : Fin bs) : Fin (nb * bs) :=
  ⟨b.val * bs + r.val, by
    have hb := b.isLt; have hr := r.isLt
    calc b.val * bs + r.val < b.val * bs + bs := by omega
      _ = (b.val + 1) * bs := (Nat.succ_mul _ _).symm
      _ ≤ nb * bs := Nat.mul_le_mul_right _ hb⟩

@[simp] theorem blockIdx_val {nb bs : ℕ} (b : Fin nb) (r : Fin bs) : (blockIdx b r).val = b.val * bs + r.val := rfl

/-- A sum over `Fin (nb * bs)` is the sum over blocks of the sums inside each block. -/
theorem sum_blocks {M : Type*} [AddCommMonoid M] (nb bs : ℕ) (f : Fin (nb * bs) → M) :
    ∑ i : Fin (nb * bs), f i = ∑ b : Fin nb, ∑ r : Fin bs, f (blockIdx b r) := by
  rw [← Fintype.sum_prod_type']
  refine (Equiv.sum_comp finProdFinEquiv f).symm.trans ?_
  refine Fintype.sum_congr _ _ fun p => ?_
  congr 1
  apply Fin.ext
  simp [finProdFinEquiv, blockIdx, Nat.mul_comm, Nat.add_comm]

/-- The running total after step `n`: `z` plus the first `n + 1` terms, added one at a time from the left. -/
def accum {M : Type*} [AddCommMonoid M] (z : M) (s : ℕ → M) : ℕ → M
  | 0 => z + s 0
  | n + 1 => accum z s n + s (n + 1)

theorem accum_eq {M : Type*} [AddCommMonoid M] (z : M) (s : ℕ → M) (n : ℕ) :
    accum z s n = z + ∑ i ∈ Finset.range (n + 1), s i := by
  induction n with
  | zero => simp [accum]
  | succ n ih => rw [accum, ih, Finset.sum_range_succ _ (n + 1), add_assoc]

end Cert.LibBlockSum
-- ==== Proof.LibKeepdims.lean ====
/-
  Keepdims forms read at an index, and a lane sum as a plain sum.

  A row-wise reduction with `keepdims=True` leaves a vector [a] that is cast to a column [a, 1] and then broadcast
  across the columns to [a, b]; or, for the other operand of an outer sum, cast to a column [b, 1], transposed to a
  row [1, b] and broadcast down the rows to [a, b]. Read at (p, q) the first is the vector at p and the second the
  vector at q. A `[1, b]` block cast to itself and broadcast down the rows reads its one row at q. And at the
  ideal values a sum along the lanes of an [a, b] array, read at row p, is the plain sum over the row.
  All for any extents.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibKeepdims

open Idealize.ShloMosaic Idealize.ShloMosaic.ValueIdx

variable {α : Type}

/-- A vector [a] as a column [a, 1] broadcast across the columns of [a, b]: at (p, q), the vector at p. -/
theorem column_broadcast_apply {a b : ℕ} (v : (⟨1, ![a]⟩ : Shape).Idx → α)
    (h₁ : (⟨1, ![a]⟩ : Shape).ShapeCasts ⟨2, ![a, 1]⟩) (h₂ : (⟨2, ![a, 1]⟩ : Shape).Broadcasts ⟨2, ![a, b]⟩)
    (p : Fin a) (q : Fin b) :
    broadcastTo ⟨2, ![a, b]⟩ (shapeCast ⟨2, ![a, 1]⟩ v h₁) h₂ (ix2 p q) = v (ix1 p) := by
  refine (broadcastTo_apply _ h₂ (ix2 p q) (ix2 p (0 : Fin 1)) fun ax => ?_).trans
    (shapeCast_apply v h₁ _ _ ?_)
  · match ax with
    | ⟨0, _⟩ =>
      show p.val = if a = 1 then 0 else p.val
      split
      · have := p.isLt; omega
      · rfl
    | ⟨1, _⟩ => rfl
  · rw [Shape.rowMajor_val_one, Shape.rowMajor_val_two]
    show p.val = p.val * 1 + 0
    omega

/-- A vector [b] as a column [b, 1], transposed to a row [1, b] and broadcast down the rows of [a, b]: at (p, q),
    the vector at q. -/
theorem row_of_column_broadcast_apply {a b : ℕ} (v : (⟨1, ![b]⟩ : Shape).Idx → α)
    (h₁ : (⟨1, ![b]⟩ : Shape).ShapeCasts ⟨2, ![b, 1]⟩) (h₃ : (⟨2, ![b, 1]⟩ : Shape).Transposes [1, 0] ⟨2, ![1, b]⟩)
    (h₂ : (⟨2, ![1, b]⟩ : Shape).Broadcasts ⟨2, ![a, b]⟩) (p : Fin a) (q : Fin b) :
    broadcastTo ⟨2, ![a, b]⟩ (transpose ⟨2, ![1, b]⟩ [1, 0] (shapeCast ⟨2, ![b, 1]⟩ v h₁) h₃) h₂ (ix2 p q) = v (ix1 q) := by
  refine (broadcastTo_1b_ab_apply _ h₂ p q).trans ((transpose_ix2_apply _ h₃ (0 : Fin 1) q).trans
    (shapeCast_apply v h₁ _ _ ?_))
  rw [Shape.rowMajor_val_one, Shape.rowMajor_val_two]
  show q.val = q.val * 1 + 0
  omega

/-- A [1, b] block cast to its own shape and broadcast down the rows of [a, b]: at (p, q), its one row at q. -/
theorem row_broadcast_apply {a b : ℕ} (v : (⟨2, ![1, b]⟩ : Shape).Idx → α)
    (h₁ : (⟨2, ![1, b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix2 (0 : Fin 1) q) :=
  (broadcastTo_1b_ab_apply _ h₂ p q).trans (congrFun (shapeCast_self v h₁) _)

/-- At the ideal values the sum along the lanes of an [a, b] array from the zero pattern, read at row p, is the
    sum of the row. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ) (p : Fin a) :
    multiReduction (F := Ideal) .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src
      (funext fun ax => Fin.ext (by match ax with | ⟨0, _⟩ => rfl | ⟨1, _⟩ => rfl)))

end Cert.LibKeepdims

end
-- ==== Proof.KI.Value0.lean ====
/-
  What the graph-building region leaves in its three output arrays, as functions of the square matrix `A` it is
  entered with, at the extended reals.

  The region walks the 4096 rows of `A` in eight blocks of 512 rows. At block `t` it forms the 512 × 4096 block of
  edge weights — at (p, q) one if `A[512 t + p, q]` reaches the threshold, plus one more where `512 t + p = q` (the
  self loop) —, stores it (the narrower stored format changes no value), stores the block's row sums, and adds the
  block's column sums into one 4096-vector that starts from zero and is written back after the last block.
  So the edge-weight array ends holding `Gcn.adj A`, the row-sum array each node's out-degree `Gcn.outDeg A`, and the
  column-sum array each node's in-degree `Gcn.inDeg A`: the first two because the eight row blocks tile the rows, the
  third because a sum over 4096 rows is the sum over the eight blocks of the sums inside each block (only
  commutativity and associativity of addition are used).
-/
import proofs.«142270_j68298569941180_1_alg».proof.Proof.KI.Blocks
import proofs.«142270_j68298569941180_1_alg».proof.Proof.Spec
import proofs.«142270_j68298569941180_1_alg».proof.Proof.LibBlockSum
import proofs.«142270_j68298569941180_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.ShloMosaic.ValueIdx Idealize.SL.Sem
open Cert.KernelIdeal Cert.KernelIdeal.Gen
open Idealize.ShloMosaic.Pipeline (Dat)
open scoped BigOperators

variable (V : (c : Dev nD) → (b : Ref sig .tc) → Buf (Elt Ideal) ((c : Thread nD τ).loc b))

namespace Graph0

/-! ## Words: a one-bit flag read as a number, and the row number of a block entry -/

/-- A one-bit word widened to 32 bits and read as a signed integer is 1 when the bit is set and 0 when it is not. -/
theorem bit_signed (b : Bool) : (((((BitVec.ofBool b).setWidth 32).toInt : ℤ) : ℝ) : EReal) = if b then 1 else 0 := by
  cases b
  · have h : ((BitVec.ofBool false).setWidth 32).toInt = 0 := by decide
    rw [h]; simp
  · have h : ((BitVec.ofBool true).setWidth 32).toInt = 1 := by decide
    rw [h]; simp

/-- The indicator of a proposition does not depend on how the proposition is decided. -/
theorem ind_of_decide (P : Prop) [d1 : Decidable P] [d2 : Decidable P] :
    (if @decide P d1 = true then (1 : EReal) else 0) = @Gcn.ind P d2 := by
  unfold Gcn.ind
  by_cases h : P <;> simp [h]

/-- Block `n` (below 8), row `p` (below 512): the 32-bit row number `n · 512 + p` never wraps, so it equals the 32-bit
    column number `q` (below 4096) exactly when the naturals are equal. -/
theorem rowid_eq (n p q : Nat) (hn : n < 8) (hp : p < 512) (hq : q < 4096) :
    (BitVec.ofNat 32 n * 512#32 + BitVec.ofNat 32 p == BitVec.ofNat 32 q) = decide (n * 512 + p = q) := by
  rw [Bool.eq_iff_iff, beq_iff_eq, decide_eq_true_iff, ← BitVec.toNat_inj]
  simp only [BitVec.toNat_add, BitVec.toNat_mul, BitVec.toNat_ofNat]
  omega

/-! ## The body's values at an index -/

/-- The edge-weight block at grid coordinate `i`, entry (p, q): one if the loaded entry reaches the threshold, plus one
    if row `i · 512 + p` of the whole matrix is column `q` (the self loop). -/
theorem edge_apply (i : grid0.Coords) (x : Vec Ideal S512x4096 .f32) (p : Fin 512) (q : Fin 4096) :
    k0_pay1 i x (ix2 p q) = Gcn.ind (Gcn.thr ≤ x (ix2 p q)) + Gcn.ind ((i 0).val * 512 + p.val = q.val) := by
  unfold k0_pay1
  refine (addf_apply _ _ _).trans (congrArg₂ (· + ·) ?_ ?_)
  · show (((((BitVec.ofBool (decide (Gcn.thr ≤ x (ix2 p q)))).setWidth 32).toInt : ℤ) : ℝ) : EReal) = _
    exact (bit_signed _).trans (ind_of_decide _)
  · have e0 : iota .tc S512x4096 32 [0] iota_S512x4096_d0_w32 (ix2 p q) = BitVec.ofNat 32 p.val :=
      iota_single_apply .tc S512x4096 32 0 _ (ix2 p q)
    have e1 : iota .tc S512x4096 32 [1] iota_S512x4096_d1_w32 (ix2 p q) = BitVec.ofNat 32 q.val :=
      iota_single_apply .tc S512x4096 32 1 _ (ix2 p q)
    show (((((BitVec.ofBool (BitVec.ofNat 32 (i 0).val * 512#32 + iota .tc S512x4096 32 [0] iota_S512x4096_d0_w32 (ix2 p q)
      == iota .tc S512x4096 32 [1] iota_S512x4096_d1_w32 (ix2 p q))).setWidth 32).toInt : ℤ) : ℝ) : EReal) = _
    rw [e0, e1, rowid_eq _ _ _ (i 0).isLt p.isLt q.isLt]
    exact (bit_signed _).trans (ind_of_decide _)

/-- The stored block is the same numbers: narrowing the format changes no value. -/
theorem stored_apply (i : grid0.Coords) (x : Vec Ideal S512x4096 .f32) (y : S512x4096.Idx) :
    k0_pay2 i x y = k0_pay1 i x y := rfl

/-- The row sums of the block: entry `p` is the sum of row `p` over the 4096 columns. -/
theorem rowsum_apply (i : grid0.Coords) (x : Vec Ideal S512x4096 .f32) (p : Fin 512) :
    k0_pay3 i x (ix1 p) = ∑ q : Fin 4096, k0_pay1 i x (ix2 p q) :=
  Cert.LibKeepdims.lane_sum_apply (a := 512) (b := 4096) (k0_pay1 i x) reduces_S512x4096_S512 (.inl rfl) rfl p

/-- The sum down the rows of a 512 × 4096 block, at column `q`: the sum of column `q` over the 512 rows. -/
theorem colsum_apply (src : FVec Ideal S512x4096 .f32) (q : Fin 4096) :
    multiReduction (F := Ideal) .add [0] S4096 src 0x00000000#32 reduces_S512x4096_S4096 (.inl rfl) rfl (ix1 q)
      = ∑ r : Fin 512, src (ix2 r q) :=
  (Ideal.multiReduction_add_single src _ reduces_S512x4096_S4096 (.inl rfl) rfl (ix1 q)).trans
    (Finset.sum_congr rfl fun r _ => congrArg src
      (funext fun ax => Fin.ext (by match ax with | ⟨0, _⟩ => rfl | ⟨1, _⟩ => rfl)))

/-- The carried column sums after a point: what they were, plus this block's column sums. -/
theorem carried_apply (i : grid0.Coords) (x : Vec Ideal S512x4096 .f32) (v : Vec Ideal S4096 .f32) (q : Fin 4096) :
    k0_pay5 i x v (ix1 q) = v (ix1 q) + ∑ r : Fin 512, k0_pay1 i x (ix2 r q) := by
  unfold k0_pay5
  refine (addf_apply _ _ _).trans (congrArg₂ (· + ·) ?_ (colsum_apply _ q))
  exact congrFun (shapeCast_self v shapeCasts_S4096_S4096) _

/-- The column sums start from zero. -/
theorem start_apply (q : Fin 4096) : (k0_pay4 (F := Ideal)) (ix1 q) = 0 := Ideal.ofBits_zero_f32

/-! ## The blocks of the input matrix and where the outputs' blocks sit -/

/-- The whole-matrix row of row `p` of block `t`: `t · 512 + p`. -/
abbrev rowOf (t : Fin cfg0.N) (p : Fin 512) : Fin 4096 :=
  Cert.LibBlockSum.blockIdx (nb := 8) (bs := 512) ⟨t.val, lt_of_lt_of_eq t.isLt N_0⟩ p

/-- The grid is one axis: the point's one coordinate is the point. -/
theorem coord0 : ∀ t : Fin cfg0.N, (grid0.coords t 0).val = t.val :=
  (by decide +kernel : ∀ t : Fin grid0.N, (grid0.coords t 0).val = t.val)

/-- Where each window's block sits at point `t`: the matrix windows at block row `t`, block column 0; the row-sum window
    at block `t`; the column-sum window always at block 0. -/
theorem where0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 1) = t.val ∧ win0_3.index t (0 : Fin 1) = 0 :=
  (by decide +kernel : ∀ t : Fin grid0.N, _)

/-- The input block at point `t`, entry (p, q), is the matrix at (t · 512 + p, q). -/
theorem ablock_apply (c : Dev nD) (t : Fin cfg0.N) (p : Fin 512) (q : Fin 4096) :
    (iblk0 V c 0 t : Vec Ideal S512x4096 .f32) (ix2 p q) = (V c main_arg0 : S4096x4096.Idx → EReal) (ix2 (rowOf t p) q) := by
  obtain ⟨e0, e1, -⟩ := where0 t
  unfold iblk0
  rw [View.read_apply]
  show (V c main_arg0 : S4096x4096.Idx → EReal) _ = (V c main_arg0 : S4096x4096.Idx → EReal) _
  congr 1
  funext a
  apply Fin.ext
  match a with
  | ⟨0, _⟩ => show win0_0.index t (0 : Fin 2) * 512 + 1 * p.val = t.val * 512 + p.val; rw [e0]; omega
  | ⟨1, _⟩ => show win0_0.index t (1 : Fin 2) * 4096 + 1 * q.val = q.val; rw [e1]; omega

/-- So the edge-weight block of point `t` holds the graph's edge weights of rows `t · 512 …`. -/
theorem edge_block (c : Dev nD) (t : Fin cfg0.N) (p : Fin 512) (q : Fin 4096) :
    k0_pay1 (grid0.coords t) (iblk0 V c 0 t) (ix2 p q) = Gcn.adj (V c main_arg0) (rowOf t p) q := by
  refine (edge_apply (grid0.coords t) (iblk0 V c 0 t) p q).trans ?_
  rw [ablock_apply V c t p q, coord0 t]
  rfl

/-- Edge weights at equal node numbers are equal. -/
theorem adj_congr (A : Gcn.SNN.Idx → EReal) {u u' v v' : Fin 4096} (hu : u.val = u'.val) (hv : v.val = v'.val) :
    Gcn.adj A u v = Gcn.adj A u' v' := by
  rw [Fin.ext hu, Fin.ext hv]

/-! ## Which indices an output block covers -/

/-- An index of the edge-weight array is in point `t`'s block iff each coordinate is in the block's range on its axis. -/
theorem mem_edge_blk (t : Fin cfg0.N) (i : S4096x4096.Idx) :
    i ∈ ((cfg0.win 1).blk t).view.set ↔ ∀ a : Fin 2, win0_1.index t a * S512x4096.size a ≤ (i a).val
      ∧ (i a).val < win0_1.index t a * S512x4096.size a + S512x4096.size a := by
  show i ∈ ((View.whole main_v0_0).slice (win0_1.rect t)).set ↔ _
  rw [View.set_slice_whole, Rect.mem_set_unit]
  exact Iff.rfl

/-! ## Row sums and column sums: the blocks, and the eight blocks' column sums added up -/

/-- Out-degrees at equal node numbers are equal. -/
theorem outDeg_congr (A : Gcn.SNN.Idx → EReal) {u u' : Fin 4096} (hu : u.val = u'.val) : Gcn.outDeg A u = Gcn.outDeg A u' := by
  rw [Fin.ext hu]

/-- An index of the row-sum array is in point `t`'s block iff it is in the block's range. -/
theorem mem_rowsum_blk (t : Fin cfg0.N) (i : S4096.Idx) :
    i ∈ ((cfg0.win 2).blk t).view.set ↔ ∀ a : Fin 1, win0_2.index t a * S512.size a ≤ (i a).val
      ∧ (i a).val < win0_2.index t a * S512.size a + S512.size a := by
  show i ∈ ((View.whole main_v0_1).slice (win0_2.rect t)).set ↔ _
  rw [View.set_slice_whole, Rect.mem_set_unit]
  exact Iff.rfl

/-- The column sum, at column `q`, of the edge weights in the rows of block `b` (nothing past the eighth block). -/
def colBlock (A : Gcn.SNN.Idx → EReal) (q : Fin 4096) (b : ℕ) : EReal :=
  if h : b < 8 then ∑ r : Fin 512, Gcn.adj A (Cert.LibBlockSum.blockIdx (nb := 8) (bs := 512) ⟨b, h⟩ r) q else 0

/-- After point `n` the carried vector holds, at column `q`, zero plus the column sums of blocks 0 … n added one block
    at a time. -/
theorem carried_eq (c : Dev nD) (q : Fin 4096) : ∀ (n : ℕ) (h : n < cfg0.N),
    (colAt0 V c n h : Vec Ideal S4096 .f32) (ix1 q) = Cert.LibBlockSum.accum 0 (colBlock (V c main_arg0) q) n
  | 0, h => by
    rw [colAt0_zero]
    refine (carried_apply _ _ _ q).trans ?_
    rw [start_apply]
    show (0 : EReal) + _ = 0 + colBlock (V c main_arg0) q 0
    refine congrArg (fun z => (0 : EReal) + z) ?_
    unfold colBlock
    rw [dif_pos (by decide)]
    exact Finset.sum_congr rfl fun r _ => edge_block V c ⟨0, h⟩ r q
  | n + 1, h => by
    have hn : n + 1 < 8 := lt_of_lt_of_eq h N_0
    rw [colAt0_succ]
    refine (carried_apply _ _ _ q).trans ?_
    rw [carried_eq c q n (Nat.lt_of_succ_lt h)]
    show _ + _ = Cert.LibBlockSum.accum 0 (colBlock (V c main_arg0) q) n + colBlock (V c main_arg0) q (n + 1)
    refine congrArg (fun z => Cert.LibBlockSum.accum 0 (colBlock (V c main_arg0) q) n + z) ?_
    unfold colBlock
    rw [dif_pos hn]
    exact Finset.sum_congr rfl fun r _ => edge_block V c ⟨n + 1, h⟩ r q

/-- The eight blocks' column sums added in order are the whole column's sum: the node's in-degree. -/
theorem inDeg_blocks (A : Gcn.SNN.Idx → EReal) (q : Fin 4096) :
    Cert.LibBlockSum.accum 0 (colBlock A q) 7 = Gcn.inDeg A q := by
  rw [Cert.LibBlockSum.accum_eq, zero_add]
  show ∑ b ∈ Finset.range 8, colBlock A q b = _
  rw [Finset.sum_range]
  unfold Gcn.inDeg
  refine Eq.trans ?_ (Cert.LibBlockSum.sum_blocks 8 512 (fun u => Gcn.adj A u q)).symm
  refine Finset.sum_congr rfl fun b _ => ?_
  unfold colBlock
  rw [dif_pos b.isLt]

/-- An index of the column-sum array is in point `t`'s block iff it is in the block's range. -/
theorem mem_colsum_blk (t : Fin cfg0.N) (i : S4096.Idx) :
    i ∈ ((cfg0.win 3).blk t).view.set ↔ ∀ a : Fin 1, win0_3.index t a * S4096.size a ≤ (i a).val
      ∧ (i a).val < win0_3.index t a * S4096.size a + S4096.size a := by
  show i ∈ ((View.whole main_v0_2).slice (win0_3.rect t)).set ↔ _
  rw [View.set_slice_whole, Rect.mem_set_unit]
  exact Iff.rfl

end Graph0

open Graph0

/-! ## The three arrays after the region -/

/-- After the region the edge-weight array holds the graph's edge weights: point `t` writes rows `512 t … 512 t + 511`,
    and the eight points' row blocks tile the 4096 rows. -/
theorem final0_1 (c : Dev nD) (dat : Dat τ (Elt Ideal) Unit ℕ (UR sig nD τ) ℕ cfg0 c)
    (hA : ∀ w, dat.A w = V c (Pipeline.arrRef spec0 w))
    (h1 : ∀ t, dat.after 1 t = k0_pay2 (grid0.coords t) (iblk0 V c 0 t)) :
    dat.arrAt 1 cfg0.N = fun j => Gcn.adj (V c main_arg0) (j 0) (j 1) := by
  refine dat.arrAt_eq_of_cover 1 (fun j => Gcn.adj (V c main_arg0) (j 0) (j 1)) (fun t _ => ?_) (fun i => ?_)
  · show (cfg0.win 1).cut (grid0.coords t) (dat.after 1 t) = _
    rw [h1 t]
    funext y
    obtain ⟨p, q, rfl⟩ : ∃ (p : Fin 512) (q : Fin 4096), y = ix2 p q := ⟨y 0, y 1, eq_ix2 y⟩
    obtain ⟨-, -, e0, e1, -⟩ := where0 t
    rw [View.read_apply]
    show k0_pay1 (grid0.coords t) (iblk0 V c 0 t) (ix2 p q) = Gcn.adj (V c main_arg0) _ _
    rw [edge_block V c t p q]
    refine adj_congr _ ?_ ?_
    · show t.val * 512 + p.val = win0_1.index t (0 : Fin 2) * 512 + 1 * p.val; rw [e0]; omega
    · show q.val = win0_1.index t (1 : Fin 2) * 4096 + 1 * q.val; rw [e1]; omega
  · have hi0 : (i 0).val < 4096 := (i 0).isLt
    have hi1 : (i 1).val < 4096 := (i 1).isLt
    have hN : cfg0.N = 8 := N_0
    obtain ⟨t, ht⟩ : ∃ t : Fin cfg0.N, t.val = (i 0).val / 512 := ⟨⟨(i 0).val / 512, by rw [hN]; omega⟩, rfl⟩
    refine ⟨t, flush0_1 t, ?_⟩
    rw [mem_edge_blk]
    obtain ⟨-, -, e0, e1, -⟩ := where0 t
    intro a
    match a with
    | ⟨0, _⟩ =>
      show win0_1.index t (0 : Fin 2) * 512 ≤ (i 0).val ∧ (i 0).val < win0_1.index t (0 : Fin 2) * 512 + 512
      rw [e0]; omega
    | ⟨1, _⟩ =>
      show win0_1.index t (1 : Fin 2) * 4096 ≤ (i 1).val ∧ (i 1).val < win0_1.index t (1 : Fin 2) * 4096 + 4096
      rw [e1]; omega

/-- After the region the row-sum array holds every node's out-degree: point `t` writes the sums of rows
    `512 t … 512 t + 511` of the edge weights, and the eight blocks tile the 4096 nodes. -/
theorem final0_2 (c : Dev nD) (dat : Dat τ (Elt Ideal) Unit ℕ (UR sig nD τ) ℕ cfg0 c)
    (hA : ∀ w, dat.A w = V c (Pipeline.arrRef spec0 w))
    (h2 : ∀ t, dat.after 2 t = k0_pay3 (grid0.coords t) (iblk0 V c 0 t)) :
    dat.arrAt 2 cfg0.N = fun j => Gcn.outDeg (V c main_arg0) (j 0) := by
  refine dat.arrAt_eq_of_cover 2 (fun j => Gcn.outDeg (V c main_arg0) (j 0)) (fun t _ => ?_) (fun i => ?_)
  · show (cfg0.win 2).cut (grid0.coords t) (dat.after 2 t) = _
    rw [h2 t]
    funext y
    obtain ⟨p, rfl⟩ : ∃ p : Fin 512, y = ix1 p := ⟨y 0, eq_ix1 y⟩
    obtain ⟨-, -, -, -, e0, -⟩ := where0 t
    rw [View.read_apply]
    show k0_pay3 (grid0.coords t) (iblk0 V c 0 t) (ix1 p) = Gcn.outDeg (V c main_arg0) _
    refine (rowsum_apply _ _ p).trans ?_
    refine (Finset.sum_congr rfl fun q _ => edge_block V c t p q).trans ?_
    refine outDeg_congr _ (u := rowOf t p) ?_
    show t.val * 512 + p.val = win0_2.index t (0 : Fin 1) * 512 + 1 * p.val
    rw [e0]; omega
  · have hi0 : (i 0).val < 4096 := (i 0).isLt
    have hN : cfg0.N = 8 := N_0
    obtain ⟨t, ht⟩ : ∃ t : Fin cfg0.N, t.val = (i 0).val / 512 := ⟨⟨(i 0).val / 512, by rw [hN]; omega⟩, rfl⟩
    refine ⟨t, flush0_2 t, ?_⟩
    rw [mem_rowsum_blk]
    obtain ⟨-, -, -, -, e0, -⟩ := where0 t
    intro a
    match a with
    | ⟨0, _⟩ =>
      show win0_2.index t (0 : Fin 1) * 512 ≤ (i 0).val ∧ (i 0).val < win0_2.index t (0 : Fin 1) * 512 + 512
      rw [e0]; omega

/-- After the region the column-sum array holds every node's in-degree: its one block is written back once, at the
    last point, holding the eight blocks' column sums added in order. -/
theorem final0_3 (c : Dev nD) (dat : Dat τ (Elt Ideal) Unit ℕ (UR sig nD τ) ℕ cfg0 c)
    (hA : ∀ w, dat.A w = V c (Pipeline.arrRef spec0 w))
    (h3 : ∀ t, dat.after 3 t = colAt0 V c t.val t.isLt) :
    dat.arrAt 3 cfg0.N = fun j => Gcn.inDeg (V c main_arg0) (j 0) := by
  have hN : cfg0.N = 8 := N_0
  refine dat.arrAt_eq_of_cover 3 (fun j => Gcn.inDeg (V c main_arg0) (j 0)) (fun t hf => ?_) (fun i => ?_)
  · have h7 : t.val = 7 := by have := (flush0_3 t).mp hf; have := lt_of_lt_of_eq t.isLt N_0; omega
    show (cfg0.win 3).cut (grid0.coords t) (dat.after 3 t) = _
    rw [h3 t]
    funext y
    obtain ⟨q, rfl⟩ : ∃ q : Fin 4096, y = ix1 q := ⟨y 0, eq_ix1 y⟩
    obtain ⟨-, -, -, -, -, e0⟩ := where0 t
    rw [View.read_apply]
    show (colAt0 V c t.val t.isLt : Vec Ideal S4096 .f32) (ix1 q) = Gcn.inDeg (V c main_arg0) _
    rw [carried_eq V c q t.val t.isLt, h7, inDeg_blocks]
    refine congrArg (Gcn.inDeg (V c main_arg0)) (Fin.ext ?_)
    show q.val = win0_3.index t (0 : Fin 1) * 4096 + 1 * q.val
    rw [e0]; omega
  · have hi0 : (i 0).val < 4096 := (i 0).isLt
    obtain ⟨t, ht⟩ : ∃ t : Fin cfg0.N, t.val = 7 := ⟨⟨7, by rw [hN]; decide⟩, rfl⟩
    refine ⟨t, (flush0_3 t).mpr (by rw [ht]), ?_⟩
    rw [mem_colsum_blk]
    obtain ⟨-, -, -, -, -, e0⟩ := where0 t
    intro a
    match a with
    | ⟨0, _⟩ =>
      show win0_3.index t (0 : Fin 1) * 4096 ≤ (i 0).val ∧ (i 0).val < win0_3.index t (0 : Fin 1) * 4096 + 4096
      rw [e0]; omega

end Cert.KernelIdeal.Hand

end
-- ==== Proof.KI.Value1.lean ====
/-
  The first projection (the scale-and-multiply region entered first): what its output array holds afterwards.

  The region walks four blocks of 1024 rows. At block t it reads rows 1024 t … 1024 t + 1023 of the 4096 × 256 feature
  array and of the 4096-vector of scales, and the whole 256 × 256 weight matrix; it multiplies each row of the feature
  block by that row's scale and the result by the weight matrix, and writes the 1024 × 256 product to rows
  1024 t … of the output. At the ideal values the changes of format are the identity and the product into a zero
  accumulator is a plain sum over the 256 contracted indices, so entry (v, d) of the output ends as
      ∑ k, (feature (v, k) · scale v) · weight (k, d),
  the function `Cert.Gcn.scaleMat` of the three arrays the region is entered with. The four blocks tile the output
  (row r lies in block r / 1024), so this holds at every index.
-/
import proofs.«142270_j68298569941180_1_alg».proof.Proof.KI.Blocks
import proofs.«142270_j68298569941180_1_alg».proof.Proof.Spec
import proofs.«142270_j68298569941180_1_alg».proof.Proof.LibBlockSum
import proofs.«142270_j68298569941180_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-! ## The product of a row-scaled 1024 × 256 block with a 256 × 256 matrix, read at an entry -/

/-- Left operand of the contraction over axis 1 of the left and axis 0 of the right: its row is the output's row. -/
theorem scaledLhs_row (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide),
    dif_pos (show (0 : Fin S1024x256.rank) ∈ dot_S1024x256_S256x256_S1024x256_1_0_0_1_n_n.lhsNonContracting by decide)]
  rfl
/-- Its column is the contracted index. -/
theorem scaledLhs_col (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
/-- Right operand: its row is the contracted index. -/
theorem weightRhs_row (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
/-- Its column is the output's column. -/
theorem weightRhs_col (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide),
    dif_pos (show (1 : Fin S256x256.rank) ∈ dot_S1024x256_S256x256_S1024x256_1_0_0_1_n_n.rhsNonContracting by decide)]
  rfl

/-- The matrix product into the zero accumulator at entry (p, d): the sum over the 256 contracted indices k of
    left (p, k) times right (k, d). -/
theorem blockProduct_apply (l : FVec Ideal S1024x256 .bf16) (r : FVec Ideal S256x256 .bf16) (p : Fin 1024) (d : Fin 256) :
    matmul dot_S1024x256_S256x256_S1024x256_1_0_0_1_n_n none l r (constant (F := Ideal) S1024x256 .f32 0x00000000#32) (ix2 p d)
      = ∑ k : Fin 256, l (ix2 p k) * r (ix2 k d) := by
  show FloatOps.matmul dot_S1024x256_S256x256_S1024x256_1_0_0_1_n_n none l r (constant (F := Ideal) S1024x256 .f32 0x00000000#32) (ix2 p d) = _
  rw [Ideal.matmul_constant_zero_apply, ← Equiv.sum_comp (contrEquiv1 dot_S1024x256_S256x256_S1024x256_1_0_0_1_n_n 256 rfl rfl).symm]
  refine Finset.sum_congr rfl fun k _ => ?_
  have hk := contrEquiv1_symm_val dot_S1024x256_S256x256_S1024x256_1_0_0_1_n_n 256 rfl rfl k
  have el : dot_S1024x256_S256x256_S1024x256_1_0_0_1_n_n.lhsIdx (ix2 p d) ((contrEquiv1 dot_S1024x256_S256x256_S1024x256_1_0_0_1_n_n 256 rfl rfl).symm k) = ix2 p k :=
    funext fun a => Fin.ext (by
      match a with
      | ⟨0, _⟩ => exact scaledLhs_row _ _
      | ⟨1, _⟩ => exact (scaledLhs_col _ _).trans hk)
  have er : dot_S1024x256_S256x256_S1024x256_1_0_0_1_n_n.rhsIdx (ix2 p d) ((contrEquiv1 dot_S1024x256_S256x256_S1024x256_1_0_0_1_n_n 256 rfl rfl).symm k) = ix2 k d :=
    funext fun a => Fin.ext (by
      match a with
      | ⟨0, _⟩ => exact (weightRhs_row _ _).trans hk
      | ⟨1, _⟩ => exact weightRhs_col _ _)
  rw [el, er]

/-- Region 1's block at entry (p, d): each row p of the feature block is multiplied by the p-th scale, and the result
    is multiplied by the weight matrix; the changes of format are the identity at the ideal values. -/
theorem k1_pay1_apply (x : Vec Ideal S1024x256 .f32) (s : Vec Ideal S1024 .f32) (w : Vec Ideal S256x256 .f32) (p : Fin 1024) (d : Fin 256) :
    k1_pay1 x s w (ix2 p d) = ∑ k : Fin 256, (x (ix2 p k) * s (ix1 p)) * w (ix2 k d) := by
  unfold k1_pay1
  rw [truncf_apply, blockProduct_apply]
  refine Finset.sum_congr rfl fun k _ => ?_
  rw [truncf_apply, truncf_apply, mulf_apply, shapeCast_self, Cert.LibKeepdims.column_broadcast_apply]

/-! ## Region 1's blocks in their arrays -/

/-- The block indices of region 1's four windows at grid point t: the feature block, the scale block and the output
    block are block t along the rows; the weight matrix is one block. -/
theorem blockIndices1 : ∀ t : Fin cfg1.N, win1_0.index t (0 : Fin 2) = t.val ∧ win1_0.index t (1 : Fin 2) = 0
    ∧ win1_1.index t (0 : Fin 1) = t.val
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Entry (p, k) of the feature block at point t is entry (1024 t + p, k) of the feature array. -/
theorem featBlock1_apply (c : Dev nD) (t : Fin cfg1.N) (p : Fin 1024) (k : Fin 256) (r : Fin 4096) (hr : r.val = t.val * 1024 + p.val) :
    iblk1 V c 0 t (ix2 p k) = (V c main_arg1 : S4096x256.Idx → EReal) (ix2 r k) := by
  unfold iblk1
  rw [View.read_apply]
  show (V c main_arg1 : S4096x256.Idx → EReal) (((cfg1.win 0).blk t).view.emb (ix2 p k)) = _
  refine congrArg _ (funext fun a => Fin.ext ?_)
  obtain ⟨e0, e1, -⟩ := blockIndices1 t
  match a with
  | ⟨0, _⟩ => show win1_0.index t (0 : Fin 2) * 1024 + 1 * p.val = r.val; omega
  | ⟨1, _⟩ => show win1_0.index t (1 : Fin 2) * 256 + 1 * k.val = k.val; omega

/-- Entry p of the scale block at point t is entry 1024 t + p of the scale vector. -/
theorem scaleBlock1_apply (c : Dev nD) (t : Fin cfg1.N) (p : Fin 1024) (r : Fin 4096) (hr : r.val = t.val * 1024 + p.val) :
    iblk1 V c 1 t (ix1 p) = (V c main_v3 : S4096.Idx → EReal) (ix1 r) := by
  unfold iblk1
  rw [View.read_apply]
  show (V c main_v3 : S4096.Idx → EReal) (((cfg1.win 1).blk t).view.emb (ix1 p)) = _
  refine congrArg _ (funext fun a => Fin.ext ?_)
  obtain ⟨-, -, e2, -⟩ := blockIndices1 t
  match a with
  | ⟨0, _⟩ => show win1_1.index t (0 : Fin 1) * 1024 + 1 * p.val = r.val; omega

/-- The weight block at every point is the whole weight matrix. -/
theorem weightBlock1_apply (c : Dev nD) (t : Fin cfg1.N) (k d : Fin 256) :
    iblk1 V c 2 t (ix2 k d) = (V c main_arg2 : S256x256.Idx → EReal) (ix2 k d) := by
  unfold iblk1
  rw [View.read_apply]
  show (V c main_arg2 : S256x256.Idx → EReal) (((cfg1.win 2).blk t).view.emb (ix2 k d)) = _
  refine congrArg _ (funext fun a => Fin.ext ?_)
  obtain ⟨-, -, -, e3, e4, -⟩ := blockIndices1 t
  match a with
  | ⟨0, _⟩ => show win1_2.index t (0 : Fin 2) * 256 + 1 * k.val = k.val; omega
  | ⟨1, _⟩ => show win1_2.index t (1 : Fin 2) * 256 + 1 * d.val = d.val; omega

/-! ## The output array of region 1 -/

/-- What point t writes back is block t of the row-scaled product of the feature array, the scale vector and the
    weight matrix region 1 is entered with. -/
theorem flushed1_3_eq (c : Dev nD) (dat : Dat τ (Elt Ideal) Unit ℕ (UR sig nD τ) ℕ cfg1 c)
    (h3 : ∀ t, dat.after 3 t = k1_pay1 (iblk1 V c 0 t) (iblk1 V c 1 t) (iblk1 V c 2 t)) (t : Fin cfg1.N) :
    dat.flushed 3 t = ((cfg1.win 3).blk t).view.read (Elt Ideal)
      (Cert.Gcn.scaleMat (V c main_arg1) (V c main_v3) (V c main_arg2)) := by
  show (cfg1.win 3).cut (grid1.coords t) (dat.after 3 t) = _
  rw [h3]
  funext y
  obtain ⟨-, -, -, -, -, e5, e6⟩ := blockIndices1 t
  have hp : (y 0).val < 1024 := (y 0).isLt
  have hd : (y 1).val < 256 := (y 1).isLt
  have ht : t.val < 4 := t.isLt
  have hy : (cfg1.win 3).xinj (grid1.coords t) y = ix2 ⟨(y 0).val, hp⟩ ⟨(y 1).val, hd⟩ :=
    funext fun a => by match a with | ⟨0, _⟩ => rfl | ⟨1, _⟩ => rfl
  rw [View.read_apply]
  show k1_pay1 (iblk1 V c 0 t) (iblk1 V c 1 t) (iblk1 V c 2 t) ((cfg1.win 3).xinj (grid1.coords t) y)
    = Cert.Gcn.scaleMat (V c main_arg1) (V c main_v3) (V c main_arg2) (((cfg1.win 3).blk t).view.emb y)
  rw [hy, k1_pay1_apply]
  have hr : t.val * 1024 + (y 0).val < 4096 := by omega
  have hrow : (((cfg1.win 3).blk t).view.emb y 0) = (⟨t.val * 1024 + (y 0).val, hr⟩ : Fin 4096) :=
    Fin.ext (by show win1_3.index t (0 : Fin 2) * 1024 + 1 * (y 0).val = t.val * 1024 + (y 0).val; omega)
  have hcol : (((cfg1.win 3).blk t).view.emb y 1) = (⟨(y 1).val, hd⟩ : Fin 256) :=
    Fin.ext (by show win1_3.index t (1 : Fin 2) * 256 + 1 * (y 1).val = (y 1).val; omega)
  unfold Cert.Gcn.scaleMat
  refine Finset.sum_congr rfl fun k _ => ?_
  rw [hrow, hcol, featBlock1_apply V c t ⟨(y 0).val, hp⟩ k ⟨t.val * 1024 + (y 0).val, hr⟩ rfl,
    scaleBlock1_apply V c t ⟨(y 0).val, hp⟩ ⟨t.val * 1024 + (y 0).val, hr⟩ rfl, weightBlock1_apply]

/-- An index of the output array lies in point t's block iff each coordinate lies in the block's range on its axis. -/
theorem mem_outBlock1 (t : Fin cfg1.N) (i : S4096x256.Idx) :
    i ∈ ((cfg1.win 3).blk t).view.set ↔ ∀ a : Fin 2, win1_3.index t a * S1024x256.size a ≤ (i a).val
      ∧ (i a).val < win1_3.index t a * S1024x256.size a + S1024x256.size a := by
  show i ∈ ((View.whole main_v7).slice (win1_3.rect t)).set ↔ _
  rw [View.set_slice_whole, Rect.mem_set_unit]
  exact Iff.rfl

/-- The four row blocks cover the output array: row r lies in block r / 1024. -/
theorem outBlocks1_cover (i : S4096x256.Idx) :
    ∃ t : Fin cfg1.N, (cfg1.win 3).flush t = true ∧ i ∈ ((cfg1.win 3).blk t).view.set := by
  have hi0 : (i 0).val < 4096 := (i 0).isLt
  have hi1 : (i 1).val < 256 := (i 1).isLt
  have hq : (i 0).val / 1024 < cfg1.N := by show _ < 4; omega
  refine ⟨⟨(i 0).val / 1024, hq⟩, flush1_3 _, ?_⟩
  rw [mem_outBlock1]
  obtain ⟨-, -, -, -, -, e5, e6⟩ := blockIndices1 ⟨(i 0).val / 1024, hq⟩
  intro a
  match a with
  | ⟨0, _⟩ =>
    show win1_3.index ⟨(i 0).val / 1024, hq⟩ (0 : Fin 2) * 1024 ≤ (i 0).val
      ∧ (i 0).val < win1_3.index ⟨(i 0).val / 1024, hq⟩ (0 : Fin 2) * 1024 + 1024
    rw [e5]; show (i 0).val / 1024 * 1024 ≤ (i 0).val ∧ (i 0).val < (i 0).val / 1024 * 1024 + 1024; omega
  | ⟨1, _⟩ =>
    show win1_3.index ⟨(i 0).val / 1024, hq⟩ (1 : Fin 2) * 256 ≤ (i 1).val
      ∧ (i 1).val < win1_3.index ⟨(i 0).val / 1024, hq⟩ (1 : Fin 2) * 256 + 256
    rw [e6]; omega

/-- The array region 1 leaves: at every index, the row-scaled product of the arrays it was entered with. -/
theorem final1_3 (c : Dev nD) (dat : Dat τ (Elt Ideal) Unit ℕ (UR sig nD τ) ℕ cfg1 c)
    (hA : ∀ w, dat.A w = V c (Pipeline.arrRef spec1 w))
    (h3 : ∀ t, dat.after 3 t = k1_pay1 (iblk1 V c 0 t) (iblk1 V c 1 t) (iblk1 V c 2 t)) :
    dat.arrAt 3 cfg1.N = Cert.Gcn.scaleMat (V c main_arg1) (V c main_v3) (V c main_arg2) :=
  dat.arrAt_eq_of_cover 3 _ (fun t _ => flushed1_3_eq V c dat h3 t) outBlocks1_cover

end Cert.KernelIdeal.Hand

end
-- ==== Proof.KI.Value2.lean ====
/-
  The first aggregation call, read as values at the extended reals.

  The call walks a 4 × 4 grid: point t = 4·i + k pairs target block i (1024 target nodes) with source block k (1024
  source nodes). It keeps a 1024 × 256 accumulator: zero when k = 0, then at every point increased, at (p, d), by the
  sum over the block's sources q of weight[1024·k + q, 1024·i + p] · feature[1024·k + q, d] — the product of the
  TRANSPOSED weight block with the feature block. After k = 3 the accumulator holds the sum over all 4096 sources;
  there the body scales row p by the target scale at 1024·i + p, adds the bias at d, clamps at zero, and the result
  is written back as rows 1024·i … 1024·i + 1023 of the output. The four write-backs tile the output, so the output
  array is `Gcn.aggr` of the four arrays the call was entered with. Only the commutative-monoid laws of addition on the
  extended reals are used: the sum over 4096 sources is split into four runs of 1024.
-/
import proofs.«142270_j68298569941180_1_alg».proof.Proof.KI.Blocks
import proofs.«142270_j68298569941180_1_alg».proof.Proof.Spec
import proofs.«142270_j68298569941180_1_alg».proof.Proof.LibBlockSum
import proofs.«142270_j68298569941180_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-! ## The three payloads of the aggregation body, read at an index -/

/-- The accumulator is reset to zero everywhere. -/
theorem agg2_reset_apply (p : Fin 1024) (d : Fin 256) : (k2_pay1 (F := Ideal)) (ix2 p d) = 0 := by
  unfold k2_pay1
  refine (congrFun (shapeCast_self _ shapeCasts_S1024x256_S1024x256) (ix2 p d)).trans ?_
  exact Ideal.ofBits_zero_f32

/-- The left operand of the block product is read at (contraction position, output row): on its axis 0 the
    contraction coordinate, -/
theorem agg2_dot_lhs_0 (i : S1024x256.Idx) (q : dot_S1024x1024_S1024x256_S1024x256_0_0_1_1_n_n.contr.Idx) :
    (dot_S1024x1024_S1024x256_S1024x256_0_0_1_1_n_n.lhsIdx i q 0).val = (q ⟨0, by decide⟩).val :=
  dot_S1024x1024_S1024x256_S1024x256_0_0_1_1_n_n.lhsIdx_val_of_single rfl i q
/-- on its axis 1 the output's row coordinate. -/
theorem agg2_dot_lhs_1 (i : S1024x256.Idx) (q : dot_S1024x1024_S1024x256_S1024x256_0_0_1_1_n_n.contr.Idx) :
    (dot_S1024x1024_S1024x256_S1024x256_0_0_1_1_n_n.lhsIdx i q 1).val = (i 0).val := by
  unfold DotDims.lhsIdx
  rw [dif_neg (show ¬(1 : Fin S1024x1024.rank) ∈ dot_S1024x1024_S1024x256_S1024x256_0_0_1_1_n_n.lhsBatch by decide), dif_pos (show (1 : Fin S1024x1024.rank) ∈ dot_S1024x1024_S1024x256_S1024x256_0_0_1_1_n_n.lhsNonContracting by decide)]
  rfl
/-- The right operand is read at (contraction position, output column). -/
theorem agg2_dot_rhs_0 (i : S1024x256.Idx) (q : dot_S1024x1024_S1024x256_S1024x256_0_0_1_1_n_n.contr.Idx) :
    (dot_S1024x1024_S1024x256_S1024x256_0_0_1_1_n_n.rhsIdx i q 0).val = (q ⟨0, by decide⟩).val :=
  dot_S1024x1024_S1024x256_S1024x256_0_0_1_1_n_n.rhsIdx_val_of_single rfl i q
theorem agg2_dot_rhs_1 (i : S1024x256.Idx) (q : dot_S1024x1024_S1024x256_S1024x256_0_0_1_1_n_n.contr.Idx) :
    (dot_S1024x1024_S1024x256_S1024x256_0_0_1_1_n_n.rhsIdx i q 1).val = (i 1).val := by
  unfold DotDims.rhsIdx
  rw [dif_neg (show ¬(1 : Fin S1024x256.rank) ∈ dot_S1024x1024_S1024x256_S1024x256_0_0_1_1_n_n.rhsBatch by decide), dif_pos (show (1 : Fin S1024x256.rank) ∈ dot_S1024x1024_S1024x256_S1024x256_0_0_1_1_n_n.rhsNonContracting by decide)]
  rfl

/-- The product of the transposed edge-weight block with the feature block, from the zero accumulator: at (p, d) the sum
    over the block's source rows q of weight[q, p] times feature[q, d]. -/
theorem agg2_blockProduct_apply (cb : FVec Ideal S1024x1024 .bf16) (hb : FVec Ideal S1024x256 .bf16) (p : Fin 1024) (d : Fin 256) :
    matmul dot_S1024x1024_S1024x256_S1024x256_0_0_1_1_n_n none cb hb (constant S1024x256 .f32 0x00000000#32) (ix2 p d)
      = ∑ q : Fin 1024, cb (ix2 q p) * hb (ix2 q d) := by
  simp only [matmul]
  rw [Ideal.matmul_constant_zero_apply, ← Equiv.sum_comp (ValueIdx.contrEquiv1 dot_S1024x1024_S1024x256_S1024x256_0_0_1_1_n_n 1024 rfl rfl).symm]
  refine Finset.sum_congr rfl fun k _ => ?_
  have hk := ValueIdx.contrEquiv1_symm_val dot_S1024x1024_S1024x256_S1024x256_0_0_1_1_n_n 1024 rfl rfl k
  have el : dot_S1024x1024_S1024x256_S1024x256_0_0_1_1_n_n.lhsIdx (ix2 p d) ((ValueIdx.contrEquiv1 dot_S1024x1024_S1024x256_S1024x256_0_0_1_1_n_n 1024 rfl rfl).symm k) = ix2 k p := funext fun a => Fin.ext (by
    match a with
    | ⟨0, _⟩ => exact (agg2_dot_lhs_0 _ _).trans hk
    | ⟨1, _⟩ => exact agg2_dot_lhs_1 _ _)
  have er : dot_S1024x1024_S1024x256_S1024x256_0_0_1_1_n_n.rhsIdx (ix2 p d) ((ValueIdx.contrEquiv1 dot_S1024x1024_S1024x256_S1024x256_0_0_1_1_n_n 1024 rfl rfl).symm k) = ix2 k d := funext fun a => Fin.ext (by
    match a with
    | ⟨0, _⟩ => exact (agg2_dot_rhs_0 _ _).trans hk
    | ⟨1, _⟩ => exact agg2_dot_rhs_1 _ _)
  rw [el, er]

/-- One accumulation step: the accumulator plus the block product. -/
theorem agg2_step_apply (cb : FVec Ideal S1024x1024 .bf16) (hb : FVec Ideal S1024x256 .bf16) (acc : FVec Ideal S1024x256 .f32)
    (p : Fin 1024) (d : Fin 256) :
    k2_pay2 cb hb acc (ix2 p d) = acc (ix2 p d) + ∑ q : Fin 1024, cb (ix2 q p) * hb (ix2 q d) := by
  unfold k2_pay2
  simp only [shapeCast_self]
  exact congrArg (acc (ix2 p d) + ·) (agg2_blockProduct_apply cb hb p d)

/-- The last step of a target block: the accumulator scaled row-wise, the bias added column-wise, clamped below at zero. -/
theorem agg2_finish_apply (s : FVec Ideal S1024 .f32) (b : FVec Ideal S256 .f32) (acc : FVec Ideal S1024x256 .f32)
    (p : Fin 1024) (d : Fin 256) :
    k2_pay3 s b acc (ix2 p d) = max (acc (ix2 p d) * s (ix1 p) + b (ix1 d)) 0 := by
  unfold k2_pay3
  simp only [shapeCast_self]
  show max (acc (ix2 p d) * broadcastTo S1024x256 (shapeCast S1024x1 s shapeCasts_S1024_S1024x1) broadcasts_S1024x1_S1024x256 (ix2 p d)
      + broadcastTo S1024x256 (shapeCast S1x256 b shapeCasts_S256_S1x256) broadcasts_S1x256_S1024x256 (ix2 p d)) (Ideal.ofBits .f32 0x00000000#32) = _
  rw [LibKeepdims.column_broadcast_apply s shapeCasts_S1024_S1024x1 broadcasts_S1024x1_S1024x256 p d,
    broadcastTo_1b_ab_apply _ broadcasts_S1x256_S1024x256 p d,
    shapeCast_a_1a_apply b shapeCasts_S256_S1x256 (0 : Fin 1) d, Ideal.ofBits_zero_f32]

/-! ## The blocks the body reads, as entries of the arrays the region is entered with -/

/-- The edge-weight matrix, the projected features, the target scale and the bias as the region finds them. -/
abbrev agg2_edgeArr (c : Dev nD) : FVec Ideal S4096x4096 .bf16 := V c main_v0_0
abbrev agg2_featArr (c : Dev nD) : FVec Ideal S4096x256 .bf16 := V c main_v7
abbrev agg2_scaleArr (c : Dev nD) : FVec Ideal S4096 .f32 := V c main_v6
abbrev agg2_biasArr (c : Dev nD) : FVec Ideal S256 .f32 := V c main_arg3
/-- Their blocks at a grid point. -/
abbrev agg2_edgeBlk (c : Dev nD) (t : Fin cfg2.N) : FVec Ideal S1024x1024 .bf16 := iblk2 V c 0 t
abbrev agg2_featBlk (c : Dev nD) (t : Fin cfg2.N) : FVec Ideal S1024x256 .bf16 := iblk2 V c 1 t
abbrev agg2_scaleBlk (c : Dev nD) (t : Fin cfg2.N) : FVec Ideal S1024 .f32 := iblk2 V c 2 t
abbrev agg2_biasBlk (c : Dev nD) (t : Fin cfg2.N) : FVec Ideal S256 .f32 := iblk2 V c 3 t
/-- The accumulator after point n. -/
abbrev agg2_acc (c : Dev nD) (n : ℕ) (h : n < cfg2.N) : FVec Ideal S1024x256 .f32 := accAt2 V c n h

/-- Where each window's block sits at point t = 4·i + k: the edge-weight block at block row k, block column i; the
    feature block at block row k; the scale block and the output block at block i; the bias whole. -/
theorem agg2_index_facts : ∀ t : Fin cfg2.N,
    win2_0.index t (0 : Fin 2) = t.val % 4 ∧ win2_0.index t (1 : Fin 2) = t.val / 4
    ∧ win2_1.index t (0 : Fin 2) = t.val % 4 ∧ win2_1.index t (1 : Fin 2) = 0
    ∧ win2_2.index t (0 : Fin 1) = t.val / 4
    ∧ win2_3.index t (0 : Fin 1) = 0
    ∧ win2_4.index t (0 : Fin 2) = t.val / 4 ∧ win2_4.index t (1 : Fin 2) = 0 :=
  (by decide +kernel : ∀ t : Fin grid2.N, _)

/-- The edge-weight block at point t, entry (q, p): the array's entry at source row 1024·(t mod 4) + q, target column
    1024·(t div 4) + p. -/
theorem agg2_edgeBlock_apply (c : Dev nD) (t : Fin cfg2.N) (q p : Fin 1024) (u v : Fin 4096)
    (hu : u.val = 1024 * (t.val % 4) + q.val) (hv : v.val = 1024 * (t.val / 4) + p.val) :
    agg2_edgeBlk V c t (ix2 q p) = agg2_edgeArr V c (ix2 u v) := by
  obtain ⟨e0, e1, -⟩ := agg2_index_facts t
  unfold agg2_edgeBlk iblk2
  rw [View.read_apply]
  show agg2_edgeArr V c _ = _
  refine congrArg _ (funext fun a => Fin.ext ?_)
  match a with
  | ⟨0, _⟩ => show win2_0.index t (0 : Fin 2) * 1024 + 1 * q.val = u.val; omega
  | ⟨1, _⟩ => show win2_0.index t (1 : Fin 2) * 1024 + 1 * p.val = v.val; omega

/-- The feature block at point t, entry (q, d): the array's entry at source row 1024·(t mod 4) + q, column d. -/
theorem agg2_featBlock_apply (c : Dev nD) (t : Fin cfg2.N) (q : Fin 1024) (d : Fin 256) (u : Fin 4096)
    (hu : u.val = 1024 * (t.val % 4) + q.val) :
    agg2_featBlk V c t (ix2 q d) = agg2_featArr V c (ix2 u d) := by
  obtain ⟨-, -, e0, e1, -⟩ := agg2_index_facts t
  unfold agg2_featBlk iblk2
  rw [View.read_apply]
  show agg2_featArr V c _ = _
  refine congrArg _ (funext fun a => Fin.ext ?_)
  match a with
  | ⟨0, _⟩ => show win2_1.index t (0 : Fin 2) * 1024 + 1 * q.val = u.val; omega
  | ⟨1, _⟩ => show win2_1.index t (1 : Fin 2) * 256 + 1 * d.val = d.val; omega

/-- The scale block at point t, entry p: the array's entry at target row 1024·(t div 4) + p. -/
theorem agg2_scaleBlock_apply (c : Dev nD) (t : Fin cfg2.N) (p : Fin 1024) (v : Fin 4096)
    (hv : v.val = 1024 * (t.val / 4) + p.val) :
    agg2_scaleBlk V c t (ix1 p) = agg2_scaleArr V c (ix1 v) := by
  obtain ⟨-, -, -, -, e0, -⟩ := agg2_index_facts t
  unfold agg2_scaleBlk iblk2
  rw [View.read_apply]
  show agg2_scaleArr V c _ = _
  refine congrArg _ (funext fun a => Fin.ext ?_)
  match a with
  | ⟨0, _⟩ => show win2_2.index t (0 : Fin 1) * 1024 + 1 * p.val = v.val; omega

/-- The bias block is the whole bias vector. -/
theorem agg2_biasBlock_apply (c : Dev nD) (t : Fin cfg2.N) (d : Fin 256) :
    agg2_biasBlk V c t (ix1 d) = agg2_biasArr V c (ix1 d) := by
  obtain ⟨-, -, -, -, -, e0, -⟩ := agg2_index_facts t
  unfold agg2_biasBlk iblk2
  rw [View.read_apply]
  show agg2_biasArr V c _ = _
  refine congrArg _ (funext fun a => Fin.ext ?_)
  match a with
  | ⟨0, _⟩ => show win2_3.index t (0 : Fin 1) * 256 + 1 * d.val = d.val; omega

/-! ## The accumulator over the four source blocks of one target block -/

/-- What source block b adds to the accumulator at target column v, feature d: the sum over the block's 1024 source
    rows of weight[row, v] times feature[row, d]. -/
def agg2_blockTerm (C : FVec Ideal S4096x4096 .bf16) (P : FVec Ideal S4096x256 .bf16) (v : Fin 4096) (d : Fin 256) (b : Fin 4) : EReal :=
  ∑ q : Fin 1024, C (ix2 (LibBlockSum.blockIdx b q) v) * P (ix2 (LibBlockSum.blockIdx b q) d)

/-- The block product at point t, entry (p, d), is the term of source block t mod 4 at the target column 1024·(t div 4) + p. -/
theorem agg2_point_term (c : Dev nD) (t : Fin cfg2.N) (p : Fin 1024) (d : Fin 256) (v : Fin 4096)
    (hv : v.val = 1024 * (t.val / 4) + p.val) (b : Fin 4) (hb : b.val = t.val % 4) :
    ∑ q : Fin 1024, agg2_edgeBlk V c t (ix2 q p) * agg2_featBlk V c t (ix2 q d)
      = agg2_blockTerm (agg2_edgeArr V c) (agg2_featArr V c) v d b := by
  unfold agg2_blockTerm
  refine Finset.sum_congr rfl fun q _ => ?_
  have hu : (LibBlockSum.blockIdx b q : Fin (4 * 1024)).val = 1024 * (t.val % 4) + q.val := by
    rw [LibBlockSum.blockIdx_val, hb]; omega
  rw [agg2_edgeBlock_apply V c t q p (LibBlockSum.blockIdx b q) v hu hv, agg2_featBlock_apply V c t q d (LibBlockSum.blockIdx b q) hu]

/-- The accumulator after a point depends on the point's number only. -/
theorem agg2_acc_congr (c : Dev nD) {n n' : ℕ} (e : n = n') (h : n < cfg2.N) (h' : n' < cfg2.N) :
    agg2_acc V c n h = agg2_acc V c n' h' := by
  subst e; rfl

/-- At the first source block of a target block the accumulator holds that block's term alone. -/
theorem agg2_acc_first (c : Dev nD) (n : ℕ) (hn : n < cfg2.N) (h0 : n % 4 = 0) (p : Fin 1024) (d : Fin 256) (v : Fin 4096)
    (hv : v.val = 1024 * (n / 4) + p.val) (b : Fin 4) (hb : b.val = n % 4) :
    agg2_acc V c n hn (ix2 p d) = agg2_blockTerm (agg2_edgeArr V c) (agg2_featArr V c) v d b := by
  refine (congrFun (accAt2_reset V c ⟨n, hn⟩ h0) (ix2 p d)).trans ?_
  refine (agg2_step_apply (agg2_edgeBlk V c ⟨n, hn⟩) (agg2_featBlk V c ⟨n, hn⟩) (k2_pay1 (F := Ideal)) p d).trans ?_
  rw [agg2_reset_apply p d, zero_add]
  exact agg2_point_term V c ⟨n, hn⟩ p d v hv b hb

/-- At a later source block it holds what the point before left plus this block's term. -/
theorem agg2_acc_next (c : Dev nD) (n : ℕ) (hn : n + 1 < cfg2.N) (h0 : ¬ (n + 1) % 4 = 0) (p : Fin 1024) (d : Fin 256) (v : Fin 4096)
    (hv : v.val = 1024 * ((n + 1) / 4) + p.val) (b : Fin 4) (hb : b.val = (n + 1) % 4) :
    agg2_acc V c (n + 1) hn (ix2 p d)
      = agg2_acc V c n (Nat.lt_of_succ_lt hn) (ix2 p d) + agg2_blockTerm (agg2_edgeArr V c) (agg2_featArr V c) v d b := by
  refine (congrFun (accAt2_step V c ⟨n + 1, hn⟩ h0) (ix2 p d)).trans ?_
  refine (agg2_step_apply (agg2_edgeBlk V c ⟨n + 1, hn⟩) (agg2_featBlk V c ⟨n + 1, hn⟩)
    (agg2_acc V c (n + 1 - 1) (Nat.lt_of_le_of_lt (Nat.sub_le _ _) hn)) p d).trans ?_
  rw [agg2_point_term V c ⟨n + 1, hn⟩ p d v hv b hb]
  exact congrArg (· + _) (congrFun (agg2_acc_congr V c (by omega : n + 1 - 1 = n) _ _) (ix2 p d))

/-- After the last source block of target block i the accumulator holds, at (p, d), the sum over all 4096 sources of
    weight[u, 1024·i + p] times feature[u, d]. -/
theorem agg2_acc_full (c : Dev nD) (i : ℕ) (h : 4 * i + 3 < cfg2.N) (p : Fin 1024) (d : Fin 256) (v : Fin 4096)
    (hv : v.val = 1024 * i + p.val) :
    agg2_acc V c (4 * i + 3) h (ix2 p d) = ∑ u : Fin 4096, agg2_edgeArr V c (ix2 u v) * agg2_featArr V c (ix2 u d) := by
  have hN : cfg2.N = 16 := Gen.N_2
  have s0 := agg2_acc_first V c (4 * i) (by omega) (by omega) p d v (by omega) 0 (by show 0 = 4 * i % 4; omega)
  have s1 := agg2_acc_next V c (4 * i) (by omega) (by omega) p d v (by omega) 1 (by show 1 = (4 * i + 1) % 4; omega)
  have s2 := agg2_acc_next V c (4 * i + 1) (by omega) (by omega) p d v (by omega) 2 (by show 2 = (4 * i + 1 + 1) % 4; omega)
  have s3 := agg2_acc_next V c (4 * i + 2) (by omega) (by omega) p d v (by omega) 3 (by show 3 = (4 * i + 2 + 1) % 4; omega)
  rw [s0] at s1
  rw [s1] at s2
  rw [s2] at s3
  refine s3.trans ?_
  refine Eq.trans ?_ (LibBlockSum.sum_blocks 4 1024 fun u : Fin (4 * 1024) =>
    agg2_edgeArr V c (ix2 u v) * agg2_featArr V c (ix2 u d)).symm
  rw [Fin.sum_univ_four]
  rfl

/-! ## From the blocks written back to the output array -/

/-- What the write-back at a point t ≡ 3 (mod 4) writes is block t div 4 of the aggregation of the entry arrays. -/
theorem agg2_flushed_eq (c : Dev nD) (dat : Dat τ (Elt Ideal) Unit ℕ (UR sig nD τ) ℕ cfg2 c)
    (h4 : ∀ t, dat.after 4 t = k2_pay3 (iblk2 V c 2 t) (iblk2 V c 3 t) (accAt2 V c t.val t.isLt))
    (t : Fin cfg2.N) (hf : (cfg2.win 4).flush t = true) :
    dat.flushed 4 t = ((cfg2.win 4).blk t).view.read (Elt Ideal)
      (Gcn.aggr (V c main_v0_0) (V c main_v7) (V c main_v6) (V c main_arg3)) := by
  have hN : cfg2.N = 16 := Gen.N_2
  have h3 : t.val % 4 = 3 := (Gen.flush2_4 t).mp hf
  have hlt : t.val < 16 := hN ▸ t.isLt
  obtain ⟨-, -, -, -, -, -, e0, e1⟩ := agg2_index_facts t
  show (cfg2.win 4).cut (grid2.coords t) (dat.after 4 t) = _
  rw [h4]
  funext y
  obtain ⟨p, d, rfl⟩ : ∃ (p : Fin 1024) (d : Fin 256), y = ix2 p d := ⟨y 0, y 1, eq_ix2 y⟩
  rw [View.read_apply]
  have hvlt : 1024 * (t.val / 4) + p.val < 4096 := by have := p.isLt; omega
  have hemb : ((cfg2.win 4).blk t).view.emb (ix2 p d) = (ix2 (⟨1024 * (t.val / 4) + p.val, hvlt⟩ : Fin 4096) d : S4096x256.Idx) := by
    funext a; apply Fin.ext
    match a with
    | ⟨0, _⟩ => show win2_4.index t (0 : Fin 2) * 1024 + 1 * p.val = 1024 * (t.val / 4) + p.val; omega
    | ⟨1, _⟩ => show win2_4.index t (1 : Fin 2) * 256 + 1 * d.val = d.val; omega
  show k2_pay3 (F := Ideal) (agg2_scaleBlk V c t) (agg2_biasBlk V c t) (agg2_acc V c t.val t.isLt) (ix2 p d)
    = Gcn.aggr (agg2_edgeArr V c) (agg2_featArr V c) (agg2_scaleArr V c) (agg2_biasArr V c) (((cfg2.win 4).blk t).view.emb (ix2 p d))
  rw [hemb]
  refine (agg2_finish_apply (agg2_scaleBlk V c t) (agg2_biasBlk V c t) (agg2_acc V c t.val t.isLt) p d).trans ?_
  rw [agg2_scaleBlock_apply V c t p ⟨1024 * (t.val / 4) + p.val, hvlt⟩ rfl, agg2_biasBlock_apply V c t d,
    congrFun (agg2_acc_congr V c (show t.val = 4 * (t.val / 4) + 3 by omega) t.isLt (by omega)) (ix2 p d),
    agg2_acc_full V c (t.val / 4) (by omega) p d ⟨1024 * (t.val / 4) + p.val, hvlt⟩ rfl]
  rfl
/-- Every entry of the output array lies in the block some point ≡ 3 (mod 4) writes back: row r in that of target
    block r div 1024. -/
theorem agg2_cover (i : S4096x256.Idx) :
    ∃ t : Fin cfg2.N, (cfg2.win 4).flush t = true ∧ i ∈ ((cfg2.win 4).blk t).view.set := by
  have hN : cfg2.N = 16 := Gen.N_2
  have hi0 : (i 0).val < 4096 := idx2_lt0 i
  have hi1 : (i 1).val < 256 := idx2_lt1 i
  have hlt : 4 * ((i 0).val / 1024) + 3 < cfg2.N := by omega
  refine ⟨⟨4 * ((i 0).val / 1024) + 3, hlt⟩, (Gen.flush2_4 _).mpr (by show (4 * ((i 0).val / 1024) + 3) % 4 = 3; omega), ?_⟩
  obtain ⟨-, -, -, -, -, -, e0, e1⟩ := agg2_index_facts ⟨4 * ((i 0).val / 1024) + 3, hlt⟩
  have e0' : win2_4.index ⟨4 * ((i 0).val / 1024) + 3, hlt⟩ (0 : Fin 2) = (4 * ((i 0).val / 1024) + 3) / 4 := e0
  show i ∈ ((View.whole main_v8).slice (win2_4.rect ⟨4 * ((i 0).val / 1024) + 3, hlt⟩)).set
  rw [View.set_slice_whole, Rect.mem_set_unit]
  intro a
  match a with
  | ⟨0, _⟩ =>
    show win2_4.index ⟨4 * ((i 0).val / 1024) + 3, hlt⟩ (0 : Fin 2) * 1024 ≤ (i 0).val
      ∧ (i 0).val < win2_4.index ⟨4 * ((i 0).val / 1024) + 3, hlt⟩ (0 : Fin 2) * 1024 + 1024
    omega
  | ⟨1, _⟩ =>
    show win2_4.index ⟨4 * ((i 0).val / 1024) + 3, hlt⟩ (1 : Fin 2) * 256 ≤ (i 1).val
      ∧ (i 1).val < win2_4.index ⟨4 * ((i 0).val / 1024) + 3, hlt⟩ (1 : Fin 2) * 256 + 256
    omega

/-- The output array of the first aggregation after the region: the aggregation of the arrays it was entered with. -/
theorem final2_4 (c : Dev nD) (dat : Dat τ (Elt Ideal) Unit ℕ (UR sig nD τ) ℕ cfg2 c)
    (hA : ∀ w, dat.A w = V c (Pipeline.arrRef spec2 w))
    (h4 : ∀ t, dat.after 4 t = k2_pay3 (iblk2 V c 2 t) (iblk2 V c 3 t) (accAt2 V c t.val t.isLt)) :
    dat.arrAt 4 cfg2.N = Gcn.aggr (V c main_v0_0) (V c main_v7) (V c main_v6) (V c main_arg3) :=
  dat.arrAt_eq_of_cover 4 (Gcn.aggr (V c main_v0_0) (V c main_v7) (V c main_v6) (V c main_arg3))
    (fun t hf => agg2_flushed_eq V c dat h4 t hf) agg2_cover

end Cert.KernelIdeal.Hand

end
-- ==== Proof.KI.Value3.lean ====
/-
  The second projection (the scale-and-multiply region entered after the first aggregation): what its output array
  holds afterwards.

  The same walk as the first projection, over other arrays: at block t it reads rows 1024 t … 1024 t + 1023 of the
  first layer's 4096 × 256 output and of the 4096-vector of scales, and the whole second 256 × 256 weight matrix;
  it scales each row, multiplies by the weight matrix and writes the 1024 × 256 product to rows 1024 t … of its
  output. The block differs from the first projection's only by one more cast of the feature block to its own shape,
  which is the identity; the product at an entry is the sum proved with the first projection. So entry (v, d) of the
  output ends as ∑ k, (layer-one (v, k) · scale v) · weight₂ (k, d): `Cert.Gcn.scaleMat` of the three arrays the region
  is entered with, at every index, the four blocks tiling the output.
-/
import proofs.«142270_j68298569941180_1_alg».proof.Proof.KI.Blocks
import proofs.«142270_j68298569941180_1_alg».proof.Proof.KI.Value1
import proofs.«142270_j68298569941180_1_alg».proof.Proof.Spec
import proofs.«142270_j68298569941180_1_alg».proof.Proof.LibBlockSum
import proofs.«142270_j68298569941180_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-! ## Region 3's block at an entry -/

/-- Region 3's block at entry (p, d): as in the first projection — each row p of the feature block is multiplied by the
    p-th scale and the result by the weight matrix; the casts to the same shape and the changes of format are the
    identity at the ideal values. -/
theorem k3_pay1_apply (x : Vec Ideal S1024x256 .f32) (s : Vec Ideal S1024 .f32) (w : Vec Ideal S256x256 .f32) (p : Fin 1024) (d : Fin 256) :
    k3_pay1 x s w (ix2 p d) = ∑ k : Fin 256, (x (ix2 p k) * s (ix1 p)) * w (ix2 k d) := by
  unfold k3_pay1
  rw [truncf_apply, blockProduct_apply]
  refine Finset.sum_congr rfl fun k _ => ?_
  rw [truncf_apply, truncf_apply, mulf_apply, shapeCast_self x, shapeCast_self s, Cert.LibKeepdims.column_broadcast_apply]

/-! ## Region 3's blocks in their arrays -/

/-- The block indices of region 3's four windows at grid point t: the feature block (rows of the first layer's
    output), the scale block and the output block are block t along the rows; the weight matrix is one block. -/
theorem blockIndices3 : ∀ t : Fin cfg3.N, win3_0.index t (0 : Fin 2) = t.val ∧ win3_0.index t (1 : Fin 2) = 0
    ∧ win3_1.index t (0 : Fin 1) = t.val
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Entry (p, k) of the feature block at point t is entry (1024 t + p, k) of the first layer's output. -/
theorem featBlock3_apply (c : Dev nD) (t : Fin cfg3.N) (p : Fin 1024) (k : Fin 256) (r : Fin 4096) (hr : r.val = t.val * 1024 + p.val) :
    iblk3 V c 0 t (ix2 p k) = (V c main_v8 : S4096x256.Idx → EReal) (ix2 r k) := by
  unfold iblk3
  rw [View.read_apply]
  show (V c main_v8 : S4096x256.Idx → EReal) (((cfg3.win 0).blk t).view.emb (ix2 p k)) = _
  refine congrArg _ (funext fun a => Fin.ext ?_)
  obtain ⟨e0, e1, -⟩ := blockIndices3 t
  match a with
  | ⟨0, _⟩ => show win3_0.index t (0 : Fin 2) * 1024 + 1 * p.val = r.val; omega
  | ⟨1, _⟩ => show win3_0.index t (1 : Fin 2) * 256 + 1 * k.val = k.val; omega

/-- Entry p of the scale block at point t is entry 1024 t + p of the scale vector. -/
theorem scaleBlock3_apply (c : Dev nD) (t : Fin cfg3.N) (p : Fin 1024) (r : Fin 4096) (hr : r.val = t.val * 1024 + p.val) :
    iblk3 V c 1 t (ix1 p) = (V c main_v3 : S4096.Idx → EReal) (ix1 r) := by
  unfold iblk3
  rw [View.read_apply]
  show (V c main_v3 : S4096.Idx → EReal) (((cfg3.win 1).blk t).view.emb (ix1 p)) = _
  refine congrArg _ (funext fun a => Fin.ext ?_)
  obtain ⟨-, -, e2, -⟩ := blockIndices3 t
  match a with
  | ⟨0, _⟩ => show win3_1.index t (0 : Fin 1) * 1024 + 1 * p.val = r.val; omega

/-- The weight block at every point is the whole second weight matrix. -/
theorem weightBlock3_apply (c : Dev nD) (t : Fin cfg3.N) (k d : Fin 256) :
    iblk3 V c 2 t (ix2 k d) = (V c main_arg4 : S256x256.Idx → EReal) (ix2 k d) := by
  unfold iblk3
  rw [View.read_apply]
  show (V c main_arg4 : S256x256.Idx → EReal) (((cfg3.win 2).blk t).view.emb (ix2 k d)) = _
  refine congrArg _ (funext fun a => Fin.ext ?_)
  obtain ⟨-, -, -, e3, e4, -⟩ := blockIndices3 t
  match a with
  | ⟨0, _⟩ => show win3_2.index t (0 : Fin 2) * 256 + 1 * k.val = k.val; omega
  | ⟨1, _⟩ => show win3_2.index t (1 : Fin 2) * 256 + 1 * d.val = d.val; omega

/-! ## The output array of region 3 -/

/-- What point t writes back is block t of the row-scaled product of the first layer's output, the scale vector and
    the second weight matrix, as region 3 is entered with them. -/
theorem flushed3_3_eq (c : Dev nD) (dat : Dat τ (Elt Ideal) Unit ℕ (UR sig nD τ) ℕ cfg3 c)
    (h3 : ∀ t, dat.after 3 t = k3_pay1 (iblk3 V c 0 t) (iblk3 V c 1 t) (iblk3 V c 2 t)) (t : Fin cfg3.N) :
    dat.flushed 3 t = ((cfg3.win 3).blk t).view.read (Elt Ideal)
      (Cert.Gcn.scaleMat (V c main_v8) (V c main_v3) (V c main_arg4)) := by
  show (cfg3.win 3).cut (grid3.coords t) (dat.after 3 t) = _
  rw [h3]
  funext y
  obtain ⟨-, -, -, -, -, e5, e6⟩ := blockIndices3 t
  have hp : (y 0).val < 1024 := (y 0).isLt
  have hd : (y 1).val < 256 := (y 1).isLt
  have ht : t.val < 4 := t.isLt
  have hy : (cfg3.win 3).xinj (grid3.coords t) y = ix2 ⟨(y 0).val, hp⟩ ⟨(y 1).val, hd⟩ :=
    funext fun a => by match a with | ⟨0, _⟩ => rfl | ⟨1, _⟩ => rfl
  rw [View.read_apply]
  show k3_pay1 (iblk3 V c 0 t) (iblk3 V c 1 t) (iblk3 V c 2 t) ((cfg3.win 3).xinj (grid3.coords t) y)
    = Cert.Gcn.scaleMat (V c main_v8) (V c main_v3) (V c main_arg4) (((cfg3.win 3).blk t).view.emb y)
  rw [hy, k3_pay1_apply]
  have hr : t.val * 1024 + (y 0).val < 4096 := by omega
  have hrow : (((cfg3.win 3).blk t).view.emb y 0) = (⟨t.val * 1024 + (y 0).val, hr⟩ : Fin 4096) :=
    Fin.ext (by show win3_3.index t (0 : Fin 2) * 1024 + 1 * (y 0).val = t.val * 1024 + (y 0).val; omega)
  have hcol : (((cfg3.win 3).blk t).view.emb y 1) = (⟨(y 1).val, hd⟩ : Fin 256) :=
    Fin.ext (by show win3_3.index t (1 : Fin 2) * 256 + 1 * (y 1).val = (y 1).val; omega)
  unfold Cert.Gcn.scaleMat
  refine Finset.sum_congr rfl fun k _ => ?_
  rw [hrow, hcol, featBlock3_apply V c t ⟨(y 0).val, hp⟩ k ⟨t.val * 1024 + (y 0).val, hr⟩ rfl,
    scaleBlock3_apply V c t ⟨(y 0).val, hp⟩ ⟨t.val * 1024 + (y 0).val, hr⟩ rfl, weightBlock3_apply]

/-- An index of the output array lies in point t's block iff each coordinate lies in the block's range on its axis. -/
theorem mem_outBlock3 (t : Fin cfg3.N) (i : S4096x256.Idx) :
    i ∈ ((cfg3.win 3).blk t).view.set ↔ ∀ a : Fin 2, win3_3.index t a * S1024x256.size a ≤ (i a).val
      ∧ (i a).val < win3_3.index t a * S1024x256.size a + S1024x256.size a := by
  show i ∈ ((View.whole main_v9).slice (win3_3.rect t)).set ↔ _
  rw [View.set_slice_whole, Rect.mem_set_unit]
  exact Iff.rfl

/-- The four row blocks cover the output array: row r lies in block r / 1024. -/
theorem outBlocks3_cover (i : S4096x256.Idx) :
    ∃ t : Fin cfg3.N, (cfg3.win 3).flush t = true ∧ i ∈ ((cfg3.win 3).blk t).view.set := by
  have hi0 : (i 0).val < 4096 := (i 0).isLt
  have hi1 : (i 1).val < 256 := (i 1).isLt
  have hq : (i 0).val / 1024 < cfg3.N := by show _ < 4; omega
  refine ⟨⟨(i 0).val / 1024, hq⟩, flush3_3 _, ?_⟩
  rw [mem_outBlock3]
  obtain ⟨-, -, -, -, -, e5, e6⟩ := blockIndices3 ⟨(i 0).val / 1024, hq⟩
  intro a
  match a with
  | ⟨0, _⟩ =>
    show win3_3.index ⟨(i 0).val / 1024, hq⟩ (0 : Fin 2) * 1024 ≤ (i 0).val
      ∧ (i 0).val < win3_3.index ⟨(i 0).val / 1024, hq⟩ (0 : Fin 2) * 1024 + 1024
    rw [e5]; show (i 0).val / 1024 * 1024 ≤ (i 0).val ∧ (i 0).val < (i 0).val / 1024 * 1024 + 1024; omega
  | ⟨1, _⟩ =>
    show win3_3.index ⟨(i 0).val / 1024, hq⟩ (1 : Fin 2) * 256 ≤ (i 1).val
      ∧ (i 1).val < win3_3.index ⟨(i 0).val / 1024, hq⟩ (1 : Fin 2) * 256 + 256
    rw [e6]; omega

/-- The array region 3 leaves: at every index, the row-scaled product of the arrays it was entered with. -/
theorem final3_3 (c : Dev nD) (dat : Dat τ (Elt Ideal) Unit ℕ (UR sig nD τ) ℕ cfg3 c)
    (hA : ∀ w, dat.A w = V c (Pipeline.arrRef spec3 w))
    (h3 : ∀ t, dat.after 3 t = k3_pay1 (iblk3 V c 0 t) (iblk3 V c 1 t) (iblk3 V c 2 t)) :
    dat.arrAt 3 cfg3.N = Cert.Gcn.scaleMat (V c main_v8) (V c main_v3) (V c main_arg4) :=
  dat.arrAt_eq_of_cover 3 _ (fun t _ => flushed3_3_eq V c dat h3 t) outBlocks3_cover

end Cert.KernelIdeal.Hand

end
-- ==== Proof.KI.Value4.lean ====
/-
  The second aggregation call, read as values at the extended reals.

  The call walks a 4 × 4 grid: point t = 4·i + k pairs target block i (1024 target nodes) with source block k (1024
  source nodes). It keeps a 1024 × 256 accumulator: zero when k = 0, then at every point increased, at (p, d), by the
  sum over the block's sources q of weight[1024·k + q, 1024·i + p] · feature[1024·k + q, d] — the product of the
  TRANSPOSED weight block with the feature block. After k = 3 the accumulator holds the sum over all 4096 sources;
  there the body scales row p by the target scale at 1024·i + p, adds the bias at d, clamps at zero, and the result
  is written back as rows 1024·i … 1024·i + 1023 of the output. The four write-backs tile the output, so the output
  array is `Gcn.aggr` of the four arrays the call was entered with. Only the commutative-monoid laws of addition on the
  extended reals are used: the sum over 4096 sources is split into four runs of 1024.
-/
import proofs.«142270_j68298569941180_1_alg».proof.Proof.KI.Blocks
import proofs.«142270_j68298569941180_1_alg».proof.Proof.Spec
import proofs.«142270_j68298569941180_1_alg».proof.Proof.LibBlockSum
import proofs.«142270_j68298569941180_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b))

/-! ## The three payloads of the aggregation body, read at an index -/

/-- The accumulator is reset to zero everywhere. -/
theorem agg4_reset_apply (p : Fin 1024) (d : Fin 256) : (k4_pay1 (F := Ideal)) (ix2 p d) = 0 := by
  unfold k4_pay1
  refine (congrFun (shapeCast_self _ shapeCasts_S1024x256_S1024x256) (ix2 p d)).trans ?_
  exact Ideal.ofBits_zero_f32

/-- The left operand of the block product is read at (contraction position, output row): on its axis 0 the
    contraction coordinate, -/
theorem agg4_dot_lhs_0 (i : S1024x256.Idx) (q : dot_S1024x1024_S1024x256_S1024x256_0_0_1_1_n_n.contr.Idx) :
    (dot_S1024x1024_S1024x256_S1024x256_0_0_1_1_n_n.lhsIdx i q 0).val = (q ⟨0, by decide⟩).val :=
  dot_S1024x1024_S1024x256_S1024x256_0_0_1_1_n_n.lhsIdx_val_of_single rfl i q
/-- on its axis 1 the output's row coordinate. -/
theorem agg4_dot_lhs_1 (i : S1024x256.Idx) (q : dot_S1024x1024_S1024x256_S1024x256_0_0_1_1_n_n.contr.Idx) :
    (dot_S1024x1024_S1024x256_S1024x256_0_0_1_1_n_n.lhsIdx i q 1).val = (i 0).val := by
  unfold DotDims.lhsIdx
  rw [dif_neg (show ¬(1 : Fin S1024x1024.rank) ∈ dot_S1024x1024_S1024x256_S1024x256_0_0_1_1_n_n.lhsBatch by decide), dif_pos (show (1 : Fin S1024x1024.rank) ∈ dot_S1024x1024_S1024x256_S1024x256_0_0_1_1_n_n.lhsNonContracting by decide)]
  rfl
/-- The right operand is read at (contraction position, output column). -/
theorem agg4_dot_rhs_0 (i : S1024x256.Idx) (q : dot_S1024x1024_S1024x256_S1024x256_0_0_1_1_n_n.contr.Idx) :
    (dot_S1024x1024_S1024x256_S1024x256_0_0_1_1_n_n.rhsIdx i q 0).val = (q ⟨0, by decide⟩).val :=
  dot_S1024x1024_S1024x256_S1024x256_0_0_1_1_n_n.rhsIdx_val_of_single rfl i q
theorem agg4_dot_rhs_1 (i : S1024x256.Idx) (q : dot_S1024x1024_S1024x256_S1024x256_0_0_1_1_n_n.contr.Idx) :
    (dot_S1024x1024_S1024x256_S1024x256_0_0_1_1_n_n.rhsIdx i q 1).val = (i 1).val := by
  unfold DotDims.rhsIdx
  rw [dif_neg (show ¬(1 : Fin S1024x256.rank) ∈ dot_S1024x1024_S1024x256_S1024x256_0_0_1_1_n_n.rhsBatch by decide), dif_pos (show (1 : Fin S1024x256.rank) ∈ dot_S1024x1024_S1024x256_S1024x256_0_0_1_1_n_n.rhsNonContracting by decide)]
  rfl

/-- The product of the transposed edge-weight block with the feature block, from the zero accumulator: at (p, d) the sum
    over the block's source rows q of weight[q, p] times feature[q, d]. -/
theorem agg4_blockProduct_apply (cb : FVec Ideal S1024x1024 .bf16) (hb : FVec Ideal S1024x256 .bf16) (p : Fin 1024) (d : Fin 256) :
    matmul dot_S1024x1024_S1024x256_S1024x256_0_0_1_1_n_n none cb hb (constant S1024x256 .f32 0x00000000#32) (ix2 p d)
      = ∑ q : Fin 1024, cb (ix2 q p) * hb (ix2 q d) := by
  simp only [matmul]
  rw [Ideal.matmul_constant_zero_apply, ← Equiv.sum_comp (ValueIdx.contrEquiv1 dot_S1024x1024_S1024x256_S1024x256_0_0_1_1_n_n 1024 rfl rfl).symm]
  refine Finset.sum_congr rfl fun k _ => ?_
  have hk := ValueIdx.contrEquiv1_symm_val dot_S1024x1024_S1024x256_S1024x256_0_0_1_1_n_n 1024 rfl rfl k
  have el : dot_S1024x1024_S1024x256_S1024x256_0_0_1_1_n_n.lhsIdx (ix2 p d) ((ValueIdx.contrEquiv1 dot_S1024x1024_S1024x256_S1024x256_0_0_1_1_n_n 1024 rfl rfl).symm k) = ix2 k p := funext fun a => Fin.ext (by
    match a with
    | ⟨0, _⟩ => exact (agg4_dot_lhs_0 _ _).trans hk
    | ⟨1, _⟩ => exact agg4_dot_lhs_1 _ _)
  have er : dot_S1024x1024_S1024x256_S1024x256_0_0_1_1_n_n.rhsIdx (ix2 p d) ((ValueIdx.contrEquiv1 dot_S1024x1024_S1024x256_S1024x256_0_0_1_1_n_n 1024 rfl rfl).symm k) = ix2 k d := funext fun a => Fin.ext (by
    match a with
    | ⟨0, _⟩ => exact (agg4_dot_rhs_0 _ _).trans hk
    | ⟨1, _⟩ => exact agg4_dot_rhs_1 _ _)
  rw [el, er]

/-- One accumulation step: the accumulator plus the block product. -/
theorem agg4_step_apply (cb : FVec Ideal S1024x1024 .bf16) (hb : FVec Ideal S1024x256 .bf16) (acc : FVec Ideal S1024x256 .f32)
    (p : Fin 1024) (d : Fin 256) :
    k4_pay2 cb hb acc (ix2 p d) = acc (ix2 p d) + ∑ q : Fin 1024, cb (ix2 q p) * hb (ix2 q d) := by
  unfold k4_pay2
  simp only [shapeCast_self]
  exact congrArg (acc (ix2 p d) + ·) (agg4_blockProduct_apply cb hb p d)

/-- The last step of a target block: the accumulator scaled row-wise, the bias added column-wise, clamped below at zero. -/
theorem agg4_finish_apply (s : FVec Ideal S1024 .f32) (b : FVec Ideal S256 .f32) (acc : FVec Ideal S1024x256 .f32)
    (p : Fin 1024) (d : Fin 256) :
    k4_pay3 s b acc (ix2 p d) = max (acc (ix2 p d) * s (ix1 p) + b (ix1 d)) 0 := by
  unfold k4_pay3
  simp only [shapeCast_self]
  show max (acc (ix2 p d) * broadcastTo S1024x256 (shapeCast S1024x1 s shapeCasts_S1024_S1024x1) broadcasts_S1024x1_S1024x256 (ix2 p d)
      + broadcastTo S1024x256 (shapeCast S1x256 b shapeCasts_S256_S1x256) broadcasts_S1x256_S1024x256 (ix2 p d)) (Ideal.ofBits .f32 0x00000000#32) = _
  rw [LibKeepdims.column_broadcast_apply s shapeCasts_S1024_S1024x1 broadcasts_S1024x1_S1024x256 p d,
    broadcastTo_1b_ab_apply _ broadcasts_S1x256_S1024x256 p d,
    shapeCast_a_1a_apply b shapeCasts_S256_S1x256 (0 : Fin 1) d, Ideal.ofBits_zero_f32]

/-! ## The blocks the body reads, as entries of the arrays the region is entered with -/

/-- The edge-weight matrix, the projected features, the target scale and the bias as the region finds them. -/
abbrev agg4_edgeArr (c : Dev nD) : FVec Ideal S4096x4096 .bf16 := V c main_v0_0
abbrev agg4_featArr (c : Dev nD) : FVec Ideal S4096x256 .bf16 := V c main_v9
abbrev agg4_scaleArr (c : Dev nD) : FVec Ideal S4096 .f32 := V c main_v6
abbrev agg4_biasArr (c : Dev nD) : FVec Ideal S256 .f32 := V c main_arg5
/-- Their blocks at a grid point. -/
abbrev agg4_edgeBlk (c : Dev nD) (t : Fin cfg4.N) : FVec Ideal S1024x1024 .bf16 := iblk4 V c 0 t
abbrev agg4_featBlk (c : Dev nD) (t : Fin cfg4.N) : FVec Ideal S1024x256 .bf16 := iblk4 V c 1 t
abbrev agg4_scaleBlk (c : Dev nD) (t : Fin cfg4.N) : FVec Ideal S1024 .f32 := iblk4 V c 2 t
abbrev agg4_biasBlk (c : Dev nD) (t : Fin cfg4.N) : FVec Ideal S256 .f32 := iblk4 V c 3 t
/-- The accumulator after point n. -/
abbrev agg4_acc (c : Dev nD) (n : ℕ) (h : n < cfg4.N) : FVec Ideal S1024x256 .f32 := accAt4 V c n h

/-- Where each window's block sits at point t = 4·i + k: the edge-weight block at block row k, block column i; the
    feature block at block row k; the scale block and the output block at block i; the bias whole. -/
theorem agg4_index_facts : ∀ t : Fin cfg4.N,
    win4_0.index t (0 : Fin 2) = t.val % 4 ∧ win4_0.index t (1 : Fin 2) = t.val / 4
    ∧ win4_1.index t (0 : Fin 2) = t.val % 4 ∧ win4_1.index t (1 : Fin 2) = 0
    ∧ win4_2.index t (0 : Fin 1) = t.val / 4
    ∧ win4_3.index t (0 : Fin 1) = 0
    ∧ win4_4.index t (0 : Fin 2) = t.val / 4 ∧ win4_4.index t (1 : Fin 2) = 0 :=
  (by decide +kernel : ∀ t : Fin grid4.N, _)

/-- The edge-weight block at point t, entry (q, p): the array's entry at source row 1024·(t mod 4) + q, target column
    1024·(t div 4) + p. -/
theorem agg4_edgeBlock_apply (c : Dev nD) (t : Fin cfg4.N) (q p : Fin 1024) (u v : Fin 4096)
    (hu : u.val = 1024 * (t.val % 4) + q.val) (hv : v.val = 1024 * (t.val / 4) + p.val) :
    agg4_edgeBlk V c t (ix2 q p) = agg4_edgeArr V c (ix2 u v) := by
  obtain ⟨e0, e1, -⟩ := agg4_index_facts t
  unfold agg4_edgeBlk iblk4
  rw [View.read_apply]
  show agg4_edgeArr V c _ = _
  refine congrArg _ (funext fun a => Fin.ext ?_)
  match a with
  | ⟨0, _⟩ => show win4_0.index t (0 : Fin 2) * 1024 + 1 * q.val = u.val; omega
  | ⟨1, _⟩ => show win4_0.index t (1 : Fin 2) * 1024 + 1 * p.val = v.val; omega

/-- The feature block at point t, entry (q, d): the array's entry at source row 1024·(t mod 4) + q, column d. -/
theorem agg4_featBlock_apply (c : Dev nD) (t : Fin cfg4.N) (q : Fin 1024) (d : Fin 256) (u : Fin 4096)
    (hu : u.val = 1024 * (t.val % 4) + q.val) :
    agg4_featBlk V c t (ix2 q d) = agg4_featArr V c (ix2 u d) := by
  obtain ⟨-, -, e0, e1, -⟩ := agg4_index_facts t
  unfold agg4_featBlk iblk4
  rw [View.read_apply]
  show agg4_featArr V c _ = _
  refine congrArg _ (funext fun a => Fin.ext ?_)
  match a with
  | ⟨0, _⟩ => show win4_1.index t (0 : Fin 2) * 1024 + 1 * q.val = u.val; omega
  | ⟨1, _⟩ => show win4_1.index t (1 : Fin 2) * 256 + 1 * d.val = d.val; omega

/-- The scale block at point t, entry p: the array's entry at target row 1024·(t div 4) + p. -/
theorem agg4_scaleBlock_apply (c : Dev nD) (t : Fin cfg4.N) (p : Fin 1024) (v : Fin 4096)
    (hv : v.val = 1024 * (t.val / 4) + p.val) :
    agg4_scaleBlk V c t (ix1 p) = agg4_scaleArr V c (ix1 v) := by
  obtain ⟨-, -, -, -, e0, -⟩ := agg4_index_facts t
  unfold agg4_scaleBlk iblk4
  rw [View.read_apply]
  show agg4_scaleArr V c _ = _
  refine congrArg _ (funext fun a => Fin.ext ?_)
  match a with
  | ⟨0, _⟩ => show win4_2.index t (0 : Fin 1) * 1024 + 1 * p.val = v.val; omega

/-- The bias block is the whole bias vector. -/
theorem agg4_biasBlock_apply (c : Dev nD) (t : Fin cfg4.N) (d : Fin 256) :
    agg4_biasBlk V c t (ix1 d) = agg4_biasArr V c (ix1 d) := by
  obtain ⟨-, -, -, -, -, e0, -⟩ := agg4_index_facts t
  unfold agg4_biasBlk iblk4
  rw [View.read_apply]
  show agg4_biasArr V c _ = _
  refine congrArg _ (funext fun a => Fin.ext ?_)
  match a with
  | ⟨0, _⟩ => show win4_3.index t (0 : Fin 1) * 256 + 1 * d.val = d.val; omega

/-! ## The accumulator over the four source blocks of one target block -/

/-- What source block b adds to the accumulator at target column v, feature d: the sum over the block's 1024 source
    rows of weight[row, v] times feature[row, d]. -/
def agg4_blockTerm (C : FVec Ideal S4096x4096 .bf16) (P : FVec Ideal S4096x256 .bf16) (v : Fin 4096) (d : Fin 256) (b : Fin 4) : EReal :=
  ∑ q : Fin 1024, C (ix2 (LibBlockSum.blockIdx b q) v) * P (ix2 (LibBlockSum.blockIdx b q) d)

/-- The block product at point t, entry (p, d), is the term of source block t mod 4 at the target column 1024·(t div 4) + p. -/
theorem agg4_point_term (c : Dev nD) (t : Fin cfg4.N) (p : Fin 1024) (d : Fin 256) (v : Fin 4096)
    (hv : v.val = 1024 * (t.val / 4) + p.val) (b : Fin 4) (hb : b.val = t.val % 4) :
    ∑ q : Fin 1024, agg4_edgeBlk V c t (ix2 q p) * agg4_featBlk V c t (ix2 q d)
      = agg4_blockTerm (agg4_edgeArr V c) (agg4_featArr V c) v d b := by
  unfold agg4_blockTerm
  refine Finset.sum_congr rfl fun q _ => ?_
  have hu : (LibBlockSum.blockIdx b q : Fin (4 * 1024)).val = 1024 * (t.val % 4) + q.val := by
    rw [LibBlockSum.blockIdx_val, hb]; omega
  rw [agg4_edgeBlock_apply V c t q p (LibBlockSum.blockIdx b q) v hu hv, agg4_featBlock_apply V c t q d (LibBlockSum.blockIdx b q) hu]

/-- The accumulator after a point depends on the point's number only. -/
theorem agg4_acc_congr (c : Dev nD) {n n' : ℕ} (e : n = n') (h : n < cfg4.N) (h' : n' < cfg4.N) :
    agg4_acc V c n h = agg4_acc V c n' h' := by
  subst e; rfl

/-- At the first source block of a target block the accumulator holds that block's term alone. -/
theorem agg4_acc_first (c : Dev nD) (n : ℕ) (hn : n < cfg4.N) (h0 : n % 4 = 0) (p : Fin 1024) (d : Fin 256) (v : Fin 4096)
    (hv : v.val = 1024 * (n / 4) + p.val) (b : Fin 4) (hb : b.val = n % 4) :
    agg4_acc V c n hn (ix2 p d) = agg4_blockTerm (agg4_edgeArr V c) (agg4_featArr V c) v d b := by
  refine (congrFun (accAt4_reset V c ⟨n, hn⟩ h0) (ix2 p d)).trans ?_
  refine (agg4_step_apply (agg4_edgeBlk V c ⟨n, hn⟩) (agg4_featBlk V c ⟨n, hn⟩) (k4_pay1 (F := Ideal)) p d).trans ?_
  rw [agg4_reset_apply p d, zero_add]
  exact agg4_point_term V c ⟨n, hn⟩ p d v hv b hb

/-- At a later source block it holds what the point before left plus this block's term. -/
theorem agg4_acc_next (c : Dev nD) (n : ℕ) (hn : n + 1 < cfg4.N) (h0 : ¬ (n + 1) % 4 = 0) (p : Fin 1024) (d : Fin 256) (v : Fin 4096)
    (hv : v.val = 1024 * ((n + 1) / 4) + p.val) (b : Fin 4) (hb : b.val = (n + 1) % 4) :
    agg4_acc V c (n + 1) hn (ix2 p d)
      = agg4_acc V c n (Nat.lt_of_succ_lt hn) (ix2 p d) + agg4_blockTerm (agg4_edgeArr V c) (agg4_featArr V c) v d b := by
  refine (congrFun (accAt4_step V c ⟨n + 1, hn⟩ h0) (ix2 p d)).trans ?_
  refine (agg4_step_apply (agg4_edgeBlk V c ⟨n + 1, hn⟩) (agg4_featBlk V c ⟨n + 1, hn⟩)
    (agg4_acc V c (n + 1 - 1) (Nat.lt_of_le_of_lt (Nat.sub_le _ _) hn)) p d).trans ?_
  rw [agg4_point_term V c ⟨n + 1, hn⟩ p d v hv b hb]
  exact congrArg (· + _) (congrFun (agg4_acc_congr V c (by omega : n + 1 - 1 = n) _ _) (ix2 p d))

/-- After the last source block of target block i the accumulator holds, at (p, d), the sum over all 4096 sources of
    weight[u, 1024·i + p] times feature[u, d]. -/
theorem agg4_acc_full (c : Dev nD) (i : ℕ) (h : 4 * i + 3 < cfg4.N) (p : Fin 1024) (d : Fin 256) (v : Fin 4096)
    (hv : v.val = 1024 * i + p.val) :
    agg4_acc V c (4 * i + 3) h (ix2 p d) = ∑ u : Fin 4096, agg4_edgeArr V c (ix2 u v) * agg4_featArr V c (ix2 u d) := by
  have hN : cfg4.N = 16 := Gen.N_4
  have s0 := agg4_acc_first V c (4 * i) (by omega) (by omega) p d v (by omega) 0 (by show 0 = 4 * i % 4; omega)
  have s1 := agg4_acc_next V c (4 * i) (by omega) (by omega) p d v (by omega) 1 (by show 1 = (4 * i + 1) % 4; omega)
  have s2 := agg4_acc_next V c (4 * i + 1) (by omega) (by omega) p d v (by omega) 2 (by show 2 = (4 * i + 1 + 1) % 4; omega)
  have s3 := agg4_acc_next V c (4 * i + 2) (by omega) (by omega) p d v (by omega) 3 (by show 3 = (4 * i + 2 + 1) % 4; omega)
  rw [s0] at s1
  rw [s1] at s2
  rw [s2] at s3
  refine s3.trans ?_
  refine Eq.trans ?_ (LibBlockSum.sum_blocks 4 1024 fun u : Fin (4 * 1024) =>
    agg4_edgeArr V c (ix2 u v) * agg4_featArr V c (ix2 u d)).symm
  rw [Fin.sum_univ_four]
  rfl

/-! ## From the blocks written back to the output array -/

/-- What the write-back at a point t ≡ 3 (mod 4) writes is block t div 4 of the aggregation of the entry arrays. -/
theorem agg4_flushed_eq (c : Dev nD) (dat : Dat τ (Elt Ideal) Unit ℕ (UR sig nD τ) ℕ cfg4 c)
    (h4 : ∀ t, dat.after 4 t = k4_pay3 (iblk4 V c 2 t) (iblk4 V c 3 t) (accAt4 V c t.val t.isLt))
    (t : Fin cfg4.N) (hf : (cfg4.win 4).flush t = true) :
    dat.flushed 4 t = ((cfg4.win 4).blk t).view.read (Elt Ideal)
      (Gcn.aggr (V c main_v0_0) (V c main_v9) (V c main_v6) (V c main_arg5)) := by
  have hN : cfg4.N = 16 := Gen.N_4
  have h3 : t.val % 4 = 3 := (Gen.flush4_4 t).mp hf
  have hlt : t.val < 16 := hN ▸ t.isLt
  obtain ⟨-, -, -, -, -, -, e0, e1⟩ := agg4_index_facts t
  show (cfg4.win 4).cut (grid4.coords t) (dat.after 4 t) = _
  rw [h4]
  funext y
  obtain ⟨p, d, rfl⟩ : ∃ (p : Fin 1024) (d : Fin 256), y = ix2 p d := ⟨y 0, y 1, eq_ix2 y⟩
  rw [View.read_apply]
  have hvlt : 1024 * (t.val / 4) + p.val < 4096 := by have := p.isLt; omega
  have hemb : ((cfg4.win 4).blk t).view.emb (ix2 p d) = (ix2 (⟨1024 * (t.val / 4) + p.val, hvlt⟩ : Fin 4096) d : S4096x256.Idx) := by
    funext a; apply Fin.ext
    match a with
    | ⟨0, _⟩ => show win4_4.index t (0 : Fin 2) * 1024 + 1 * p.val = 1024 * (t.val / 4) + p.val; omega
    | ⟨1, _⟩ => show win4_4.index t (1 : Fin 2) * 256 + 1 * d.val = d.val; omega
  show k4_pay3 (F := Ideal) (agg4_scaleBlk V c t) (agg4_biasBlk V c t) (agg4_acc V c t.val t.isLt) (ix2 p d)
    = Gcn.aggr (agg4_edgeArr V c) (agg4_featArr V c) (agg4_scaleArr V c) (agg4_biasArr V c) (((cfg4.win 4).blk t).view.emb (ix2 p d))
  rw [hemb]
  refine (agg4_finish_apply (agg4_scaleBlk V c t) (agg4_biasBlk V c t) (agg4_acc V c t.val t.isLt) p d).trans ?_
  rw [agg4_scaleBlock_apply V c t p ⟨1024 * (t.val / 4) + p.val, hvlt⟩ rfl, agg4_biasBlock_apply V c t d,
    congrFun (agg4_acc_congr V c (show t.val = 4 * (t.val / 4) + 3 by omega) t.isLt (by omega)) (ix2 p d),
    agg4_acc_full V c (t.val / 4) (by omega) p d ⟨1024 * (t.val / 4) + p.val, hvlt⟩ rfl]
  rfl
/-- Every entry of the output array lies in the block some point ≡ 3 (mod 4) writes back: row r in that of target
    block r div 1024. -/
theorem agg4_cover (i : S4096x256.Idx) :
    ∃ t : Fin cfg4.N, (cfg4.win 4).flush t = true ∧ i ∈ ((cfg4.win 4).blk t).view.set := by
  have hN : cfg4.N = 16 := Gen.N_4
  have hi0 : (i 0).val < 4096 := idx2_lt0 i
  have hi1 : (i 1).val < 256 := idx2_lt1 i
  have hlt : 4 * ((i 0).val / 1024) + 3 < cfg4.N := by omega
  refine ⟨⟨4 * ((i 0).val / 1024) + 3, hlt⟩, (Gen.flush4_4 _).mpr (by show (4 * ((i 0).val / 1024) + 3) % 4 = 3; omega), ?_⟩
  obtain ⟨-, -, -, -, -, -, e0, e1⟩ := agg4_index_facts ⟨4 * ((i 0).val / 1024) + 3, hlt⟩
  have e0' : win4_4.index ⟨4 * ((i 0).val / 1024) + 3, hlt⟩ (0 : Fin 2) = (4 * ((i 0).val / 1024) + 3) / 4 := e0
  show i ∈ ((View.whole main_v10).slice (win4_4.rect ⟨4 * ((i 0).val / 1024) + 3, hlt⟩)).set
  rw [View.set_slice_whole, Rect.mem_set_unit]
  intro a
  match a with
  | ⟨0, _⟩ =>
    show win4_4.index ⟨4 * ((i 0).val / 1024) + 3, hlt⟩ (0 : Fin 2) * 1024 ≤ (i 0).val
      ∧ (i 0).val < win4_4.index ⟨4 * ((i 0).val / 1024) + 3, hlt⟩ (0 : Fin 2) * 1024 + 1024
    omega
  | ⟨1, _⟩ =>
    show win4_4.index ⟨4 * ((i 0).val / 1024) + 3, hlt⟩ (1 : Fin 2) * 256 ≤ (i 1).val
      ∧ (i 1).val < win4_4.index ⟨4 * ((i 0).val / 1024) + 3, hlt⟩ (1 : Fin 2) * 256 + 256
    omega

/-- The output array of the second aggregation after the region: the aggregation of the arrays it was entered with. -/
theorem final4_4 (c : Dev nD) (dat : Dat τ (Elt Ideal) Unit ℕ (UR sig nD τ) ℕ cfg4 c)
    (hA : ∀ w, dat.A w = V c (Pipeline.arrRef spec4 w))
    (h4 : ∀ t, dat.after 4 t = k4_pay3 (iblk4 V c 2 t) (iblk4 V c 3 t) (accAt4 V c t.val t.isLt)) :
    dat.arrAt 4 cfg4.N = Gcn.aggr (V c main_v0_0) (V c main_v9) (V c main_v6) (V c main_arg5) :=
  dat.arrAt_eq_of_cover 4 (Gcn.aggr (V c main_v0_0) (V c main_v9) (V c main_v6) (V c main_arg5))
    (fun t hf => agg4_flushed_eq V c dat h4 t hf) agg4_cover

end Cert.KernelIdeal.Hand

end
-- ==== Proof.KI.Result.lean ====
/-
  What the kernel program computes, at the ideal values.

  Region 0 leaves the edge-weight matrix `adj A` and its row and column sums `outDeg A`, `inDeg A`; the host
  operations turn the two degree vectors into their normalisers `isq`; a projection region leaves
  `scaleMat H (isq ∘ outDeg A) W` and an aggregation region `aggr (adj A) P (isq ∘ inDeg A) b` of the projected
  features `P` it is handed. Every buffer a later region reads is walked back through the items that leave it alone
  to the item that wrote it. Composed, the first aggregation's result is `layer A X W1 b1` and the second's
  `layer A (layer A X W1 b1) W2 b2`: an aggregation of a projection is by definition one graph convolution.
-/
import proofs.«142270_j68298569941180_1_alg».proof.Proof.KI.Run
import proofs.«142270_j68298569941180_1_alg».proof.Proof.KI.Value0
import proofs.«142270_j68298569941180_1_alg».proof.Proof.KI.Value1
import proofs.«142270_j68298569941180_1_alg».proof.Proof.KI.Value2
import proofs.«142270_j68298569941180_1_alg».proof.Proof.KI.Value3
import proofs.«142270_j68298569941180_1_alg».proof.Proof.KI.Value4
import proofs.«142270_j68298569941180_1_alg».proof.Proof.Spec
import Idealize.ShloMosaic.Lib.StableHlo.Run
import Idealize.ShloMosaic.Lib.ValueIdx

noncomputable section

namespace Cert.KernelIdeal.Hand

open Idealize.ShloMosaic Idealize.ShloMosaic.TcCoe Idealize.ShloMosaic.ValueIdx Idealize.SL.Sem Idealize.ShloMosaic.StableHlo
open Cert.KernelIdeal Cert.KernelIdeal.Gen
open scoped BigOperators

/-- An aggregation of a projection, over the edge weights and the two degree normalisers of one matrix, is one graph
    convolution: the two definitions unfold to the same sums. -/
theorem aggr_scaleMat (A : Gcn.SNN.Idx → EReal) (X : Gcn.SND.Idx → EReal) (W : Gcn.SDD.Idx → EReal) (b : Gcn.SD.Idx → EReal) :
    Gcn.aggr (fun j => Gcn.adj A (j 0) (j 1)) (Gcn.scaleMat X (fun i => Gcn.isq (Gcn.outDeg A (i 0))) W)
      (fun i => Gcn.isq (Gcn.inDeg A (i 0))) b = Gcn.layer A X W b := by
  funext j
  rfl

/-- The float word of one denotes one. -/
theorem one_word : Ideal.ofBits .f32 0x3F800000#32 = 1 := by
  simp [Ideal.ofBits, Ideal.ieee, -EReal.coe_mul]; norm_num

variable (m : (ℓ : Loc nD τ sig) → Buf (Elt Ideal) ℓ)

/-! ## Region 0: the edge weights and the two degree vectors -/

theorem W1_edges (c : Dev nD) : W1 m c (Proc.devRef .tc main_v0_0) = fun j => Gcn.adj (m ((c : Thread nD τ).loc main_arg0)) (j 0) (j 1) :=
  (W1_arr m c 1).trans (final0_1 (E0 m) c (dat0 (E0 m) c) (A_eq0 (E0 m) c) (after0_1 (E0 m) c))
theorem W1_outDeg (c : Dev nD) : W1 m c (Proc.devRef .tc main_v0_1) = fun j => Gcn.outDeg (m ((c : Thread nD τ).loc main_arg0)) (j 0) :=
  (W1_arr m c 2).trans (final0_2 (E0 m) c (dat0 (E0 m) c) (A_eq0 (E0 m) c) (after0_2 (E0 m) c))
theorem W1_inDeg (c : Dev nD) : W1 m c (Proc.devRef .tc main_v0_2) = fun j => Gcn.inDeg (m ((c : Thread nD τ).loc main_arg0)) (j 0) :=
  (W1_arr m c 3).trans (final0_3 (E0 m) c (dat0 (E0 m) c) (A_eq0 (E0 m) c) (after0_3 (E0 m) c))

/-! ## The host operations: the two normalisers -/

theorem W2_outScale (c : Dev nD) :
    W2 m c (Proc.devRef .tc main_v3) = fun i => Gcn.isq (Gcn.outDeg (m ((c : Thread nD τ).loc main_arg0)) (i 0)) := by
  have e : W2 m c (Proc.devRef .tc main_v3)
      = Host.rsqrt (maximumf (W1 m c (Proc.devRef .tc main_v0_1)) (broadcastInDim S4096 ![] bcast_S_S4096 (constant (F := Ideal) S_ .f32 0x3F800000#32))) := by
    show StableHlo.after hostOps1 _ (Proc.devRef .tc main_v3) = _
    after_results
  rw [e, W1_outDeg]
  funext i
  simp only [Host.rsqrt, maximumf, broadcastInDim, constant, Ideal.hostUnary_rsqrt_def, Ideal.maximumf_def, Ideal.ofBits_def, one_word]
  rfl
theorem W2_inScale (c : Dev nD) :
    W2 m c (Proc.devRef .tc main_v6) = fun i => Gcn.isq (Gcn.inDeg (m ((c : Thread nD τ).loc main_arg0)) (i 0)) := by
  have e : W2 m c (Proc.devRef .tc main_v6)
      = Host.rsqrt (maximumf (W1 m c (Proc.devRef .tc main_v0_2)) (broadcastInDim S4096 ![] bcast_S_S4096 (constant (F := Ideal) S_ .f32 0x3F800000#32))) := by
    show StableHlo.after hostOps1 _ (Proc.devRef .tc main_v6) = _
    after_results
  rw [e, W1_inDeg]
  funext i
  simp only [Host.rsqrt, maximumf, broadcastInDim, constant, Ideal.hostUnary_rsqrt_def, Ideal.maximumf_def, Ideal.ofBits_def, one_word]
  rfl

/-! ## The first layer -/

theorem W3_proj (c : Dev nD) : W3 m c (Proc.devRef .tc main_v7)
    = Gcn.scaleMat (m ((c : Thread nD τ).loc main_arg1)) (fun i => Gcn.isq (Gcn.outDeg (m ((c : Thread nD τ).loc main_arg0)) (i 0))) (m ((c : Thread nD τ).loc main_arg2)) := by
  have h := (W3_arr m c 3).trans (final1_3 (E1 m) c (dat1 (E1 m) c) (A_eq1 (E1 m) c) (after1_3 (E1 m) c))
  have h1 : E1 m c main_arg1 = m ((c : Thread nD τ).loc main_arg1) := (W2_of m c main_arg1 (by decide)).trans (W1_keep m c main_arg1 (by decide))
  have h2 : E1 m c main_arg2 = m ((c : Thread nD τ).loc main_arg2) := (W2_of m c main_arg2 (by decide)).trans (W1_keep m c main_arg2 (by decide))
  have h3 : E1 m c main_v3 = _ := W2_outScale m c
  rw [h1, h2, h3] at h
  exact h

theorem W4_layer (c : Dev nD) : W4 m c (Proc.devRef .tc main_v8)
    = Gcn.layer (m ((c : Thread nD τ).loc main_arg0)) (m ((c : Thread nD τ).loc main_arg1)) (m ((c : Thread nD τ).loc main_arg2)) (m ((c : Thread nD τ).loc main_arg3)) := by
  have h := (W4_arr m c 4).trans (final2_4 (E2 m) c (dat2 (E2 m) c) (A_eq2 (E2 m) c) (after2_4 (E2 m) c))
  have h0 : E2 m c main_v0_0 = _ := (W3_keep m c main_v0_0 (by decide)).trans ((W2_of m c main_v0_0 (by decide)).trans (W1_edges m c))
  have h7 : E2 m c main_v7 = _ := W3_proj m c
  have h6 : E2 m c main_v6 = _ := (W3_keep m c main_v6 (by decide)).trans (W2_inScale m c)
  have hb : E2 m c main_arg3 = m ((c : Thread nD τ).loc main_arg3) :=
    (W3_keep m c main_arg3 (by decide)).trans ((W2_of m c main_arg3 (by decide)).trans (W1_keep m c main_arg3 (by decide)))
  rw [h0, h7, h6, hb] at h
  exact h.trans (aggr_scaleMat _ _ _ _)

/-! ## The second layer -/

theorem W5_proj (c : Dev nD) : W5 m c (Proc.devRef .tc main_v9)
    = Gcn.scaleMat (Gcn.layer (m ((c : Thread nD τ).loc main_arg0)) (m ((c : Thread nD τ).loc main_arg1)) (m ((c : Thread nD τ).loc main_arg2)) (m ((c : Thread nD τ).loc main_arg3)))
        (fun i => Gcn.isq (Gcn.outDeg (m ((c : Thread nD τ).loc main_arg0)) (i 0))) (m ((c : Thread nD τ).loc main_arg4)) := by
  have h := (W5_arr m c 3).trans (final3_3 (E3 m) c (dat3 (E3 m) c) (A_eq3 (E3 m) c) (after3_3 (E3 m) c))
  have h8 : E3 m c main_v8 = _ := W4_layer m c
  have h3 : E3 m c main_v3 = _ := (W4_keep m c main_v3 (by decide)).trans ((W3_keep m c main_v3 (by decide)).trans (W2_outScale m c))
  have h4 : E3 m c main_arg4 = m ((c : Thread nD τ).loc main_arg4) :=
    (W4_keep m c main_arg4 (by decide)).trans ((W3_keep m c main_arg4 (by decide)).trans ((W2_of m c main_arg4 (by decide)).trans (W1_keep m c main_arg4 (by decide))))
  rw [h8, h3, h4] at h
  exact h

theorem W6_layer (c : Dev nD) : W6 m c (Proc.devRef .tc main_v10)
    = Gcn.layer (m ((c : Thread nD τ).loc main_arg0))
        (Gcn.layer (m ((c : Thread nD τ).loc main_arg0)) (m ((c : Thread nD τ).loc main_arg1)) (m ((c : Thread nD τ).loc main_arg2)) (m ((c : Thread nD τ).loc main_arg3)))
        (m ((c : Thread nD τ).loc main_arg4)) (m ((c : Thread nD τ).loc main_arg5)) := by
  have h := (W6_arr m c 4).trans (final4_4 (E4 m) c (dat4 (E4 m) c) (A_eq4 (E4 m) c) (after4_4 (E4 m) c))
  have h0 : E4 m c main_v0_0 = _ := (W5_keep m c main_v0_0 (by decide)).trans ((W4_keep m c main_v0_0 (by decide)).trans
    ((W3_keep m c main_v0_0 (by decide)).trans ((W2_of m c main_v0_0 (by decide)).trans (W1_edges m c))))
  have h9 : E4 m c main_v9 = _ := W5_proj m c
  have h6 : E4 m c main_v6 = _ := (W5_keep m c main_v6 (by decide)).trans ((W4_keep m c main_v6 (by decide)).trans
    ((W3_keep m c main_v6 (by decide)).trans (W2_inScale m c)))
  have hb : E4 m c main_arg5 = m ((c : Thread nD τ).loc main_arg5) :=
    (W5_keep m c main_arg5 (by decide)).trans ((W4_keep m c main_arg5 (by decide)).trans ((W3_keep m c main_arg5 (by decide)).trans
      ((W2_of m c main_arg5 (by decide)).trans (W1_keep m c main_arg5 (by decide)))))
  rw [h0, h9, h6, hb] at h
  exact h.trans (aggr_scaleMat _ _ _ _)

/-- The first result is still the first layer at the end: the last two regions do not write it back. -/
theorem W6_first (c : Dev nD) : W6 m c (Proc.devRef .tc main_v8)
    = Gcn.layer (m ((c : Thread nD τ).loc main_arg0)) (m ((c : Thread nD τ).loc main_arg1)) (m ((c : Thread nD τ).loc main_arg2)) (m ((c : Thread nD τ).loc main_arg3)) :=
  (W6_keep m c main_v8 (by decide)).trans ((W5_keep m c main_v8 (by decide)).trans (W4_layer m c))

/-! ## The run with its results named -/

/-- Every weakly fair execution of the idealized kernel program terminates with its two results at the specification's
    two layers of the arguments' launch contents, the six arguments unchanged. -/
theorem run_layers (ρ : Dev nD → PrngReg) :
    θ_run (defs (F := Ideal)) (onTc (τ := τ) (main (F := Ideal))) ⟨m, fun _ => 0, ρ⟩ fun r => ∀ c : Dev nD,
      r.2.mem ((c.tc : Thread nD τ).loc main_v8)
          = Gcn.layer (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_v10)
          = Gcn.layer (m ((c.tc : Thread nD τ).loc main_arg0))
              (Gcn.layer (m ((c.tc : Thread nD τ).loc main_arg0)) (m ((c.tc : Thread nD τ).loc main_arg1))
                (m ((c.tc : Thread nD τ).loc main_arg2)) (m ((c.tc : Thread nD τ).loc main_arg3)))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Ideal)) _ _).mono (fun _ h c =>
    ⟨(h c _ (mem_uc main_v8 (by decide))).trans (W6_first m c),
     (h c _ (mem_uc main_v10 (by decide))).trans (W6_layer m c),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c)⟩) (run_all m ρ)

end Cert.KernelIdeal.Hand

end
-- ==== Proof.Ref.RefValue.lean ====
/-
  The reference's two results are the specification's two layers of the argument arrays.

  The reference builds the weighted adjacency entry by entry (a thresholded entry read as zero or one, plus the
  indicator of the diagonal), sums its rows and its columns, clamps each degree below at one and takes the inverse
  square root, and then runs twice the same chain: scale the features' rows by the out-degree normaliser, multiply by
  the weights, aggregate along the adjacency's columns, scale by the in-degree normaliser, add the bias, clamp at
  zero. Each stage is read at an index and met with the specification's definition; the second layer is the first
  layer's chain applied to the first layer's result.
-/
import proofs.«142270_j68298569941180_1_alg».proof.Proof.Gen.ReferenceIdeal.Run
import proofs.«142270_j68298569941180_1_alg».proof.Proof.Gen.ReferenceIdeal.Read
import proofs.«142270_j68298569941180_1_alg».proof.Proof.Spec
import proofs.«142270_j68298569941180_1_alg».proof.Proof.LibBlockSum
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-! ## Words and flags -/

/-- The float word of one denotes one. -/
theorem word_one : Ideal.ofBits .f32 0x3F800000#32 = 1 := by
  simp [Ideal.ofBits, Ideal.ieee, -EReal.coe_mul]; norm_num

/-- A one-bit flag read as an unsigned integer is the indicator of the proposition it decides. -/
theorem flag_value (p : Prop) [Decidable p] : (((BitVec.ofBool (decide p)).toNat : ℝ) : EReal) = Gcn.ind p := by
  by_cases h : p <;> simp [Gcn.ind, h]

/-- Two node numbers as 32-bit words (the first with the zero word added) are the same word exactly when the
    numbers are equal: both are far below the word's range. -/
theorem same_word_iff (u v : Fin 4096) :
    (IntOp.addi (BitVec.ofNat 32 u.val) 0#32 == BitVec.ofNat 32 v.val) = decide (u.val = v.val) := by
  have hu := u.isLt
  have hv := v.isLt
  rw [IntOp.addi, BitVec.add_zero, beq_eq_decide]
  refine decide_eq_decide.mpr ⟨fun h => ?_, fun h => by rw [h]⟩
  have := congrArg BitVec.toNat h
  simp only [BitVec.toNat_ofNat] at this
  omega

/-! ## The arrays' types

The argument arrays, as the reference reads them. -/

/-- A square matrix over the nodes. -/
abbrev MatNN := (⟨S4096x4096, .f32⟩ : BufTy).Contents (Elt Ideal)
/-- Node features. -/
abbrev MatND := (⟨S4096x256, .f32⟩ : BufTy).Contents (Elt Ideal)
/-- A weight matrix. -/
abbrev MatDD := (⟨S256x256, .f32⟩ : BufTy).Contents (Elt Ideal)
/-- A bias vector. -/
abbrev VecD := (⟨S256, .f32⟩ : BufTy).Contents (Elt Ideal)

/-! ## The weighted adjacency and its degrees -/

/-- The adjacency entry (u, v): the thresholded entry of the matrix plus the diagonal's indicator. -/
theorem adj_at (x0 : MatNN) (u v : Fin 4096) : Read.val_main_v9 (F := Ideal) x0 (ix2 u v) = Gcn.adj x0 u v := by
  rw [Read.val_main_v9_apply, Read.val_main_v2_apply, Read.val_main_v1_apply, Read.val_main_v0_apply,
    Read.val_main_cst_apply, Read.val_main_v8_apply, Read.val_main_v7_apply, Read.val_main_v6_apply,
    Read.val_main_v3_apply, Read.val_main_v5_apply, Read.val_main_c_apply, Read.val_main_v4_apply]
  simp only [Ideal.addf_def, Ideal.ofBits_def, Ideal.cmpf_def, Ideal.cmp, IntOp.cmpi]
  show (((BitVec.ofBool (decide (Gcn.thr ≤ x0 (ix2 u v)))).toNat : ℝ) : EReal)
      + (((BitVec.ofBool (IntOp.addi (BitVec.ofNat 32 u.val) 0#32 == BitVec.ofNat 32 v.val)).toNat : ℝ) : EReal) = _
  rw [same_word_iff, flag_value, flag_value]
  rfl

/-- A row of the adjacency summed is the node's out-degree. -/
theorem outDeg_at (x0 : MatNN) (u : Fin 4096) : Read.val_main_v10 (F := Ideal) x0 (ix1 u) = Gcn.outDeg x0 u := by
  have hi : ∀ k : Fin 4096, Read.idx_main_v10 (ix1 u) k = ix2 u k := fun k =>
    funext fun a => Fin.ext (by match a with | ⟨0, _⟩ => rfl | ⟨1, _⟩ => rfl)
  rw [Read.val_main_v10_apply, Read.val_main_cst_0_apply, Ideal.ofBits_def, Ideal.ofBits_zero_f32, zero_add]
  exact Finset.sum_congr rfl fun k _ => by rw [hi k, adj_at]

/-- A column of the adjacency summed is the node's in-degree. -/
theorem inDeg_at (x0 : MatNN) (v : Fin 4096) : Read.val_main_v13 (F := Ideal) x0 (ix1 v) = Gcn.inDeg x0 v := by
  have hi : ∀ k : Fin 4096, Read.idx_main_v13 (ix1 v) k = ix2 k v := fun k =>
    funext fun a => Fin.ext (by match a with | ⟨0, _⟩ => rfl | ⟨1, _⟩ => rfl)
  rw [Read.val_main_v13_apply, Read.val_main_cst_2_apply, Ideal.ofBits_def, Ideal.ofBits_zero_f32, zero_add]
  exact Finset.sum_congr rfl fun k _ => by rw [hi k, adj_at]

/-- The source side's normaliser: the inverse square root of the out-degree clamped below at one. -/
theorem outScale_at (x0 : MatNN) (u : Fin 4096) :
    Read.val_main_v16 (F := Ideal) x0 (ix1 u) = Gcn.isq (Gcn.outDeg x0 u) := by
  rw [Read.val_main_v16_apply, Read.val_main_v12_apply, Read.val_main_v11_apply, Read.val_main_cst_1_apply, outDeg_at,
    Ideal.hostUnary_rsqrt_def, Ideal.maximumf_def, Ideal.ofBits_def, word_one]
  rfl

/-- The target side's normaliser: the inverse square root of the in-degree clamped below at one. -/
theorem inScale_at (x0 : MatNN) (v : Fin 4096) :
    Read.val_main_v17 (F := Ideal) x0 (ix1 v) = Gcn.isq (Gcn.inDeg x0 v) := by
  rw [Read.val_main_v17_apply, Read.val_main_v15_apply, Read.val_main_v14_apply, Read.val_main_cst_3_apply, inDeg_at,
    Ideal.hostUnary_rsqrt_def, Ideal.maximumf_def, Ideal.ofBits_def, word_one]
  rfl

/-! ## One layer -/

/-- The projected features: row u of the features scaled by u's out-degree normaliser, times column d of the
    weights. -/
theorem proj_at (x0 : MatNN) (x1 : MatND) (x2 : MatDD) (u : Fin 4096) (d : Fin 256) :
    Read.val_main_v21 (F := Ideal) x0 x1 x2 (ix2 u d) = Gcn.proj x0 x1 x2 u d := by
  have hl : ∀ k : Fin 256, Read.lidx_main_v21 (ix2 u d) k = ix2 u k := fun k =>
    funext fun a => Fin.ext (by match a with | ⟨0, _⟩ => rfl | ⟨1, _⟩ => rfl)
  have hr : ∀ k : Fin 256, Read.ridx_main_v21 (ix2 u d) k = ix2 k d := fun k =>
    funext fun a => Fin.ext (by match a with | ⟨0, _⟩ => rfl | ⟨1, _⟩ => rfl)
  have hs : ∀ k : Fin 256, Read.idx_main_v18 (Read.idx_main_v19 (ix2 u k)) = ix1 u := fun k =>
    funext fun a => Fin.ext (by match a with | ⟨0, _⟩ => rfl)
  rw [Read.val_main_v21_apply]
  refine Finset.sum_congr rfl fun k _ => ?_
  rw [hl k, hr k, Read.val_main_v20_apply, Read.val_main_v19_apply, Read.val_main_v18_apply, hs k, outScale_at,
    Ideal.mulf_def]

/-- One graph convolution at node v, column d: the projected features aggregated along column v of the
    adjacency, scaled by v's in-degree normaliser, shifted by the bias, clamped at zero. -/
theorem conv_at (x0 : MatNN) (x1 : MatND) (x2 : MatDD) (x3 : VecD) (v : Fin 4096) (d : Fin 256) :
    Read.val_main_v29 (F := Ideal) x0 x1 x2 x3 (ix2 v d) = Gcn.conv x0 x1 x2 x3 v d := by
  have hl : ∀ k : Fin 4096, Read.lidx_main_v22 (ix2 v d) k = ix2 k v := fun k =>
    funext fun a => Fin.ext (by match a with | ⟨0, _⟩ => rfl | ⟨1, _⟩ => rfl)
  have hr : ∀ k : Fin 4096, Read.ridx_main_v22 (ix2 v d) k = ix2 k d := fun k =>
    funext fun a => Fin.ext (by match a with | ⟨0, _⟩ => rfl | ⟨1, _⟩ => rfl)
  have hs : Read.idx_main_v23 (Read.idx_main_v24 (ix2 v d)) = ix1 v :=
    funext fun a => Fin.ext (by match a with | ⟨0, _⟩ => rfl)
  have hb : Read.idx_main_v26 (Read.idx_main_v27 (ix2 v d)) = ix1 d :=
    funext fun a => Fin.ext (by match a with | ⟨0, _⟩ => rfl)
  have hagg : Read.val_main_v22 (F := Ideal) x0 x1 x2 (ix2 v d) = ∑ u : Fin 4096, Gcn.adj x0 u v * Gcn.proj x0 x1 x2 u d := by
    rw [Read.val_main_v22_apply]
    exact Finset.sum_congr rfl fun k _ => by rw [hl k, hr k, adj_at, proj_at]
  rw [Read.val_main_v29_apply, Read.val_main_v28_apply, Read.val_main_v25_apply, hagg, Read.val_main_v24_apply,
    Read.val_main_v23_apply, hs, inScale_at, Read.val_main_v27_apply, Read.val_main_v26_apply, hb,
    Read.val_main_call0_v0_apply, Read.val_main_call0_cst_apply, Ideal.ofBits_def, Ideal.ofBits_zero_f32,
    Ideal.maximumf_def, Ideal.addf_def, Ideal.mulf_def]
  rfl

/-- The reference's first result is one layer of the arguments. -/
theorem out0_eq (x0 : MatNN) (x1 : MatND) (x2 : MatDD) (x3 : VecD) :
    Read.val_main_v29 (F := Ideal) x0 x1 x2 x3 = Gcn.layer x0 x1 x2 x3 := by
  funext j
  obtain ⟨v, d, rfl⟩ : ∃ (v : Fin 4096) (d : Fin 256), j = ix2 v d := ⟨j 0, j 1, eq_ix2 j⟩
  rw [conv_at, Gcn.layer_apply]

/-! ## The second layer -/

/-- The second layer's chain of operations is the first layer's chain with the first result in the features'
    place and the second weights and bias: operation by operation the same terms. -/
theorem second_chain (x0 : MatNN) (x1 : MatND) (x2 : MatDD) (x3 : VecD) (x4 : MatDD) (x5 : VecD) :
    Read.val_main_v41 (F := Ideal) x0 x1 x2 x3 x4 x5
      = Read.val_main_v29 (F := Ideal) x0 (Read.val_main_v29 (F := Ideal) x0 x1 x2 x3) x4 x5 := rfl

/-- The reference's second result is a layer of the first result. -/
theorem out1_eq (x0 : MatNN) (x1 : MatND) (x2 : MatDD) (x3 : VecD) (x4 : MatDD) (x5 : VecD) :
    Read.val_main_v41 (F := Ideal) x0 x1 x2 x3 x4 x5 = Gcn.layer x0 (Gcn.layer x0 x1 x2 x3) x4 x5 := by
  rw [second_chain, out0_eq, out0_eq]

/-! ## The run -/

/-- Every weakly fair execution of the reference ends with its two results at the specification's two layers of
    the arguments' launch contents, the six arguments unchanged. -/
theorem run_layers (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v29)
          = Gcn.layer (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_v41)
          = Gcn.layer (m ((c.tc : Thread nD τ).loc main_arg0))
              (Gcn.layer (m ((c.tc : Thread nD τ).loc main_arg0)) (m ((c.tc : Thread nD τ).loc main_arg1))
                (m ((c.tc : Thread nD τ).loc main_arg2)) (m ((c.tc : Thread nD τ).loc main_arg3)))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run (defs (F := Ideal)) _ _).mono
    (fun _ h c =>
      ⟨(h c).1.trans ((Read.val_main_v29_eq (F := Ideal) (m ((c.tc : Thread nD τ).loc main_arg0))
            (m ((c.tc : Thread nD τ).loc main_arg1)) (m ((c.tc : Thread nD τ).loc main_arg2))
            (m ((c.tc : Thread nD τ).loc main_arg3))).trans (out0_eq _ _ _ _)),
        (h c).2.1.trans ((Read.val_main_v41_eq (F := Ideal) m c).trans (out1_eq _ _ _ _ _ _)),
        (h c).2.2⟩)
    (Value.run (F := Ideal) m ρ)

end Cert.ReferenceIdeal.RefValue

end
-- ==== Proof.lean ====
/-
  The certificate of a two-layer graph convolution: a Pallas program of five kernel calls against its plain reference.

  Both programs threshold a square matrix at 0.04 into edge weights, add the self loops, sum rows and columns into
  the out- and in-degrees, and apply twice the convolution "scale the sources by their out-degree normaliser, multiply
  by the weights, aggregate along the edges, scale the targets by their in-degree normaliser, add the bias, clamp at
  zero". The kernel does it block by block (row blocks of 512 for the graph, 1024 × 1024 edge blocks accumulated over
  the source blocks for the aggregation) and through bf16 copies; over the extended reals a change of float format is
  the identity and a blocked sum is the sum, so both end at the same two arrays, `Cert.Gcn.layer A X W1 b1` and
  `Cert.Gcn.layer A (layer A X W1 b1) W2 b2` of the argument arrays. Only commutativity and associativity of addition are
  used, so the finiteness of the inputs is never opened.

  The three frames: the word-level and the idealized kernel program by the run of their six items with every
  buffer's contents named between them; the reference by its run. The ideal pass rewrote nothing, so `preserves` is
  trivial.
-/
import proofs.«142270_j68298569941180_1_alg».proof.Defs
import proofs.«142270_j68298569941180_1_alg».proof.Proof.Gen.Kernel
import proofs.«142270_j68298569941180_1_alg».proof.Proof.Gen.KernelIdeal
import proofs.«142270_j68298569941180_1_alg».proof.Proof.Gen.ReferenceIdeal
import proofs.«142270_j68298569941180_1_alg».proof.Proof.Gen.Pre_finite_inputs
import proofs.«142270_j68298569941180_1_alg».proof.Proof.K.Run
import proofs.«142270_j68298569941180_1_alg».proof.Proof.KI.Result
import proofs.«142270_j68298569941180_1_alg».proof.Proof.Ref.RefValue
import Idealize.ShloMosaic.Adequacy
import Idealize.ShloMosaic.Init

noncomputable section

namespace Cert.Proof

open Idealize.ShloMosaic Idealize.SL.Sem

/-- The word-level kernel program runs and leaves its arguments alone. -/
theorem frame_kernel : Cert.frame_Kernel (hKernel := Cert.Kernel.Gen.facts) (hPre_finite_inputs := Cert.Pre_finite_inputs.Gen.facts) :=
  fun m ρ _ => Cert.Kernel.Hand.frame (F := Bits) m ρ

/-- So does the idealized kernel program. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- And the reference: its run with the results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.RefValue.run_layers m ρ)

/-- From memories agreeing on the arguments both idealized programs end at the specification's two layers of those
    arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Hand.run_layers m ρ, ?_⟩
  refine (θ_run Cert.ReferenceIdeal.defs _ _).mono (fun _ h c => ?_) (Cert.ReferenceIdeal.RefValue.run_layers m' ρ')
  obtain ⟨h0, h1, h2, h3, h4, h5⟩ := hagree c
  obtain ⟨hv0, hv1, hkept⟩ := h c
  refine ⟨?_, ?_, hkept⟩
  · rw [hv0, h0, h1, h2, h3]
  · rw [hv1, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
